-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v11_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v11_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16x96 : Shape := ⟨3, ![16384, 16, 96]⟩
abbrev S245760x256 : Shape := ⟨2, ![245760, 256]⟩
abbrev S192x256 : Shape := ⟨2, ![192, 256]⟩
abbrev S256 : Shape := ⟨1, ![256]⟩
abbrev S256x768 : Shape := ⟨2, ![256, 768]⟩
abbrev S768 : Shape := ⟨1, ![768]⟩
abbrev S256x256 : Shape := ⟨2, ![256, 256]⟩
abbrev S_ : Shape := ⟨0, ![]⟩

class Facts : Prop where
  bcast_S_S16384x16x96 : S_.BroadcastsInDim S16384x16x96 (![] : Fin 0 → Fin S16384x16x96.rank)
  reducesTo_S16384x16x96_S_d0_1_2 : S16384x16x96.ReducesTo [0, 1, 2] S_
  h_S_ : 0 < S_.numel
  bcast_S_S245760x256 : S_.BroadcastsInDim S245760x256 (![] : Fin 0 → Fin S245760x256.rank)
  reducesTo_S245760x256_S_d0_1 : S245760x256.ReducesTo [0, 1] S_
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S768 .f32) (main_arg8 : FVec F S256x256 .f32) (main_arg9 : FVec F S256 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S256x768 .f32) (main_arg5 : FVec F S256x768 .f32) (main_arg6 : FVec F S768 .f32) (main_arg7 : FVec F S768 .f32) (main_arg8 : FVec F S256x256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x768 .f32 := Host.absf main_arg4
  let main_cst_6 : FVec F S_ .f32 := constant S_ .f32 0x7F800000#32
  let main_v20 : FVec F S256x768 .f32 := broadcastInDim S256x768 ![] bcast_S_S256x768 main_cst_6
  let main_v21 : IVec S256x768 1 := cmpf .olt main_v19 main_v20
  let main_c_7 : IVec S_ 1 := constantI S_ 1 1#1
  let main_v22 : IVec S_ 1 := (fun x v => Host.reduce IntOp.andi x v reducesTo_S256x768_S_d0_1 h_S_) main_v21 main_c_7
  let main_v23 : IVec S_ 1 := andi main_v18 main_v22
  let main_v24 : FVec F S256x768 .f32 := Host.absf main_arg5
  let main_cst_8 : FVec F S_ .f32 := constant S_ .f32 0x7F800000#32
  let main_v25 : FVec F S256x768 .f32 := broadcastInDim S256x768 ![] bcast_S_S256x768 main_cst_8
  let main_v26 : IVec S256x768 1 := cmpf .olt main_v24 main_v25
  let main_c_9 : IVec S_ 1 := constantI S_ 1 1#1
  let main_v27 : IVec S_ 1 := (fun x v => Host.reduce IntOp.andi x v reducesTo_S256x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_v33

def fn {F : FTy → Type} [FloatOps F] (main_arg0 : FVec F S16384x16x96 .f32) (main_arg1 : FVec F S245760x256 .f32) (main_arg2 : FVec F S192x256 .f32) (main_arg3 : FVec F S256 .f32) (main_arg4 : FVec F S256x768 .f32) (main_arg5 : FVec F S256x768 .f32) (main_arg6 : FVec F S768 .f32) (main_arg7 : FVec F S768 .f32) (main_arg8 : FVec F S256x256 .f32) (main_arg9 : FVec F S256 .f32) : IVec S_ 1 :=
  let main_v0 : FVec F S16384x16x96 .f32 := Host.absf main_arg0
  let main_cst : FVec F S_ .f32 := constant S_ .f32 0x7F800000#32
  let main_v1 : FVec F S16384x16x96 .f32 := broadcastInDim S16384x16x96 ![] bcast_S_S16384x16x96 main_cst
  let main_v2 : IVec S16384x16x96 1 := cmpf .olt main_v0 main_v1
  let main_c : IVec S_ 1 := constantI S_ 1 1#1
  let main_v3 : IVec S_ 1 := (fun x v => Host.reduce IntOp.andi x v reducesTo_S16384x16x96_S_d0_1_2 h_S_) main_v2 main_c
  let main_v4 : FVec F S245760x256 .f32 := Host.absf main_arg1
  let main_cst_0 : FVec F S_ .f32 := constant S_ .f32 0x7F800000#32
  let main_v5 : FVec F S245760x256 .f32 := broadcastInDim S245760x256 ![] bcast_S_S245760x256 main_cst_0
  let main_v6 : IVec S245760x256 1 := cmpf .olt main_v4 main_v5
  let main_c_1 : IVec S_ 1 := constantI S_ 1 1#1
  let main_v7 : IVec S_ 1 := (fun x v => Host.reduce IntOp.andi x v reducesTo_S245760x256_S_d0_1 h_S_) main_v6 main_c_1
  let main_v8 : IVec S_ 1 := andi main_v3 main_v7
  let main_v9 : FVec F S192x256 .f32 := Host.absf main_arg2
  let main_cst_2 : FVec F S_ .f32 := constant S_ .f32 0x7F800000#32
  let main_v10 : FVec F S192x256 .f32 := broadcastInDim S192x256 ![] bcast_S_S192x256 main_cst_2
  let main_v11 : IVec S192x256 1 := cmpf .olt main_v9 main_v10
  let main_c_3 : IVec S_ 1 := constantI S_ 1 1#1
  let main_v12 : IVec S_ 1 := (fun x v => Host.reduce IntOp.andi x v reducesTo_S192x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S16384x16x96 : Shape := ⟨3, ![16384, 16, 96]⟩
abbrev S245760x256 : Shape := ⟨2, ![245760, 256]⟩
abbrev S192x256 : Shape := ⟨2, ![192, 256]⟩
abbrev S256 : Shape := ⟨1, ![256]⟩
abbrev S256x768 : Shape := ⟨2, ![256, 768]⟩
abbrev S768 : Shape := ⟨1, ![768]⟩
abbrev S256x256 : Shape := ⟨2, ![256, 256]⟩
abbrev S16384x15x96 : Shape := ⟨3, ![16384, 15, 96]⟩
abbrev S16384x1x15x96 : Shape := ⟨4, ![16384, 1, 15, 96]⟩
abbrev S16384x2x15x96 : Shape := ⟨4, ![16384, 2, 15, 96]⟩
abbrev S245760x192 : Shape := ⟨2, ![245760, 192]⟩
abbrev S245760x16 : Shape := ⟨2, ![245760, 16]⟩
abbrev S1024x192 : Shape := ⟨2, ![1024, 192]⟩
abbrev S1024x256 : Shape := ⟨2, ![1024, 256]⟩
abbrev S1024x16 : Shape := ⟨2, ![1024, 16]⟩
abbrev S1x256 : Shape := ⟨2, ![1, 256]⟩
abbrev S1024x768 : Shape := ⟨2, ![1024, 768]⟩
abbrev S1x768 : Shape := ⟨2, ![1, 768]⟩
abbrev S1024x16x16 : Shape := ⟨3, ![1024, 16, 16]⟩
abbrev S245760x16x1 : Shape := ⟨3, ![245760, 16, 1]⟩
abbrev S245760x16x2 : Shape := ⟨3, ![245760, 16, 2]⟩
abbrev S491520x16 : Shape := ⟨2, ![491520, 16]⟩
abbrev S32768x15x16 : Shape := ⟨3, ![32768, 15, 16]⟩
abbrev S1x14x16 : Shape := ⟨3, ![1, 14, 16]⟩
abbrev S14x16 : Shape := ⟨2, ![14, 16]⟩
abbrev S_ : Shape := ⟨0, ![]⟩
abbrev S14 : Shape := ⟨1, ![14]⟩
abbrev S14x1 : Shape := ⟨2, ![14, 1]⟩
abbrev S16384x1x16 : Shape := ⟨3, ![16384, 1, 16]⟩
abbrev S16384x14x16 : Shape := ⟨3, ![16384, 14, 16]⟩
abbrev S16384x16x16 : Shape := ⟨3, ![16384, 16, 16]⟩

abbrev nBuf : Space → Nat
  | .hbm => 46
  | .vmem => 18
  | .smem => 0
  | _ => 0

abbrev bufTy : (tb : Table) → Fin (tcTables nBuf tb) → BufTy
  | .hbm, ⟨0, _⟩ => ⟨S16384x16x96, .f32⟩
  | .hbm, ⟨1, _⟩ => ⟨S245760x256, .f32⟩
  | .hbm, ⟨2, _⟩ => ⟨S192x256, .f32⟩
  | .hbm, ⟨3, _⟩ => ⟨S256, .f32⟩
  | .hbm, ⟨4, _⟩ => ⟨S256x768, .f32⟩
  | .hbm, ⟨5, _⟩ => ⟨S256x768, .f32⟩
  | .hbm, ⟨6, _⟩ => ⟨S768, .f32⟩
  | .hbm, ⟨7, _⟩ => ⟨S768, .f32⟩
  | .hbm, ⟨8, _⟩ => ⟨S256x256, .f32⟩
  | .hbm, ⟨9, _⟩ => ⟨S256, .f32⟩
  | .hbm, ⟨10, _⟩ => ⟨S16384x15x96, .f32⟩
  | .hbm, ⟨11, _⟩ => ⟨S16384x15x96, .f32⟩
  | .hbm, ⟨12, _⟩ => ⟨S16384x1x15x96, .f32⟩
  | .hbm, ⟨13, _⟩ => ⟨S16384x1x15x96, .f32⟩
  | .hbm, ⟨14, _⟩ => ⟨S16384x2x15x96, .f32⟩
  | .hbm, ⟨15, _⟩ => ⟨S245760x192, .f32⟩
  | .hbm, ⟨16, _⟩ => ⟨S245760x192, .bf16⟩
  | .hbm, ⟨17, _⟩ => ⟨S192x256, .bf16⟩
  | .hbm, ⟨18, _⟩ => ⟨S256x768, .bf16⟩
  | .hbm, ⟨19, _⟩ => ⟨S256x768, .bf16⟩
  | .hbm, ⟨20, _⟩ => ⟨S256x256, .bf16⟩
  | .hbm, ⟨21, _⟩ => ⟨S245760x256, .f32⟩
  | .hbm, ⟨22, _⟩ => ⟨S245760x16, .f32⟩
  | .hbm, ⟨23, _⟩ => ⟨S245760x16, .f32⟩
  | .hbm, ⟨24, _⟩ => ⟨S245760x16x1, .f32⟩
  | .hbm, ⟨25, _⟩ => ⟨S245760x16x1, .f32⟩
  | .hbm, ⟨26, _⟩ => ⟨S245760x16x2, .f32⟩
  | .hbm, ⟨27, _⟩ => ⟨S491520x16, .f32⟩
  | .hbm, ⟨28, _⟩ => ⟨S32768x15x16, .f32⟩
  | .hbm, ⟨29, _⟩ => ⟨S1x14x16, .f32⟩
  | .hbm, ⟨30, _⟩ => ⟨S14x16, .f32⟩
  | .hbm, ⟨31, _⟩ => ⟨S1x14x16, .f32⟩
  | .hbm, ⟨32, _⟩ => ⟨S14x16, .f32⟩
  | .hbm, ⟨33, _⟩ => ⟨S_, .f32⟩
  | .hbm, ⟨34, _⟩ => ⟨S14, .f32⟩
  | .hbm, ⟨35, _⟩ => ⟨S_, .f32⟩
  | .hbm, ⟨36, _⟩ => ⟨S14, .f32⟩
  | .hbm, ⟨37, _⟩ => ⟨S14, .i1⟩
  | .hbm, ⟨38, _⟩ => ⟨S14x1, .i1⟩
  | .hbm, ⟨39, _⟩ => ⟨S14x16, .i1⟩
  | .hbm, ⟨40, _⟩ => ⟨S14x16, .f32⟩
  | .hbm, ⟨41, _⟩ => ⟨S16384x1x16, .f32⟩
  | .hbm, ⟨42, _⟩ => ⟨S1x14x16, .f32⟩
  | .hbm, ⟨43, _⟩ => ⟨S16384x14x16, .f32⟩
  | .hbm, ⟨44, _⟩ => ⟨S16384x1x16, .f32⟩
  | .hbm, ⟨45, _⟩ => ⟨S16384x16x16, .f32⟩
  | .local _ .vmem, ⟨0, _⟩ => ⟨S1024x192, .bf16⟩
  | .local _ .vmem, ⟨1, _⟩ => ⟨S1024x192, .bf16⟩
  | .local _ .vmem, ⟨2, _⟩ => ⟨S1024x256, .f32⟩
  | .local _ .vmem, ⟨3, _⟩ => ⟨S1024x256, .f32⟩
  | .local _ .vmem, ⟨4, _⟩ => ⟨S192x256, .bf16⟩
  | .local _ .vmem, ⟨5, _⟩ => ⟨S256, .f32⟩
  | .local _ .vmem, ⟨6, _⟩ => ⟨S256x768, .bf16⟩
  | .local _ .vmem, ⟨7, _⟩ => ⟨S768, .f32⟩
  | .local _ .vmem, ⟨8, _⟩ => ⟨S256x768, .bf16⟩
  | .local _ .vmem, ⟨9, _⟩ => ⟨S768, .f32⟩
  | .local _ .vmem, ⟨10, _⟩ => ⟨S256x256, .bf16⟩
  | .local _ .vmem, ⟨11, _⟩ => ⟨S256, .f32⟩
  | .local _ .vmem, ⟨12, _⟩ => ⟨S1024x256, .f32⟩
  | .local _ .vmem, ⟨13, _⟩ => ⟨S1024x256, .f32⟩
  | .local _ .vmem, ⟨14, _⟩ => ⟨S1024x16, .f32⟩
  | .local _ .vmem, ⟨15, _⟩ => ⟨S1024x16, .f32⟩
  | .local _ .vmem, ⟨16, _⟩ => ⟨S1024x16, .f32⟩
  | .local _ .vmem, ⟨17, _⟩ => ⟨S1024x16, .f32⟩
  | _, _ => ⟨S16384x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![240], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S16384x16x96_S16384x15x96_0_0_0 : S16384x16x96.Slices ![0, 0, 0] S16384x15x96
  slices_S16384x16x96_S16384x15x96_0_1_0 : S16384x16x96.Slices ![0, 1, 0] S16384x15x96
  bcast_S16384x15x96_S16384x1x15x96_0_2_3 : S16384x15x96.BroadcastsInDim S16384x1x15x96 (![0, 2, 3] : Fin 3 → Fin S16384x1x15x96.rank)
  concatenates_S16384x1x15x96_S16384x1x15x96_S16384x2x15x96_d1 : Shape.Concatenates [S16384x1x15x96, S16384x1x15x96] S16384x2x15x96 1
  shapeCasts_S16384x2x15x96_S245760x192 : S16384x2x15x96.ShapeCasts S245760x192
  bitsLt_bf16_f32 : FTy.bits .bf16 < FTy.bits .f32
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  inb_S192x256_S192x256_0_0 : ∀ a, (![0, 0] : Fin 2 → Nat) a + S192x256.size a ≤ S192x256.size a
  h_S192x256 : 0 < S192x256.numel
  shapeCasts_S192x256_S192x256 : S192x256.ShapeCasts S192x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  inb_S1024x256_S1024x256_0_0 : ∀ a, (![0, 0] : Fin 2 → Nat) a + S1024x256.size a ≤ S1024x256.size a
  h_S1024x256 : 0 < S1024x256.numel
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S1024x256_S1024x16x16 : S1024x256.ShapeCasts S1024x16x16
  reduces_S1024x16x16_S1024x16 : S1024x16x16.Reduces [2] S1024x16
  reduces_S1024x16x16_S1024x16_2 : S1024x16x16.Reduces [1] S1024x16
  inb_S1024x16_S1024x16_0_0 : ∀ a, (![0, 0] : Fin 2 → Nat) a + S1024x16.size a ≤ S1024x16.size a
  h_S1024x16 : 0 < S1024x16.numel
  bcast_S245760x16_S245760x16x1_0_1 : S245760x16.BroadcastsInDim S245760x16x1 (![0, 1] : Fin 2 → Fin S245760x16x1.rank)
  concatenates_S245760x16x1_S245760x16x1_S245760x16x2_d2 : Shape.Concatenates [S245760x16x1, S245760x16x1] S245760x16x2 2
  shapeCasts_S245760x16x2_S491520x16 : S245760x16x2.ShapeCasts S491520x16
  shapeCasts_S491520x16_S32768x15x16 : S491520x16.ShapeCasts S32768x15x16
  slices_S32768x15x16_S1x14x16_0_1_0 : S32768x15x16.Slices ![0, 1, 0] S1x14x16
  shapeCasts_S1x14x16_S14x16 : S1x14x16.ShapeCasts S14x16
  slices_S32768x15x16_S1x14x16_1_0_0 : S32768x15x16.Slices ![1, 0, 0] S1x14x16
  reducesTo_S14x16_S14_d1 : S14x16.ReducesTo [1] S14
  h_S_ : 0 < S_.numel
  bcast_S14_S14x1_0 : S14.BroadcastsInDim S14x1 (![0] : Fin 1 → Fin S14x1.rank)
  bcast_S14x1_S14x16_0_1 : S14x1.BroadcastsInDim S14x16 (![0, 1] : Fin 2 → Fin S14x16.rank)
  slices_S32768x15x16_S16384x1x16_0_0_0 : S32768x15x16.Slices ![0, 0, 0] S16384x1x16
  bcast_S14x16_S1x14x16_1_2 : S14x16.BroadcastsInDim S1x14x16 (![1, 2] : Fin 2 → Fin S1x14x16.rank)
  bcast_S1x14x16_S16384x14x16_0_1_2 : S1x14x16.BroadcastsInDim S16384x14x16 (![0, 1, 2] : Fin 3 → Fin S16384x14x16.rank)
  slices_S32768x15x16_S16384x1x16_0_14_0 : S32768x15x16.Slices ![0, 14, 0] S16384x1x16
  concatenates_S16384x1x16_S16384x14x16_S16384x1x16_S16384x16x16_d1 : Shape.Concatenates [S16384x1x16, S16384x14x16, S16384x1x16] S16384x16x16 1
  dot_S1024x192_S192x256_S1024x256_1_0_0_1_n_n_wf : DotDims.WF S1024x192 S192x256 S1024x256 [1] [0] [0] [1] [] []
  dot_S1024x256_S256x768_S1024x768_1_0_0_1_n_n_wf : DotDims.WF S1024x256 S256x768 S1024x768 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x192.size a ≤ S245760x192.size a
  hwx0_0 : ∀ i : grid0.Coords, EltTy.bits .bf16 = 32 ∨ (Rect.block (s := S245760x192) S1024x192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S245760x256.size a
  hwx0_1 : ∀ i : grid0.Coords, EltTy.bits .f32 = 32 ∨ (Rect.block (s := S245760x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x256.size a ≤ S192x256.size a
  hwx0_2 : ∀ i : grid0.Coords, EltTy.bits .bf16 = 32 ∨ (Rect.block (s := S192x256) S192x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x768.size a ≤ S256x768.size a
  hwx0_4 : ∀ i : grid0.Coords, EltTy.bits .bf16 = 32 ∨ (Rect.block (s := S256x768) S256x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768.size a ≤ S768.size a
  hwx0_5 : ∀ i : grid0.Coords, EltTy.bits .f32 = 32 ∨ (Rect.block (s := S768) S768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x768.size a ≤ S256x768.size a
  hwx0_6 : ∀ i : grid0.Coords, EltTy.bits .bf16 = 32 ∨ (Rect.block (s := S256x768) S256x768.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768.size a ≤ S768.size a
  hwx0_7 : ∀ i : grid0.Coords, EltTy.bits .f32 = 32 ∨ (Rect.block (s := S768) S768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S245760x256.size a
  hwx0_10 : ∀ i : grid0.Coords, EltTy.bits .f32 = 32 ∨ (Rect.block (s := S245760x256) S1024x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x16.size a ≤ S245760x16.size a
  hwx0_11 : ∀ i : grid0.Coords, EltTy.bits .f32 = 32 ∨ (Rect.block (s := S245760x16) S1024x16.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x16.size a ≤ S245760x16.size a
  hwx0_12 : ∀ i : grid0.Coords, EltTy.bits .f32 = 32 ∨ (Rect.block (s := S245760x16) S1024x16.size (cc0_transform_12 i) (hinb0_12 i)).WholeWords (EltTy.packing .f32)

variable [Facts₀]

def dot_S1024x192_S192x256_S1024x256_1_0_0_1_n_n : DotDims S1024x192 S192x256 S1024x256 where
  lhsContracting := [1]
  rhsContracting := [0]
  lhsNonContracting := [0]
  rhsNonContracting := [1]
  lhsBatch := []
  rhsBatch := []
  wf := dot_S1024x192_S192x256_S1024x256_1_0_0_1_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v6) S1024x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S192x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S256x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11_0) S1024x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v11_1) S1024x16.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v11_2) S1024x16.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x16x96 : Shape := ⟨3, ![16384, 16, 96]⟩
abbrev S245760x256 : Shape := ⟨2, ![245760, 256]⟩
abbrev S192x256 : Shape := ⟨2, ![192, 256]⟩
abbrev S256 : Shape := ⟨1, ![256]⟩
abbrev S256x768 : Shape := ⟨2, ![256, 768]⟩
abbrev S768 : Shape := ⟨1, ![768]⟩
abbrev S256x256 : Shape := ⟨2, ![256, 256]⟩
abbrev S16384x15x96 : Shape := ⟨3, ![16384, 15, 96]⟩
abbrev S16384x1x15x96 : Shape := ⟨4, ![16384, 1, 15, 96]⟩
abbrev S16384x2x15x96 : Shape := ⟨4, ![16384, 2, 15, 96]⟩
abbrev S245760x192 : Shape := ⟨2, ![245760, 192]⟩
abbrev S1x256 : Shape := ⟨2, ![1, 256]⟩
abbrev S_ : Shape := ⟨0, ![]⟩
abbrev S245760x768 : Shape := ⟨2, ![245760, 768]⟩
abbrev S1x768 : Shape := ⟨2, ![1, 768]⟩
abbrev S245760x16x16 : Shape := ⟨3, ![245760, 16, 16]⟩
abbrev S245760x16 : Shape := ⟨2, ![245760, 16]⟩
abbrev S245760x16x1 : Shape := ⟨3, ![245760, 16, 1]⟩
abbrev S245760x16x2 : Shape := ⟨3, ![245760, 16, 2]⟩
abbrev S491520x16 : Shape := ⟨2, ![491520, 16]⟩
abbrev S32768x15x16 : Shape := ⟨3, ![32768, 15, 16]⟩
abbrev S1x14x16 : Shape := ⟨3, ![1, 14, 16]⟩
abbrev S14x16 : Shape := ⟨2, ![14, 16]⟩
abbrev S14 : Shape := ⟨1, ![14]⟩
abbrev S14x1 : Shape := ⟨2, ![14, 1]⟩
abbrev S16384x1x16 : Shape := ⟨3, ![16384, 1, 16]⟩
abbrev S16384x14x16 : Shape := ⟨3, ![16384, 14, 16]⟩
abbrev S16384x16x16 : Shape := ⟨3, ![16384, 16, 16]⟩

abbrev nBuf : Space → Nat
  | .hbm => 95
  | .vmem => 0
  | .smem => 0
  | _ => 0

abbrev bufTy : (tb : Table) → Fin (tcTables nBuf tb) → BufTy
  | .hbm, ⟨0, _⟩ => ⟨S16384x16x96, .f32⟩
  | .hbm, ⟨1, _⟩ => ⟨S245760x256, .f32⟩
  | .hbm, ⟨2, _⟩ => ⟨S192x256, .f32⟩
  | .hbm, ⟨3, _⟩ => ⟨S256, .f32⟩
  | .hbm, ⟨4, _⟩ => ⟨S256x768, .f32⟩
  | .hbm, ⟨5, _⟩ => ⟨S256x768, .f32⟩
  | .hbm, ⟨6, _⟩ => ⟨S768, .f32⟩
  | .hbm, ⟨7, _⟩ => ⟨S768, .f32⟩
  | .hbm, ⟨8, _⟩ => ⟨S256x256, .f32⟩
  | .hbm, ⟨9, _⟩ => ⟨S256, .f32⟩
  | .hbm, ⟨10, _⟩ => ⟨S16384x15x96, .f32⟩
  | .hbm, ⟨11, _⟩ => ⟨S16384x15x96, .f32⟩
  | .hbm, ⟨12, _⟩ => ⟨S16384x1x15x96, .f32⟩
  | .hbm, ⟨13, _⟩ => ⟨S16384x1x15x96, .f32⟩
  | .hbm, ⟨14, _⟩ => ⟨S16384x2x15x96, .f32⟩
  | .hbm, ⟨15, _⟩ => ⟨S245760x192, .f32⟩
  | .hbm, ⟨16, _⟩ => ⟨S245760x256, .f32⟩
  | .hbm, ⟨17, _⟩ => ⟨S1x256, .f32⟩
  | .hbm, ⟨18, _⟩ => ⟨S245760x256, .f32⟩
  | .hbm, ⟨19, _⟩ => ⟨S245760x256, .f32⟩
  | .hbm, ⟨20, _⟩ => ⟨S_, .f32⟩
  | .hbm, ⟨21, _⟩ => ⟨S245760x256, .f32⟩
  | .hbm, ⟨22, _⟩ => ⟨S245760x256, .f32⟩
  | .hbm, ⟨23, _⟩ => ⟨S245760x768, .f32⟩
  | .hbm, ⟨24, _⟩ => ⟨S1x768, .f32⟩
  | .hbm, ⟨25, _⟩ => ⟨S245760x768, .f32⟩
  | .hbm, ⟨26, _⟩ => ⟨S245760x768, .f32⟩
  | .hbm, ⟨27, _⟩ => ⟨S245760x768, .f32⟩
  | .hbm, ⟨28, _⟩ => ⟨S1x768, .f32⟩
  | .hbm, ⟨29, _⟩ => ⟨S245760x768, .f32⟩
  | .hbm, ⟨30, _⟩ => ⟨S245760x768, .f32⟩
  | .hbm, ⟨31, _⟩ => ⟨S245760x256, .f32⟩
  | .hbm, ⟨32, _⟩ => ⟨S245760x256, .f32⟩
  | .hbm, ⟨33, _⟩ => ⟨S245760x256, .f32⟩
  | .hbm, ⟨34, _⟩ => ⟨S245760x256, .f32⟩
  | .hbm, ⟨35, _⟩ => ⟨S245760x256, .f32⟩
  | .hbm, ⟨36, _⟩ => ⟨S245760x256, .f32⟩
  | .hbm, ⟨37, _⟩ => ⟨S245760x256, .f32⟩
  | .hbm, ⟨38, _⟩ => ⟨S245760x256, .f32⟩
  | .hbm, ⟨39, _⟩ => ⟨S245760x256, .f32⟩
  | .hbm, ⟨40, _⟩ => ⟨S_, .f32⟩
  | .hbm, ⟨41, _⟩ => ⟨S245760x256, .f32⟩
  | .hbm, ⟨42, _⟩ => ⟨S245760x256, .f32⟩
  | .hbm, ⟨43, _⟩ => ⟨S_, .f32⟩
  | .hbm, ⟨44, _⟩ => ⟨S245760x256, .f32⟩
  | .hbm, ⟨45, _⟩ => ⟨S245760x256, .f32⟩
  | .hbm, ⟨46, _⟩ => ⟨S245760x256, .f32⟩
  | .hbm, ⟨47, _⟩ => ⟨S245760x256, .f32⟩
  | .hbm, ⟨48, _⟩ => ⟨S245760x256, .f32⟩
  | .hbm, ⟨49, _⟩ => ⟨S_, .f32⟩
  | .hbm, ⟨50, _⟩ => ⟨S245760x256, .f32⟩
  | .hbm, ⟨51, _⟩ => ⟨S245760x256, .f32⟩
  | .hbm, ⟨52, _⟩ => ⟨S_, .f32⟩
  | .hbm, ⟨53, _⟩ => ⟨S245760x256, .f32⟩
  | .hbm, ⟨54, _⟩ => ⟨S245760x256, .f32⟩
  | .hbm, ⟨55, _⟩ => ⟨S245760x256, .f32⟩
  | .hbm, ⟨56, _⟩ => ⟨S245760x256, .f32⟩
  | .hbm, ⟨57, _⟩ => ⟨S245760x256, .f32⟩
  | .hbm, ⟨58, _⟩ => ⟨S_, .f32⟩
  | .hbm, ⟨59, _⟩ => ⟨S245760x256, .f32⟩
  | .hbm, ⟨60, _⟩ => ⟨S245760x256, .f32⟩
  | .hbm, ⟨61, _⟩ => ⟨S245760x256, .f32⟩
  | .hbm, ⟨62, _⟩ => ⟨S245760x256, .f32⟩
  | .hbm, ⟨63, _⟩ => ⟨S245760x256, .f32⟩
  | .hbm, ⟨64, _⟩ => ⟨S245760x256, .f32⟩
  | .hbm, ⟨65, _⟩ => ⟨S1x256, .f32⟩
  | .hbm, ⟨66, _⟩ => ⟨S245760x256, .f32⟩
  | .hbm, ⟨67, _⟩ => ⟨S245760x256, .f32⟩
  | .hbm, ⟨68, _⟩ => ⟨S245760x16x16, .f32⟩
  | .hbm, ⟨69, _⟩ => ⟨S_, .f32⟩
  | .hbm, ⟨70, _⟩ => ⟨S245760x16, .f32⟩
  | .hbm, ⟨71, _⟩ => ⟨S_, .f32⟩
  | .hbm, ⟨72, _⟩ => ⟨S245760x16, .f32⟩
  | .hbm, ⟨73, _⟩ => ⟨S245760x16x1, .f32⟩
  | .hbm, ⟨74, _⟩ => ⟨S245760x16x1, .f32⟩
  | .hbm, ⟨75, _⟩ => ⟨S245760x16x2, .f32⟩
  | .hbm, ⟨76, _⟩ => ⟨S491520x16, .f32⟩
  | .hbm, ⟨77, _⟩ => ⟨S32768x15x16, .f32⟩
  | .hbm, ⟨78, _⟩ => ⟨S1x14x16, .f32⟩
  | .hbm, ⟨79, _⟩ => ⟨S14x16, .f32⟩
  | .hbm, ⟨80, _⟩ => ⟨S1x14x16, .f32⟩
  | .hbm, ⟨81, _⟩ => ⟨S14x16, .f32⟩
  | .hbm, ⟨82, _⟩ => ⟨S_, .f32⟩
  | .hbm, ⟨83, _⟩ => ⟨S14, .f32⟩
  | .hbm, ⟨84, _⟩ => ⟨S_, .f32⟩
  | .hbm, ⟨85, _⟩ => ⟨S14, .f32⟩
  | .hbm, ⟨86, _⟩ => ⟨S14, .i1⟩
  | .hbm, ⟨87, _⟩ => ⟨S14x1, .i1⟩
  | .hbm, ⟨88, _⟩ => ⟨S14x16, .i1⟩
  | .hbm, ⟨89, _⟩ => ⟨S14x16, .f32⟩
  | .hbm, ⟨90, _⟩ => ⟨S16384x1x16, .f32⟩
  | .hbm, ⟨91, _⟩ => ⟨S1x14x16, .f32⟩
  | .hbm, ⟨92, _⟩ => ⟨S16384x14x16, .f32⟩
  | .hbm, ⟨93, _⟩ => ⟨S16384x1x16, .f32⟩
  | .hbm, ⟨94, _⟩ => ⟨S16384x16x16, .f32⟩
  | _, _ => ⟨S16384x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_cst_0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_1 : Ref sig .tc := ⟨.hbm, 49, rfl⟩
abbrev main_v35 : Ref sig .tc := ⟨.hbm, 50, rfl⟩
abbrev main_v36 : Ref sig .tc := ⟨.hbm, 51, rfl⟩
abbrev main_cst_2 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_3 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_4 : Ref sig .tc := ⟨.hbm, 69, rfl⟩
abbrev main_v52 : Ref sig .tc := ⟨.hbm, 70, rfl⟩
abbrev main_cst_5 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_6 : Ref sig .tc := ⟨.hbm, 82, rfl⟩
abbrev main_v63 : Ref sig .tc := ⟨.hbm, 83, rfl⟩
abbrev main_cst_7 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_call1_v0 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]

class Facts₀ : Prop where
  slices_S16384x16x96_S16384x15x96_0_0_0 : S16384x16x96.Slices ![0, 0, 0] S16384x15x96
  slices_S16384x16x96_S16384x15x96_0_1_0 : S16384x16x96.Slices ![0, 1, 0] S16384x15x96
  bcast_S16384x15x96_S16384x1x15x96_0_2_3 : S16384x15x96.BroadcastsInDim S16384x1x15x96 (![0, 2, 3] : Fin 3 → Fin S16384x1x15x96.rank)
  concatenates_S16384x1x15x96_S16384x1x15x96_S16384x2x15x96_d1 : Shape.Concatenates [S16384x1x15x96, S16384x1x15x96] S16384x2x15x96 1
  shapeCasts_S16384x2x15x96_S245760x192 : S16384x2x15x96.ShapeCasts S245760x192
  bcast_S256_S1x256_1 : S256.BroadcastsInDim S1x256 (![1] : Fin 1 → Fin S1x256.rank)
  bcast_S1x256_S245760x256_0_1 : S1x256.BroadcastsInDim S245760x256 (![0, 1] : Fin 2 → Fin S245760x256.rank)
  bcast_S_S245760x256 : S_.BroadcastsInDim S245760x256 (![] : Fin 0 → Fin S245760x256.rank)
  bcast_S768_S1x768_1 : S768.BroadcastsInDim S1x768 (![1] : Fin 1 → Fin S1x768.rank)
  bcast_S1x768_S245760x768_0_1 : S1x768.BroadcastsInDim S245760x768 (![0, 1] : Fin 2 → Fin S245760x768.rank)
  slices_S245760x768_S245760x256_0_0 : S245760x768.Slices ![0, 0] S245760x256
  slices_S245760x768_S245760x256_0_256 : S245760x768.Slices ![0, 256] S245760x256
  slices_S245760x768_S245760x256_0_512 : S245760x768.Slices ![0, 512] S245760x256
  shapeCasts_S245760x256_S245760x16x16 : S245760x256.ShapeCasts S245760x16x16
  reducesTo_S245760x16x16_S245760x16_d2 : S245760x16x16.ReducesTo [2] S245760x16
  h_S_ : 0 < S_.numel
  reducesTo_S245760x16x16_S245760x16_d1 : S245760x16x16.ReducesTo [1] S245760x16
  bcast_S245760x16_S245760x16x1_0_1 : S245760x16.BroadcastsInDim S245760x16x1 (![0, 1] : Fin 2 → Fin S245760x16x1.rank)
  concatenates_S245760x16x1_S245760x16x1_S245760x16x2_d2 : Shape.Concatenates [S245760x16x1, S245760x16x1] S245760x16x2 2
  shapeCasts_S245760x16x2_S491520x16 : S245760x16x2.ShapeCasts S491520x16
  shapeCasts_S491520x16_S32768x15x16 : S491520x16.ShapeCasts S32768x15x16
  slices_S32768x15x16_S1x14x16_0_1_0 : S32768x15x16.Slices ![0, 1, 0] S1x14x16
  shapeCasts_S1x14x16_S14x16 : S1x14x16.ShapeCasts S14x16
  slices_S32768x15x16_S1x14x16_1_0_0 : S32768x15x16.Slices ![1, 0, 0] S1x14x16
  reducesTo_S14x16_S14_d1 : S14x16.ReducesTo [1] S14
  bcast_S14_S14x1_0 : S14.BroadcastsInDim S14x1 (![0] : Fin 1 → Fin S14x1.rank)
  bcast_S14x1_S14x16_0_1 : S14x1.BroadcastsInDim S14x16 (![0, 1] : Fin 2 → Fin S14x16.rank)
  slices_S32768x15x16_S16384x1x16_0_0_0 : S32768x15x16.Slices ![0, 0, 0] S16384x1x16
  bcast_S14x16_S1x14x16_1_2 : S14x16.BroadcastsInDim S1x14x16 (![1, 2] : Fin 2 → Fin S1x14x16.rank)
  bcast_S1x14x16_S16384x14x16_0_1_2 : S1x14x16.BroadcastsInDim S16384x14x16 (![0, 1, 2] : Fin 3 → Fin S16384x14x16.rank)
  slices_S32768x15x16_S16384x1x16_0_14_0 : S32768x15x16.Slices ![0, 14, 0] S16384x1x16
  concatenates_S16384x1x16_S16384x14x16_S16384x1x16_S16384x16x16_d1 : Shape.Concatenates [S16384x1x16, S16384x14x16, S16384x1x16] S16384x16x16 1
  dot_S245760x192_S192x256_S245760x256_1_0_0_1_n_n_wf : DotDims.WF S245760x192 S192x256 S245760x256 [1] [0] [0] [1] [] []
  dot_S245760x256_S256x768_S245760x768_1_0_0_1_n_n_wf : DotDims.WF S245760x256 S256x768 S245760x768 [1] [0] [0] [1] [] []
  dot_S245760x256_S256x256_S245760x256_1_0_0_1_n_n_wf : DotDims.WF S245760x256 S256x256 S245760x256 [1] [0] [0] [1] [] []

variable [Facts₀]

def dot_S245760x192_S192x256_S245760x256_1_0_0_1_n_n : DotDims S245760x192 S192x256 S245760x256 where
  lhsContracting := [1]
  rhsContracting := [0]
  lhsNonContracting := [0]
  rhsNonContracting := [1]
  lhsBatch := []
  rhsBatch := []
  wf := dot_S245760x192_S192x256_S245760x256_1_0_0_1_n_n_wf
def dot_S245760x256_S256x768_S245760x768_1_0_0_1_n_n : DotDims S245760x256 S256x768 S245760x768 where
  lhsContracting := [1]
  rhsContracting := [0]
  lhsNonContracting := [0]
  rhsNonContracting := [1]
  lhsBatch := []
  rhsBatch := []
  wf := dot_S245760x256_S256x768_S245760x768_1_0_0_1_n_n_wf
def dot_S245760x256_S256x256_S245760x256_1_0_0_1_n_n : DotDims S245760x256 S256x256 S245760x256 where
  lhsContracting := [1]
  rhsContracting := [0]
  lhsNonContracting := [0]
  rhsNonContracting := [1]
  lhsBatch := []
  rhsBatch := []
  wf := dot_S245760x256_S256x256_S245760x256_1_0_0_1_n_n_wf

class Facts : Prop extends Facts₀ where

variable [Facts]
-- ==== Proof.FrameK.lean ====
/- The frame certificate of this program: @main is eleven host operations, one pipelined region of 240 points over
   thirteen windows, and three further stretches of host operations.  The region's body reads each input block whole,
   computes three values from them and stores each whole into its output block; nothing else is touched.  So the ten
   argument arrays end as they began, and each output array ends, block by block, at a closed expression of the input
   blocks (`out0_10`, `out0_11`, `out0_12`).  Everything here holds at any float instance `F`. -/
import proofs.«156184_j52063593562852_1_alg».proof.Proof.Gen.Kernel.Launch
import proofs.«156184_j52063593562852_1_alg».proof.Proof.Gen.Kernel.Skeleton
import proofs.«156184_j52063593562852_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership of an index in a rectangle as large as a block recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The contents of core `c`'s buffers once the eleven host operations before the region have run from `m`. -/
abbrev V0 (c : Dev nD) : Valuation τ sig (Elt F) := StableHlo.after (List.flatten [hostOps0]) (fun b => m (c, b))
/-- `V0` at a TensorCore reference. -/
abbrev V (c : Dev nD) (b : Ref sig .tc) : Buf (Elt F) ((c : Thread nD τ).loc b) := V0 m c (Proc.devRef .tc b)

/-- No host operation of the program allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is: the first stretch of host operations, the region, the three later stretches.  Holding the buffers at the
    launch contents it therefore reduces to the region, entered at `V`, continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-! ## The three stretches after the region -/

/-- Every buffer they name is an unscoped TensorCore buffer: one of the region's arrays or a buffer the region never
    sees.  (The region prefetches no table, so these two kinds are all the unscoped buffers.) -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- None of them allocates. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
set_option maxHeartbeats 1000000 in
/-- None of them writes an array of the region: each writes its one result buffer, and no result buffer of these
    twenty-two operations is among the thirteen arrays. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_1, List.mem_cons, List.mem_nil_iff, or_false] at hop
    rcases hop with rfl | rfl
    all_goals intro w; fin_cases w <;> simp only [StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_2, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays before and after the region -/

/-- The eleven operations before the region write their own results only, none of which is `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The eleven operations before the region write their own results only, none of which is `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The eleven operations before the region write their own results only, none of which is `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The eleven operations before the region write their own results only, none of which is `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The eleven operations before the region write their own results only, none of which is `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The eleven operations before the region write their own results only, none of which is `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The eleven operations before the region write their own results only, none of which is `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The eleven operations before the region write their own results only, none of which is `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The eleven operations before the region write their own results only, none of which is `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The eleven operations before the region write their own results only, none of which is `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- `main_arg0` is no array of the region and no result of a later operation: after everything it is as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, StableHlo.TRef.unary, StableHlo.TRef.ternary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 1000000 in
/-- `main_arg1` is the array of input window 1: the region leaves an input's array as it found it, the proof data's
    array being the region-entry contents (`hA`), and no later operation writes it. -/
theorem W_main_arg1 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1, hostOps1_2] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, StableHlo.TRef.unary, StableHlo.TRef.ternary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  refine (Pipeline.withArrays_arr spec0 launch0.win.arr_inj c (V0 m c) _ 1).trans ?_
  exact ((dats 0 c).arrAt_in 1 rfl _).trans ((hA c 1).trans (V_main_arg1 m c))

set_option maxHeartbeats 1000000 in
/-- `main_arg2` is no array of the region and no result of a later operation: after everything it is as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, StableHlo.TRef.unary, StableHlo.TRef.ternary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 1000000 in
/-- `main_arg3` is the array of input window 3: the region leaves an input's array as it found it, the proof data's
    array being the region-entry contents (`hA`), and no later operation writes it. -/
theorem W_main_arg3 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1, hostOps1_2] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, StableHlo.TRef.unary, StableHlo.TRef.ternary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  refine (Pipeline.withArrays_arr spec0 launch0.win.arr_inj c (V0 m c) _ 3).trans ?_
  exact ((dats 0 c).arrAt_in 3 rfl _).trans ((hA c 3).trans (V_main_arg3 m c))

set_option maxHeartbeats 1000000 in
/-- `main_arg4` is no array of the region and no result of a later operation: after everything it is as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, StableHlo.TRef.unary, StableHlo.TRef.ternary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 1000000 in
/-- `main_arg5` is no array of the region and no result of a later operation: after everything it is as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, StableHlo.TRef.unary, StableHlo.TRef.ternary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 1000000 in
/-- `main_arg6` is the array of input window 5: the region leaves an input's array as it found it, the proof data's
    array being the region-entry contents (`hA`), and no later operation writes it. -/
theorem W_main_arg6 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1, hostOps1_2] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, StableHlo.TRef.unary, StableHlo.TRef.ternary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  refine (Pipeline.withArrays_arr spec0 launch0.win.arr_inj c (V0 m c) _ 5).trans ?_
  exact ((dats 0 c).arrAt_in 5 rfl _).trans ((hA c 5).trans (V_main_arg6 m c))

set_option maxHeartbeats 1000000 in
/-- `main_arg7` is the array of input window 7: the region leaves an input's array as it found it, the proof data's
    array being the region-entry contents (`hA`), and no later operation writes it. -/
theorem W_main_arg7 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1, hostOps1_2] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, StableHlo.TRef.unary, StableHlo.TRef.ternary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  refine (Pipeline.withArrays_arr spec0 launch0.win.arr_inj c (V0 m c) _ 7).trans ?_
  exact ((dats 0 c).arrAt_in 7 rfl _).trans ((hA c 7).trans (V_main_arg7 m c))

set_option maxHeartbeats 1000000 in
/-- `main_arg8` is no array of the region and no result of a later operation: after everything it is as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, hostOps1_1, hostOps1_2, StableHlo.TRef.unary, StableHlo.TRef.ternary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

set_option maxHeartbeats 1000000 in
/-- `main_arg9` is the array of input window 9: the region leaves an input's array as it found it, the proof data's
    array being the region-entry contents (`hA`), and no later operation writes it. -/
theorem W_main_arg9 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1, hostOps1_2] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, hostOps1_1, hostOps1_2, StableHlo.TRef.unary, StableHlo.TRef.ternary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  refine (Pipeline.withArrays_arr spec0 launch0.win.arr_inj c (V0 m c) _ 9).trans ?_
  exact ((dats 0 c).arrAt_in 9 rfl _).trans ((hA c 9).trans (V_main_arg9 m c))

/-! ## The windows' blocks -/

/-- The block of window `w` at point `t`, cut out of the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Whenever the body is called, input window 0's current staging buffer holds that point's block — whether the
    block was fetched at this point or stayed from an earlier one (then the block index has not moved).  For any proof
    data on `V`'s arrays (`hA`) whose body leaves this buffer alone (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Whenever the body is called, input window 1's current staging buffer holds that point's block — whether the
    block was fetched at this point or stayed from an earlier one (then the block index has not moved).  For any proof
    data on `V`'s arrays (`hA`) whose body leaves this buffer alone (`hafter`). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Whenever the body is called, input window 2's current staging buffer holds that point's block — whether the
    block was fetched at this point or stayed from an earlier one (then the block index has not moved).  For any proof
    data on `V`'s arrays (`hA`) whose body leaves this buffer alone (`hafter`). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Whenever the body is called, input window 3's current staging buffer holds that point's block — whether the
    block was fetched at this point or stayed from an earlier one (then the block index has not moved).  For any proof
    data on `V`'s arrays (`hA`) whose body leaves this buffer alone (`hafter`). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Whenever the body is called, input window 4's current staging buffer holds that point's block — whether the
    block was fetched at this point or stayed from an earlier one (then the block index has not moved).  For any proof
    data on `V`'s arrays (`hA`) whose body leaves this buffer alone (`hafter`). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Whenever the body is called, input window 5's current staging buffer holds that point's block — whether the
    block was fetched at this point or stayed from an earlier one (then the block index has not moved).  For any proof
    data on `V`'s arrays (`hA`) whose body leaves this buffer alone (`hafter`). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Whenever the body is called, input window 6's current staging buffer holds that point's block — whether the
    block was fetched at this point or stayed from an earlier one (then the block index has not moved).  For any proof
    data on `V`'s arrays (`hA`) whose body leaves this buffer alone (`hafter`). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Whenever the body is called, input window 7's current staging buffer holds that point's block — whether the
    block was fetched at this point or stayed from an earlier one (then the block index has not moved).  For any proof
    data on `V`'s arrays (`hA`) whose body leaves this buffer alone (`hafter`). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Whenever the body is called, input window 8's current staging buffer holds that point's block — whether the
    block was fetched at this point or stayed from an earlier one (then the block index has not moved).  For any proof
    data on `V`'s arrays (`hA`) whose body leaves this buffer alone (`hafter`). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Whenever the body is called, input window 9's current staging buffer holds that point's block — whether the
    block was fetched at this point or stayed from an earlier one (then the block index has not moved).  For any proof
    data on `V`'s arrays (`hA`) whose body leaves this buffer alone (`hafter`). -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## From the region's run to the frame claim -/

set_option maxHeartbeats 1000000 in
/-- A run of @main ending with every array of the region at what the proof data compute and every other unscoped buffer
    at what the later stretches leave gives the frame claim's post, for any proof data on `V`'s arrays: an argument
    array that is an input window's array ends at the proof data's array (inputs are never written back), which is
    `V`'s, which is `m`'s; an argument array the region never sees ends, by the lemmas above, at `m`'s. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(((h c).2 main_arg0 (Pipeline.mem_restRefs_of main_arg0 (by decide) (by decide))).trans (W_main_arg0 m dats c)),
      ((h c).1 1).trans (((dats 0 c).arrAt_in 1 rfl _).trans ((hA c 1).trans (V_main_arg1 m c))),
      (((h c).2 main_arg2 (Pipeline.mem_restRefs_of main_arg2 (by decide) (by decide))).trans (W_main_arg2 m dats c)),
      ((h c).1 3).trans (((dats 0 c).arrAt_in 3 rfl _).trans ((hA c 3).trans (V_main_arg3 m c))),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      ((h c).1 5).trans (((dats 0 c).arrAt_in 5 rfl _).trans ((hA c 5).trans (V_main_arg6 m c))),
      ((h c).1 7).trans (((dats 0 c).arrAt_in 7 rfl _).trans ((hA c 7).trans (V_main_arg7 m c))),
      (((h c).2 main_arg8 (Pipeline.mem_restRefs_of main_arg8 (by decide) (by decide))).trans (W_main_arg8 m dats c)),
      ((h c).1 9).trans (((dats 0 c).arrAt_in 9 rfl _).trans ((hA c 9).trans (V_main_arg9 m c)))⟩) h

/-! ## The body's accesses

Every load and every store of the body goes through the rectangle that is its whole buffer; one per block shape. -/

abbrev rA : Rect S1024x192 := Rect.unit (s := S1024x192) ![0, 0] S1024x192.size inb_S1024x192_S1024x192_0_0
abbrev rB : Rect S1024x256 := Rect.unit (s := S1024x256) ![0, 0] S1024x256.size inb_S1024x256_S1024x256_0_0
abbrev rC : Rect S192x256 := Rect.unit (s := S192x256) ![0, 0] S192x256.size inb_S192x256_S192x256_0_0
abbrev rD : Rect S256 := Rect.unit (s := S256) ![0] S256.size inb_S256_S256_0
abbrev rE : Rect S256x768 := Rect.unit (s := S256x768) ![0, 0] S256x768.size inb_S256x768_S256x768_0_0
abbrev rG : Rect S768 := Rect.unit (s := S768) ![0] S768.size inb_S768_S768_0
abbrev rH : Rect S256x256 := Rect.unit (s := S256x256) ![0, 0] S256x256.size inb_S256x256_S256x256_0_0
abbrev rJ : Rect S1024x16 := Rect.unit (s := S1024x16) ![0, 0] S1024x16.size inb_S1024x16_S1024x16_0_0

/-! ## What the body leaves in each output block

The body computes two gates from the eight blocks of windows 0 to 7 (`k0_pay7`, `k0_pay8`), blends them with window 1's
block into the new state (`k0_pay1`), and reduces a projection of the new state by windows 8 and 9 along each of its
two inner axes (`k0_pay3`, `k0_pay4`).  Each result is stored whole, so each output block is one piece. -/

/-- Window 10's block after the body: the new state. -/
def out0_10 (x0 : Vec F S1024x192 .bf16) (x1 : Vec F S1024x256 .f32) (x2 : Vec F S192x256 .bf16) (x3 : Vec F S256 .f32) (x4 : Vec F S256x768 .bf16) (x5 : Vec F S768 .f32) (x6 : Vec F S256x768 .bf16) (x7 : Vec F S768 .f32) : Vec F S1024x256 .f32 :=
  View.canon [⟨rB, k0_pay1 (View.ld x1 rB) (k0_pay7 (View.ld x0 rA) (View.ld x2 rC) (View.ld x3 rD) (View.ld x4 rE) (View.ld x5 rG) (View.ld x1 rB) (View.ld x6 rE) (View.ld x7 rG)) (k0_pay8 (View.ld x0 rA) (View.ld x2 rC) (View.ld x3 rD) (View.ld x4 rE) (View.ld x5 rG) (View.ld x1 rB) (View.ld x6 rE) (View.ld x7 rG)) (Scalar.ofBits .f32 0x3F800000#32)⟩]

/-- Window 11's block after the body: the projection's maximum along its last axis. -/
def out0_11 (x0 : Vec F S1024x192 .bf16) (x1 : Vec F S1024x256 .f32) (x2 : Vec F S192x256 .bf16) (x3 : Vec F S256 .f32) (x4 : Vec F S256x768 .bf16) (x5 : Vec F S768 .f32) (x6 : Vec F S256x768 .bf16) (x7 : Vec F S768 .f32) (x8 : Vec F S256x256 .bf16) (x9 : Vec F S256 .f32) : Vec F S1024x16 .f32 :=
  View.canon [⟨rJ, k0_pay3 (View.ld x1 rB) (k0_pay7 (View.ld x0 rA) (View.ld x2 rC) (View.ld x3 rD) (View.ld x4 rE) (View.ld x5 rG) (View.ld x1 rB) (View.ld x6 rE) (View.ld x7 rG)) (k0_pay8 (View.ld x0 rA) (View.ld x2 rC) (View.ld x3 rD) (View.ld x4 rE) (View.ld x5 rG) (View.ld x1 rB) (View.ld x6 rE) (View.ld x7 rG)) (Scalar.ofBits .f32 0x3F800000#32) (View.ld x8 rH) (View.ld x9 rD)⟩]

/-- Window 12's block after the body: the projection's maximum along its middle axis. -/
def out0_12 (x0 : Vec F S1024x192 .bf16) (x1 : Vec F S1024x256 .f32) (x2 : Vec F S192x256 .bf16) (x3 : Vec F S256 .f32) (x4 : Vec F S256x768 .bf16) (x5 : Vec F S768 .f32) (x6 : Vec F S256x768 .bf16) (x7 : Vec F S768 .f32) (x8 : Vec F S256x256 .bf16) (x9 : Vec F S256 .f32) : Vec F S1024x16 .f32 :=
  View.canon [⟨rJ, k0_pay4 (View.ld x1 rB) (k0_pay7 (View.ld x0 rA) (View.ld x2 rC) (View.ld x3 rD) (View.ld x4 rE) (View.ld x5 rG) (View.ld x1 rB) (View.ld x6 rE) (View.ld x7 rG)) (k0_pay8 (View.ld x0 rA) (View.ld x2 rC) (View.ld x3 rD) (View.ld x4 rE) (View.ld x5 rG) (View.ld x1 rB) (View.ld x6 rE) (View.ld x7 rG)) (Scalar.ofBits .f32 0x3F800000#32) (View.ld x8 rH) (View.ld x9 rD)⟩]

/-- One store through the whole rectangle covers the block. -/
theorem cover0_10 (p0 : Vec F S1024x256 .f32) (y : S1024x256.Idx) :
    ∃ pc ∈ ([⟨rB, p0⟩] : List (View.Piece (Elt F) S1024x256 .f32)), y ∈ pc.1.set :=
  View.cover_of_tiled [⟨rB, p0⟩] S1024x256.size (by rfl) y
theorem cover0_11 (p0 : Vec F S1024x16 .f32) (y : S1024x16.Idx) :
    ∃ pc ∈ ([⟨rJ, p0⟩] : List (View.Piece (Elt F) S1024x16 .f32)), y ∈ pc.1.set :=
  View.cover_of_tiled [⟨rJ, p0⟩] S1024x16.size (by rfl) y

/-! ## The body's triple -/

set_option maxHeartbeats 4000000 in
/-- The body, called on whole staging buffers with the ten inputs' at contents reading `x0 … x9` and the three outputs'
    at anything, returns with the inputs' unchanged and the outputs' reading `out0_10`, `out0_11`, `out0_12` of them.
    The body is its sequence of memory operations over named values; it is run operation by operation.  (It also loads
    each output buffer just before storing it; the value loaded is not used.) -/
theorem sound_kernel (c : Dev nD) (E : Set ℕ) (i : grid0.Coords) (arg1 : Memref sig .tc .vmem S1024x192 .bf16) (harg1 : arg1.IsWhole) (arg2 : Memref sig .tc .vmem S1024x256 .f32) (harg2 : arg2.IsWhole) (arg3 : Memref sig .tc .vmem S192x256 .bf16) (harg3 : arg3.IsWhole) (arg4 : Memref sig .tc .vmem S256 .f32) (harg4 : arg4.IsWhole) (arg5 : Memref sig .tc .vmem S256x768 .bf16) (harg5 : arg5.IsWhole) (arg6 : Memref sig .tc .vmem S768 .f32) (harg6 : arg6.IsWhole) (arg7 : Memref sig .tc .vmem S256x768 .bf16) (harg7 : arg7.IsWhole) (arg8 : Memref sig .tc .vmem S768 .f32) (harg8 : arg8.IsWhole) (arg9 : Memref sig .tc .vmem S256x256 .bf16) (harg9 : arg9.IsWhole) (arg10 : Memref sig .tc .vmem S256 .f32) (harg10 : arg10.IsWhole) (arg11 : Memref sig .tc .vmem S1024x256 .f32) (harg11 : arg11.IsWhole) (arg12 : Memref sig .tc .vmem S1024x16 .f32) (harg12 : arg12.IsWhole) (arg13 : Memref sig .tc .vmem S1024x16 .f32) (harg13 : arg13.IsWhole)
    (x0 : Vec F S1024x192 .bf16) (x1 : Vec F S1024x256 .f32) (x2 : Vec F S192x256 .bf16) (x3 : Vec F S256 .f32) (x4 : Vec F S256x768 .bf16) (x5 : Vec F S768 .f32) (x6 : Vec F S256x768 .bf16) (x7 : Vec F S768 .f32) (x8 : Vec F S256x256 .bf16) (x9 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7) ∗ owns (c : Thread nD τ) arg12 fullShare (out0_11 x0 x1 x2 x3 x4 x5 x6 x7 x8 x9) ∗ owns (c : Thread nD τ) arg13 fullShare (out0_12 x0 x1 x2 x3 x4 x5 x6 x7 x8 x9)) -∗ K ⟨⟩))
      ⊢ wp frame (wpE (defs₀ (F := F)) Variants.none c none) E (cc0__gru_decode_kernel i arg1 harg1 arg2 harg2 arg3 harg3 arg4 harg4 arg5 harg5 arg6 harg6 arg7 harg7 arg8 harg8 arg9 harg9 arg10 harg10 arg11 harg11 arg12 harg12 arg13 harg13) K := by
  simp only [cc0__gru_decode_kernel_eq_skeleton]; unfold cc0__gru_decode_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover0_10 _)
  isplitl [H11]
  · iexists _; isplitr
    swap; · iexact H11
    ipureintro
    try dsimp only
    exact View.read_writes_eq_canon _ _ _ (cover0_11 _)
  iexists _; isplitr
  swap; · iexact H12
  ipureintro
  try dsimp only
  exact View.read_writes_eq_canon _ _ _ (cover0_11 _)

/-! ## The proof data of the region -/

/-- On core `c`: the arrays as the region finds them; after the body at point `t` every input buffer still at its block
    and every output buffer at its closed form over the input blocks; the invariant is the plain one (the scoped rest and
    the random-number register pass through untouched); full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 6 t) (iblk m c 7 t)
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The arrays of the proof data are `V`'s: its definition projected, `V` itself never unfolded. -/
theorem A_eq (c : Dev nD) (w : Fin cfg0.W) : (dats m 0 c).A w = V m c (Pipeline.arrRef spec0 w) := by
  dsimp only [dats]

/-- What the body leaves, one window at a time. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) := by dsimp only [dats]

/-- Each input's current staging buffer holds its block whenever the body is called. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The argument arrays in any final state of the run

The same facts as `frame_of`'s conjuncts, stated of one final state at a time, so that they can be used together with
other facts about that state. -/
theorem kept_main_arg0 (r : PUnit × MemSt nD τ sig (Elt F)) (h : Pipeline.FramePost cfgs (dats m) 0 (Pipeline.afterTail₀ cfgs (dats m) 0 (V0 m) [hostOps1, hostOps1_1, hostOps1_2]) r) (c : Dev nD) :
    r.2.mem ((c.tc : Thread nD τ).loc main_arg0) = m ((c.tc : Thread nD τ).loc main_arg0) :=
  ((h c).2 main_arg0 (Pipeline.mem_restRefs_of main_arg0 (by decide) (by decide))).trans (W_main_arg0 m (dats m) c)
theorem kept_main_arg1 (r : PUnit × MemSt nD τ sig (Elt F)) (h : Pipeline.FramePost cfgs (dats m) 0 (Pipeline.afterTail₀ cfgs (dats m) 0 (V0 m) [hostOps1, hostOps1_1, hostOps1_2]) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))
theorem kept_main_arg2 (r : PUnit × MemSt nD τ sig (Elt F)) (h : Pipeline.FramePost cfgs (dats m) 0 (Pipeline.afterTail₀ cfgs (dats m) 0 (V0 m) [hostOps1, hostOps1_1, hostOps1_2]) r) (c : Dev nD) :
    r.2.mem ((c.tc : Thread nD τ).loc main_arg2) = m ((c.tc : Thread nD τ).loc main_arg2) :=
  ((h c).2 main_arg2 (Pipeline.mem_restRefs_of main_arg2 (by decide) (by decide))).trans (W_main_arg2 m (dats m) c)
theorem kept_main_arg3 (r : PUnit × MemSt nD τ sig (Elt F)) (h : Pipeline.FramePost cfgs (dats m) 0 (Pipeline.afterTail₀ cfgs (dats m) 0 (V0 m) [hostOps1, hostOps1_1, hostOps1_2]) r) (c : Dev nD) :
    r.2.mem ((c.tc : Thread nD τ).loc main_arg3) = m ((c.tc : Thread nD τ).loc main_arg3) :=
  ((h c).1 3).trans (((dats m 0 c).arrAt_in 3 rfl _).trans ((A_eq m c 3).trans (V_main_arg3 m c)))
theorem kept_main_arg4 (r : PUnit × MemSt nD τ sig (Elt F)) (h : Pipeline.FramePost cfgs (dats m) 0 (Pipeline.afterTail₀ cfgs (dats m) 0 (V0 m) [hostOps1, hostOps1_1, hostOps1_2]) r) (c : Dev nD) :
    r.2.mem ((c.tc : Thread nD τ).loc main_arg4) = m ((c.tc : Thread nD τ).loc main_arg4) :=
  ((h c).2 main_arg4 (Pipeline.mem_restRefs_of main_arg4 (by decide) (by decide))).trans (W_main_arg4 m (dats m) c)
theorem kept_main_arg5 (r : PUnit × MemSt nD τ sig (Elt F)) (h : Pipeline.FramePost cfgs (dats m) 0 (Pipeline.afterTail₀ cfgs (dats m) 0 (V0 m) [hostOps1, hostOps1_1, hostOps1_2]) r) (c : Dev nD) :
    r.2.mem ((c.tc : Thread nD τ).loc main_arg5) = m ((c.tc : Thread nD τ).loc main_arg5) :=
  ((h c).2 main_arg5 (Pipeline.mem_restRefs_of main_arg5 (by decide) (by decide))).trans (W_main_arg5 m (dats m) c)
theorem kept_main_arg6 (r : PUnit × MemSt nD τ sig (Elt F)) (h : Pipeline.FramePost cfgs (dats m) 0 (Pipeline.afterTail₀ cfgs (dats m) 0 (V0 m) [hostOps1, hostOps1_1, hostOps1_2]) r) (c : Dev nD) :
    r.2.mem ((c.tc : Thread nD τ).loc main_arg6) = m ((c.tc : Thread nD τ).loc main_arg6) :=
  ((h c).1 5).trans (((dats m 0 c).arrAt_in 5 rfl _).trans ((A_eq m c 5).trans (V_main_arg6 m c)))
theorem kept_main_arg7 (r : PUnit × MemSt nD τ sig (Elt F)) (h : Pipeline.FramePost cfgs (dats m) 0 (Pipeline.afterTail₀ cfgs (dats m) 0 (V0 m) [hostOps1, hostOps1_1, hostOps1_2]) r) (c : Dev nD) :
    r.2.mem ((c.tc : Thread nD τ).loc main_arg7) = m ((c.tc : Thread nD τ).loc main_arg7) :=
  ((h c).1 7).trans (((dats m 0 c).arrAt_in 7 rfl _).trans ((A_eq m c 7).trans (V_main_arg7 m c)))
theorem kept_main_arg8 (r : PUnit × MemSt nD τ sig (Elt F)) (h : Pipeline.FramePost cfgs (dats m) 0 (Pipeline.afterTail₀ cfgs (dats m) 0 (V0 m) [hostOps1, hostOps1_1, hostOps1_2]) r) (c : Dev nD) :
    r.2.mem ((c.tc : Thread nD τ).loc main_arg8) = m ((c.tc : Thread nD τ).loc main_arg8) :=
  ((h c).2 main_arg8 (Pipeline.mem_restRefs_of main_arg8 (by decide) (by decide))).trans (W_main_arg8 m (dats m) c)
theorem kept_main_arg9 (r : PUnit × MemSt nD τ sig (Elt F)) (h : Pipeline.FramePost cfgs (dats m) 0 (Pipeline.afterTail₀ cfgs (dats m) 0 (V0 m) [hostOps1, hostOps1_1, hostOps1_2]) r) (c : Dev nD) :
    r.2.mem ((c.tc : Thread nD τ).loc main_arg9) = m ((c.tc : Thread nD τ).loc main_arg9) :=
  ((h c).1 9).trans (((dats m 0 c).arrAt_in 9 rfl _).trans ((A_eq m c 9).trans (V_main_arg9 m c)))

/-! ## The body at a generic point -/

/-- What the body is called with at point `t`: the invariant, what is owed, and each window's current staging buffer —
    at `before` of what it last held. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What it returns: the same with each buffer at `after`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1000000 in
/-- The body at any point: the inputs' buffers hold their blocks, so the body's triple applies at those blocks; the
    invariant and what is owed are not read. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The obligation the region's run asks of the body, at every point. -/
theorem body_obligation (c : Dev nD) : BodyObligation (dats (F := F) m 0 c) (defs₀ (F := F)) Variants.none () Set.univ := fun t => by
  rw [bigSep_W0, bigSep_W0]
  exact sound_body m c t

/-! ## The run, and the frame -/

-- the run theorem's implicit arguments are found by unifying its conclusion with the statement below, which needs plain
-- definitions unfolded inside a metavariable's type
set_option backward.isDefEq.respectTransparency.types false in
/-- From any memory `m` with zero counters, every weakly fair execution of @main on the TensorCores terminates, and in
    every final state each array of the region holds what the proof data compute and every other unscoped buffer what the
    later stretches leave. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The frame claim of this program at any `F`: it runs, and its ten argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c⟩) (run_main m ρ)

end Cert.Kernel.Fr

end
-- ==== Proof.FrameI.lean ====
/- The frame certificate of this program: @main is eleven host operations, one pipelined region of 240 points over
   thirteen windows, and three further stretches of host operations.  The region's body reads each input block whole,
   computes three values from them and stores each whole into its output block; nothing else is touched.  So the ten
   argument arrays end as they began, and each output array ends, block by block, at a closed expression of the input
   blocks (`out0_10`, `out0_11`, `out0_12`).  Everything here holds at any float instance `F`. -/
import proofs.«156184_j52063593562852_1_alg».proof.Proof.Gen.KernelIdeal.Launch
import proofs.«156184_j52063593562852_1_alg».proof.Proof.Gen.KernelIdeal.Skeleton
import proofs.«156184_j52063593562852_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership of an index in a rectangle as large as a block recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The contents of core `c`'s buffers once the eleven host operations before the region have run from `m`. -/
abbrev V0 (c : Dev nD) : Valuation τ sig (Elt F) := StableHlo.after (List.flatten [hostOps0]) (fun b => m (c, b))
/-- `V0` at a TensorCore reference. -/
abbrev V (c : Dev nD) (b : Ref sig .tc) : Buf (Elt F) ((c : Thread nD τ).loc b) := V0 m c (Proc.devRef .tc b)

/-- No host operation of the program allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is: the first stretch of host operations, the region, the three later stretches.  Holding the buffers at the
    launch contents it therefore reduces to the region, entered at `V`, continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-! ## The three stretches after the region -/

/-- Every buffer they name is an unscoped TensorCore buffer: one of the region's arrays or a buffer the region never
    sees.  (The region prefetches no table, so these two kinds are all the unscoped buffers.) -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- None of them allocates. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
set_option maxHeartbeats 1000000 in
/-- None of them writes an array of the region: each writes its one result buffer, and no result buffer of these
    twenty-two operations is among the thirteen arrays. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_1, List.mem_cons, List.mem_nil_iff, or_false] at hop
    rcases hop with rfl | rfl
    all_goals intro w; fin_cases w <;> simp only [StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)
  · simp only [hostOps1_2, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays before and after the region -/

/-- The eleven operations before the region write their own results only, none of which is `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The eleven operations before the region write their own results only, none of which is `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The eleven operations before the region write their own results only, none of which is `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The eleven operations before the region write their own results only, none of which is `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The eleven operations before the region write their own results only, none of which is `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The eleven operations before the region write their own results only, none of which is `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The eleven operations before the region write their own results only, none of which is `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The eleven operations before the region write their own results only, none of which is `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The eleven operations before the region write their own results only, none of which is `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The eleven operations before the region write their own results only, none of which is `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- `main_arg0` is no array of the region and no result of a later operation: after everything it is as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, StableHlo.TRef.unary, StableHlo.TRef.ternary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 1000000 in
/-- `main_arg1` is the array of input window 1: the region leaves an input's array as it found it, the proof data's
    array being the region-entry contents (`hA`), and no later operation writes it. -/
theorem W_main_arg1 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1, hostOps1_2] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, StableHlo.TRef.unary, StableHlo.TRef.ternary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  refine (Pipeline.withArrays_arr spec0 launch0.win.arr_inj c (V0 m c) _ 1).trans ?_
  exact ((dats 0 c).arrAt_in 1 rfl _).trans ((hA c 1).trans (V_main_arg1 m c))

set_option maxHeartbeats 1000000 in
/-- `main_arg2` is no array of the region and no result of a later operation: after everything it is as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, StableHlo.TRef.unary, StableHlo.TRef.ternary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 1000000 in
/-- `main_arg3` is the array of input window 3: the region leaves an input's array as it found it, the proof data's
    array being the region-entry contents (`hA`), and no later operation writes it. -/
theorem W_main_arg3 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1, hostOps1_2] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, StableHlo.TRef.unary, StableHlo.TRef.ternary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  refine (Pipeline.withArrays_arr spec0 launch0.win.arr_inj c (V0 m c) _ 3).trans ?_
  exact ((dats 0 c).arrAt_in 3 rfl _).trans ((hA c 3).trans (V_main_arg3 m c))

set_option maxHeartbeats 1000000 in
/-- `main_arg4` is no array of the region and no result of a later operation: after everything it is as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, StableHlo.TRef.unary, StableHlo.TRef.ternary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 1000000 in
/-- `main_arg5` is no array of the region and no result of a later operation: after everything it is as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, StableHlo.TRef.unary, StableHlo.TRef.ternary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 1000000 in
/-- `main_arg6` is the array of input window 5: the region leaves an input's array as it found it, the proof data's
    array being the region-entry contents (`hA`), and no later operation writes it. -/
theorem W_main_arg6 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1, hostOps1_2] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, StableHlo.TRef.unary, StableHlo.TRef.ternary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  refine (Pipeline.withArrays_arr spec0 launch0.win.arr_inj c (V0 m c) _ 5).trans ?_
  exact ((dats 0 c).arrAt_in 5 rfl _).trans ((hA c 5).trans (V_main_arg6 m c))

set_option maxHeartbeats 1000000 in
/-- `main_arg7` is the array of input window 7: the region leaves an input's array as it found it, the proof data's
    array being the region-entry contents (`hA`), and no later operation writes it. -/
theorem W_main_arg7 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1, hostOps1_2] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, StableHlo.TRef.unary, StableHlo.TRef.ternary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  refine (Pipeline.withArrays_arr spec0 launch0.win.arr_inj c (V0 m c) _ 7).trans ?_
  exact ((dats 0 c).arrAt_in 7 rfl _).trans ((hA c 7).trans (V_main_arg7 m c))

set_option maxHeartbeats 1000000 in
/-- `main_arg8` is no array of the region and no result of a later operation: after everything it is as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, hostOps1_1, hostOps1_2, StableHlo.TRef.unary, StableHlo.TRef.ternary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

set_option maxHeartbeats 1000000 in
/-- `main_arg9` is the array of input window 9: the region leaves an input's array as it found it, the proof data's
    array being the region-entry contents (`hA`), and no later operation writes it. -/
theorem W_main_arg9 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1, hostOps1_1, hostOps1_2] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, hostOps1_1, hostOps1_2, StableHlo.TRef.unary, StableHlo.TRef.ternary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  refine (Pipeline.withArrays_arr spec0 launch0.win.arr_inj c (V0 m c) _ 9).trans ?_
  exact ((dats 0 c).arrAt_in 9 rfl _).trans ((hA c 9).trans (V_main_arg9 m c))

/-! ## The windows' blocks -/

/-- The block of window `w` at point `t`, cut out of the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Whenever the body is called, input window 0's current staging buffer holds that point's block — whether the
    block was fetched at this point or stayed from an earlier one (then the block index has not moved).  For any proof
    data on `V`'s arrays (`hA`) whose body leaves this buffer alone (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Whenever the body is called, input window 1's current staging buffer holds that point's block — whether the
    block was fetched at this point or stayed from an earlier one (then the block index has not moved).  For any proof
    data on `V`'s arrays (`hA`) whose body leaves this buffer alone (`hafter`). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Whenever the body is called, input window 2's current staging buffer holds that point's block — whether the
    block was fetched at this point or stayed from an earlier one (then the block index has not moved).  For any proof
    data on `V`'s arrays (`hA`) whose body leaves this buffer alone (`hafter`). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Whenever the body is called, input window 3's current staging buffer holds that point's block — whether the
    block was fetched at this point or stayed from an earlier one (then the block index has not moved).  For any proof
    data on `V`'s arrays (`hA`) whose body leaves this buffer alone (`hafter`). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Whenever the body is called, input window 4's current staging buffer holds that point's block — whether the
    block was fetched at this point or stayed from an earlier one (then the block index has not moved).  For any proof
    data on `V`'s arrays (`hA`) whose body leaves this buffer alone (`hafter`). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Whenever the body is called, input window 5's current staging buffer holds that point's block — whether the
    block was fetched at this point or stayed from an earlier one (then the block index has not moved).  For any proof
    data on `V`'s arrays (`hA`) whose body leaves this buffer alone (`hafter`). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Whenever the body is called, input window 6's current staging buffer holds that point's block — whether the
    block was fetched at this point or stayed from an earlier one (then the block index has not moved).  For any proof
    data on `V`'s arrays (`hA`) whose body leaves this buffer alone (`hafter`). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Whenever the body is called, input window 7's current staging buffer holds that point's block — whether the
    block was fetched at this point or stayed from an earlier one (then the block index has not moved).  For any proof
    data on `V`'s arrays (`hA`) whose body leaves this buffer alone (`hafter`). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Whenever the body is called, input window 8's current staging buffer holds that point's block — whether the
    block was fetched at this point or stayed from an earlier one (then the block index has not moved).  For any proof
    data on `V`'s arrays (`hA`) whose body leaves this buffer alone (`hafter`). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Whenever the body is called, input window 9's current staging buffer holds that point's block — whether the
    block was fetched at this point or stayed from an earlier one (then the block index has not moved).  For any proof
    data on `V`'s arrays (`hA`) whose body leaves this buffer alone (`hafter`). -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## From the region's run to the frame claim -/

set_option maxHeartbeats 1000000 in
/-- A run of @main ending with every array of the region at what the proof data compute and every other unscoped buffer
    at what the later stretches leave gives the frame claim's post, for any proof data on `V`'s arrays: an argument
    array that is an input window's array ends at the proof data's array (inputs are never written back), which is
    `V`'s, which is `m`'s; an argument array the region never sees ends, by the lemmas above, at `m`'s. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(((h c).2 main_arg0 (Pipeline.mem_restRefs_of main_arg0 (by decide) (by decide))).trans (W_main_arg0 m dats c)),
      ((h c).1 1).trans (((dats 0 c).arrAt_in 1 rfl _).trans ((hA c 1).trans (V_main_arg1 m c))),
      (((h c).2 main_arg2 (Pipeline.mem_restRefs_of main_arg2 (by decide) (by decide))).trans (W_main_arg2 m dats c)),
      ((h c).1 3).trans (((dats 0 c).arrAt_in 3 rfl _).trans ((hA c 3).trans (V_main_arg3 m c))),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      ((h c).1 5).trans (((dats 0 c).arrAt_in 5 rfl _).trans ((hA c 5).trans (V_main_arg6 m c))),
      ((h c).1 7).trans (((dats 0 c).arrAt_in 7 rfl _).trans ((hA c 7).trans (V_main_arg7 m c))),
      (((h c).2 main_arg8 (Pipeline.mem_restRefs_of main_arg8 (by decide) (by decide))).trans (W_main_arg8 m dats c)),
      ((h c).1 9).trans (((dats 0 c).arrAt_in 9 rfl _).trans ((hA c 9).trans (V_main_arg9 m c)))⟩) h

/-! ## The body's accesses

Every load and every store of the body goes through the rectangle that is its whole buffer; one per block shape. -/

abbrev rA : Rect S1024x192 := Rect.unit (s := S1024x192) ![0, 0] S1024x192.size inb_S1024x192_S1024x192_0_0
abbrev rB : Rect S1024x256 := Rect.unit (s := S1024x256) ![0, 0] S1024x256.size inb_S1024x256_S1024x256_0_0
abbrev rC : Rect S192x256 := Rect.unit (s := S192x256) ![0, 0] S192x256.size inb_S192x256_S192x256_0_0
abbrev rD : Rect S256 := Rect.unit (s := S256) ![0] S256.size inb_S256_S256_0
abbrev rE : Rect S256x768 := Rect.unit (s := S256x768) ![0, 0] S256x768.size inb_S256x768_S256x768_0_0
abbrev rG : Rect S768 := Rect.unit (s := S768) ![0] S768.size inb_S768_S768_0
abbrev rH : Rect S256x256 := Rect.unit (s := S256x256) ![0, 0] S256x256.size inb_S256x256_S256x256_0_0
abbrev rJ : Rect S1024x16 := Rect.unit (s := S1024x16) ![0, 0] S1024x16.size inb_S1024x16_S1024x16_0_0

/-! ## What the body leaves in each output block

The body computes two gates from the eight blocks of windows 0 to 7 (`k0_pay7`, `k0_pay8`), blends them with window 1's
block into the new state (`k0_pay1`), and reduces a projection of the new state by windows 8 and 9 along each of its
two inner axes (`k0_pay3`, `k0_pay4`).  Each result is stored whole, so each output block is one piece. -/

/-- Window 10's block after the body: the new state. -/
def out0_10 (x0 : Vec F S1024x192 .bf16) (x1 : Vec F S1024x256 .f32) (x2 : Vec F S192x256 .bf16) (x3 : Vec F S256 .f32) (x4 : Vec F S256x768 .bf16) (x5 : Vec F S768 .f32) (x6 : Vec F S256x768 .bf16) (x7 : Vec F S768 .f32) : Vec F S1024x256 .f32 :=
  View.canon [⟨rB, k0_pay1 (View.ld x1 rB) (k0_pay7 (View.ld x0 rA) (View.ld x2 rC) (View.ld x3 rD) (View.ld x4 rE) (View.ld x5 rG) (View.ld x1 rB) (View.ld x6 rE) (View.ld x7 rG)) (k0_pay8 (View.ld x0 rA) (View.ld x2 rC) (View.ld x3 rD) (View.ld x4 rE) (View.ld x5 rG) (View.ld x1 rB) (View.ld x6 rE) (View.ld x7 rG)) (Scalar.ofBits .f32 0x3F800000#32)⟩]

/-- Window 11's block after the body: the projection's maximum along its last axis. -/
def out0_11 (x0 : Vec F S1024x192 .bf16) (x1 : Vec F S1024x256 .f32) (x2 : Vec F S192x256 .bf16) (x3 : Vec F S256 .f32) (x4 : Vec F S256x768 .bf16) (x5 : Vec F S768 .f32) (x6 : Vec F S256x768 .bf16) (x7 : Vec F S768 .f32) (x8 : Vec F S256x256 .bf16) (x9 : Vec F S256 .f32) : Vec F S1024x16 .f32 :=
  View.canon [⟨rJ, k0_pay3 (View.ld x1 rB) (k0_pay7 (View.ld x0 rA) (View.ld x2 rC) (View.ld x3 rD) (View.ld x4 rE) (View.ld x5 rG) (View.ld x1 rB) (View.ld x6 rE) (View.ld x7 rG)) (k0_pay8 (View.ld x0 rA) (View.ld x2 rC) (View.ld x3 rD) (View.ld x4 rE) (View.ld x5 rG) (View.ld x1 rB) (View.ld x6 rE) (View.ld x7 rG)) (Scalar.ofBits .f32 0x3F800000#32) (View.ld x8 rH) (View.ld x9 rD)⟩]

/-- Window 12's block after the body: the projection's maximum along its middle axis. -/
def out0_12 (x0 : Vec F S1024x192 .bf16) (x1 : Vec F S1024x256 .f32) (x2 : Vec F S192x256 .bf16) (x3 : Vec F S256 .f32) (x4 : Vec F S256x768 .bf16) (x5 : Vec F S768 .f32) (x6 : Vec F S256x768 .bf16) (x7 : Vec F S768 .f32) (x8 : Vec F S256x256 .bf16) (x9 : Vec F S256 .f32) : Vec F S1024x16 .f32 :=
  View.canon [⟨rJ, k0_pay4 (View.ld x1 rB) (k0_pay7 (View.ld x0 rA) (View.ld x2 rC) (View.ld x3 rD) (View.ld x4 rE) (View.ld x5 rG) (View.ld x1 rB) (View.ld x6 rE) (View.ld x7 rG)) (k0_pay8 (View.ld x0 rA) (View.ld x2 rC) (View.ld x3 rD) (View.ld x4 rE) (View.ld x5 rG) (View.ld x1 rB) (View.ld x6 rE) (View.ld x7 rG)) (Scalar.ofBits .f32 0x3F800000#32) (View.ld x8 rH) (View.ld x9 rD)⟩]

/-- One store through the whole rectangle covers the block. -/
theorem cover0_10 (p0 : Vec F S1024x256 .f32) (y : S1024x256.Idx) :
    ∃ pc ∈ ([⟨rB, p0⟩] : List (View.Piece (Elt F) S1024x256 .f32)), y ∈ pc.1.set :=
  View.cover_of_tiled [⟨rB, p0⟩] S1024x256.size (by rfl) y
theorem cover0_11 (p0 : Vec F S1024x16 .f32) (y : S1024x16.Idx) :
    ∃ pc ∈ ([⟨rJ, p0⟩] : List (View.Piece (Elt F) S1024x16 .f32)), y ∈ pc.1.set :=
  View.cover_of_tiled [⟨rJ, p0⟩] S1024x16.size (by rfl) y

/-! ## The body's triple -/

set_option maxHeartbeats 4000000 in
/-- The body, called on whole staging buffers with the ten inputs' at contents reading `x0 … x9` and the three outputs'
    at anything, returns with the inputs' unchanged and the outputs' reading `out0_10`, `out0_11`, `out0_12` of them.
    The body is its sequence of memory operations over named values; it is run operation by operation.  (It also loads
    each output buffer just before storing it; the value loaded is not used.) -/
theorem sound_kernel (c : Dev nD) (E : Set ℕ) (i : grid0.Coords) (arg1 : Memref sig .tc .vmem S1024x192 .bf16) (harg1 : arg1.IsWhole) (arg2 : Memref sig .tc .vmem S1024x256 .f32) (harg2 : arg2.IsWhole) (arg3 : Memref sig .tc .vmem S192x256 .bf16) (harg3 : arg3.IsWhole) (arg4 : Memref sig .tc .vmem S256 .f32) (harg4 : arg4.IsWhole) (arg5 : Memref sig .tc .vmem S256x768 .bf16) (harg5 : arg5.IsWhole) (arg6 : Memref sig .tc .vmem S768 .f32) (harg6 : arg6.IsWhole) (arg7 : Memref sig .tc .vmem S256x768 .bf16) (harg7 : arg7.IsWhole) (arg8 : Memref sig .tc .vmem S768 .f32) (harg8 : arg8.IsWhole) (arg9 : Memref sig .tc .vmem S256x256 .bf16) (harg9 : arg9.IsWhole) (arg10 : Memref sig .tc .vmem S256 .f32) (harg10 : arg10.IsWhole) (arg11 : Memref sig .tc .vmem S1024x256 .f32) (harg11 : arg11.IsWhole) (arg12 : Memref sig .tc .vmem S1024x16 .f32) (harg12 : arg12.IsWhole) (arg13 : Memref sig .tc .vmem S1024x16 .f32) (harg13 : arg13.IsWhole)
    (x0 : Vec F S1024x192 .bf16) (x1 : Vec F S1024x256 .f32) (x2 : Vec F S192x256 .bf16) (x3 : Vec F S256 .f32) (x4 : Vec F S256x768 .bf16) (x5 : Vec F S768 .f32) (x6 : Vec F S256x768 .bf16) (x7 : Vec F S768 .f32) (x8 : Vec F S256x256 .bf16) (x9 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7) ∗ owns (c : Thread nD τ) arg12 fullShare (out0_11 x0 x1 x2 x3 x4 x5 x6 x7 x8 x9) ∗ owns (c : Thread nD τ) arg13 fullShare (out0_12 x0 x1 x2 x3 x4 x5 x6 x7 x8 x9)) -∗ K ⟨⟩))
      ⊢ wp frame (wpE (defs₀ (F := F)) Variants.none c none) E (cc0__gru_decode_kernel i arg1 harg1 arg2 harg2 arg3 harg3 arg4 harg4 arg5 harg5 arg6 harg6 arg7 harg7 arg8 harg8 arg9 harg9 arg10 harg10 arg11 harg11 arg12 harg12 arg13 harg13) K := by
  simp only [cc0__gru_decode_kernel_eq_skeleton]; unfold cc0__gru_decode_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover0_10 _)
  isplitl [H11]
  · iexists _; isplitr
    swap; · iexact H11
    ipureintro
    try dsimp only
    exact View.read_writes_eq_canon _ _ _ (cover0_11 _)
  iexists _; isplitr
  swap; · iexact H12
  ipureintro
  try dsimp only
  exact View.read_writes_eq_canon _ _ _ (cover0_11 _)

/-! ## The proof data of the region -/

/-- On core `c`: the arrays as the region finds them; after the body at point `t` every input buffer still at its block
    and every output buffer at its closed form over the input blocks; the invariant is the plain one (the scoped rest and
    the random-number register pass through untouched); full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 6 t) (iblk m c 7 t)
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The arrays of the proof data are `V`'s: its definition projected, `V` itself never unfolded. -/
theorem A_eq (c : Dev nD) (w : Fin cfg0.W) : (dats m 0 c).A w = V m c (Pipeline.arrRef spec0 w) := by
  dsimp only [dats]

/-- What the body leaves, one window at a time. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) := by dsimp only [dats]

/-- Each input's current staging buffer holds its block whenever the body is called. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The argument arrays in any final state of the run

The same facts as `frame_of`'s conjuncts, stated of one final state at a time, so that they can be used together with
other facts about that state. -/
theorem kept_main_arg0 (r : PUnit × MemSt nD τ sig (Elt F)) (h : Pipeline.FramePost cfgs (dats m) 0 (Pipeline.afterTail₀ cfgs (dats m) 0 (V0 m) [hostOps1, hostOps1_1, hostOps1_2]) r) (c : Dev nD) :
    r.2.mem ((c.tc : Thread nD τ).loc main_arg0) = m ((c.tc : Thread nD τ).loc main_arg0) :=
  ((h c).2 main_arg0 (Pipeline.mem_restRefs_of main_arg0 (by decide) (by decide))).trans (W_main_arg0 m (dats m) c)
theorem kept_main_arg1 (r : PUnit × MemSt nD τ sig (Elt F)) (h : Pipeline.FramePost cfgs (dats m) 0 (Pipeline.afterTail₀ cfgs (dats m) 0 (V0 m) [hostOps1, hostOps1_1, hostOps1_2]) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))
theorem kept_main_arg2 (r : PUnit × MemSt nD τ sig (Elt F)) (h : Pipeline.FramePost cfgs (dats m) 0 (Pipeline.afterTail₀ cfgs (dats m) 0 (V0 m) [hostOps1, hostOps1_1, hostOps1_2]) r) (c : Dev nD) :
    r.2.mem ((c.tc : Thread nD τ).loc main_arg2) = m ((c.tc : Thread nD τ).loc main_arg2) :=
  ((h c).2 main_arg2 (Pipeline.mem_restRefs_of main_arg2 (by decide) (by decide))).trans (W_main_arg2 m (dats m) c)
theorem kept_main_arg3 (r : PUnit × MemSt nD τ sig (Elt F)) (h : Pipeline.FramePost cfgs (dats m) 0 (Pipeline.afterTail₀ cfgs (dats m) 0 (V0 m) [hostOps1, hostOps1_1, hostOps1_2]) r) (c : Dev nD) :
    r.2.mem ((c.tc : Thread nD τ).loc main_arg3) = m ((c.tc : Thread nD τ).loc main_arg3) :=
  ((h c).1 3).trans (((dats m 0 c).arrAt_in 3 rfl _).trans ((A_eq m c 3).trans (V_main_arg3 m c)))
theorem kept_main_arg4 (r : PUnit × MemSt nD τ sig (Elt F)) (h : Pipeline.FramePost cfgs (dats m) 0 (Pipeline.afterTail₀ cfgs (dats m) 0 (V0 m) [hostOps1, hostOps1_1, hostOps1_2]) r) (c : Dev nD) :
    r.2.mem ((c.tc : Thread nD τ).loc main_arg4) = m ((c.tc : Thread nD τ).loc main_arg4) :=
  ((h c).2 main_arg4 (Pipeline.mem_restRefs_of main_arg4 (by decide) (by decide))).trans (W_main_arg4 m (dats m) c)
theorem kept_main_arg5 (r : PUnit × MemSt nD τ sig (Elt F)) (h : Pipeline.FramePost cfgs (dats m) 0 (Pipeline.afterTail₀ cfgs (dats m) 0 (V0 m) [hostOps1, hostOps1_1, hostOps1_2]) r) (c : Dev nD) :
    r.2.mem ((c.tc : Thread nD τ).loc main_arg5) = m ((c.tc : Thread nD τ).loc main_arg5) :=
  ((h c).2 main_arg5 (Pipeline.mem_restRefs_of main_arg5 (by decide) (by decide))).trans (W_main_arg5 m (dats m) c)
theorem kept_main_arg6 (r : PUnit × MemSt nD τ sig (Elt F)) (h : Pipeline.FramePost cfgs (dats m) 0 (Pipeline.afterTail₀ cfgs (dats m) 0 (V0 m) [hostOps1, hostOps1_1, hostOps1_2]) r) (c : Dev nD) :
    r.2.mem ((c.tc : Thread nD τ).loc main_arg6) = m ((c.tc : Thread nD τ).loc main_arg6) :=
  ((h c).1 5).trans (((dats m 0 c).arrAt_in 5 rfl _).trans ((A_eq m c 5).trans (V_main_arg6 m c)))
theorem kept_main_arg7 (r : PUnit × MemSt nD τ sig (Elt F)) (h : Pipeline.FramePost cfgs (dats m) 0 (Pipeline.afterTail₀ cfgs (dats m) 0 (V0 m) [hostOps1, hostOps1_1, hostOps1_2]) r) (c : Dev nD) :
    r.2.mem ((c.tc : Thread nD τ).loc main_arg7) = m ((c.tc : Thread nD τ).loc main_arg7) :=
  ((h c).1 7).trans (((dats m 0 c).arrAt_in 7 rfl _).trans ((A_eq m c 7).trans (V_main_arg7 m c)))
theorem kept_main_arg8 (r : PUnit × MemSt nD τ sig (Elt F)) (h : Pipeline.FramePost cfgs (dats m) 0 (Pipeline.afterTail₀ cfgs (dats m) 0 (V0 m) [hostOps1, hostOps1_1, hostOps1_2]) r) (c : Dev nD) :
    r.2.mem ((c.tc : Thread nD τ).loc main_arg8) = m ((c.tc : Thread nD τ).loc main_arg8) :=
  ((h c).2 main_arg8 (Pipeline.mem_restRefs_of main_arg8 (by decide) (by decide))).trans (W_main_arg8 m (dats m) c)
theorem kept_main_arg9 (r : PUnit × MemSt nD τ sig (Elt F)) (h : Pipeline.FramePost cfgs (dats m) 0 (Pipeline.afterTail₀ cfgs (dats m) 0 (V0 m) [hostOps1, hostOps1_1, hostOps1_2]) r) (c : Dev nD) :
    r.2.mem ((c.tc : Thread nD τ).loc main_arg9) = m ((c.tc : Thread nD τ).loc main_arg9) :=
  ((h c).1 9).trans (((dats m 0 c).arrAt_in 9 rfl _).trans ((A_eq m c 9).trans (V_main_arg9 m c)))

/-! ## The body at a generic point -/

/-- What the body is called with at point `t`: the invariant, what is owed, and each window's current staging buffer —
    at `before` of what it last held. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What it returns: the same with each buffer at `after`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1000000 in
/-- The body at any point: the inputs' buffers hold their blocks, so the body's triple applies at those blocks; the
    invariant and what is owed are not read. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The obligation the region's run asks of the body, at every point. -/
theorem body_obligation (c : Dev nD) : BodyObligation (dats (F := F) m 0 c) (defs₀ (F := F)) Variants.none () Set.univ := fun t => by
  rw [bigSep_W0, bigSep_W0]
  exact sound_body m c t

/-! ## The run, and the frame -/

-- the run theorem's implicit arguments are found by unifying its conclusion with the statement below, which needs plain
-- definitions unfolded inside a metavariable's type
set_option backward.isDefEq.respectTransparency.types false in
/-- From any memory `m` with zero counters, every weakly fair execution of @main on the TensorCores terminates, and in
    every final state each array of the region holds what the proof data compute and every other unscoped buffer what the
    later stretches leave. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The frame claim of this program at any `F`: it runs, and its ten argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c⟩) (run_main m ρ)

end Cert.KernelIdeal.Fr

end
-- ==== Proof.Spec.lean ====
import Idealize.ShloMosaic.PureOps.Ideal
import Idealize.ShloMosaic.Lib.ValueIdx

/-!
# One recurrent-cell step with a max-decoding head, row by row, over the extended reals

Every row of the batch is treated alone. From a row `x` of 192 paired features and a row `h` of 256 state
entries the step computes

* a rectified affine layer `a = max (x · W₁ + b₁) 0` (256 entries),
* the input gates `gi = a · W_ih + b_ih` and the state gates `gh = h · W_hh + b_hh` (768 entries each, read as
  three consecutive thirds `r | z | n`),
* `r = σ(gi_r + gh_r)`, `z = σ(gi_z + gh_z)`, `n = tanh(gi_n + r · gh_n)`, with `σ` the logistic function,
* the new state `h' = (1 - z) · n + z · h`,
* the head `q = h' · W₂ + b₂` (256 entries read as a 16 × 16 grid), and of that grid the maxima of its rows
  (`left`) and of its columns (`right`).

The three whole-array functions `newState`, `rowMax`, `colMax` apply this to every row of a batch of `R` rows.
Nothing below depends on how many rows there are, which is what lets a tile of 1024 rows be compared with the
whole batch: a tile's rows are rows of the batch (`newState_rows`, `rowMax_rows`, `colMax_rows`).
The float words `0.0`, `1.0` and `-∞` are kept as the words the programs write.
-/

noncomputable section

open scoped BigOperators

namespace Cert.GruSpec

open Idealize.ShloMosaic Idealize.ShloMosaic.ValueIdx

/-- A matrix of extended reals, by its two extents. -/
abbrev Mat (a b : Nat) : Type := (⟨2, ![a, b]⟩ : Shape).Idx → EReal
/-- A vector of extended reals. -/
abbrev Vc (a : Nat) : Type := (⟨1, ![a]⟩ : Shape).Idx → EReal

/-- The word of `0.0`. -/
abbrev zeroW : EReal := Ideal.ofBits .f32 0x00000000#32
/-- The word of `1.0`. -/
abbrev oneW : EReal := Ideal.ofBits .f32 0x3F800000#32
/-- The word of `-∞`. -/
abbrev negInfW : EReal := Ideal.ofBits .f32 0xFF800000#32

/-- The weights of the step. -/
structure Weights where
  w1 : Mat 192 256
  b1 : Vc 256
  wih : Mat 256 768
  bih : Vc 768
  whh : Mat 256 768
  bhh : Vc 768
  w2 : Mat 256 256
  b2 : Vc 256

/-- An affine layer applied to one row: `(x · W + b) j = ∑ k, x k · W k j + b j`. -/
def lin {K N : Nat} (x : Fin K → EReal) (W : Mat K N) (b : Vc N) (j : Fin N) : EReal :=
  (∑ k : Fin K, x k * W (ix2 k j)) + b (ix1 j)

/-- Entry `q` of the third of a 768-vector that starts at `o`. -/
def third (o : Nat) (ho : o + 256 ≤ 768) (q : Fin 256) : Fin 768 := ⟨o + q.val, by have := q.isLt; omega⟩

/-- The rectified first layer of a row. -/
def act (P : Weights) (x : Fin 192 → EReal) (j : Fin 256) : EReal := max (lin x P.w1 P.b1 j) zeroW

/-- The input gates of a row. -/
def gi (P : Weights) (x : Fin 192 → EReal) (j : Fin 768) : EReal := lin (act P x) P.wih P.bih j
/-- The state gates of a row. -/
def gh (P : Weights) (h : Fin 256 → EReal) (j : Fin 768) : EReal := lin h P.whh P.bhh j

/-- The reset gate. -/
def rGate (P : Weights) (x : Fin 192 → EReal) (h : Fin 256 → EReal) (q : Fin 256) : EReal :=
  Ideal.logistic (gi P x (third 0 (by omega) q) + gh P h (third 0 (by omega) q))
/-- The update gate. -/
def zGate (P : Weights) (x : Fin 192 → EReal) (h : Fin 256 → EReal) (q : Fin 256) : EReal :=
  Ideal.logistic (gi P x (third 256 (by omega) q) + gh P h (third 256 (by omega) q))
/-- The candidate state. -/
def nGate (P : Weights) (x : Fin 192 → EReal) (h : Fin 256 → EReal) (q : Fin 256) : EReal :=
  Ideal.tanh (gi P x (third 512 (by omega) q) + rGate P x h q * gh P h (third 512 (by omega) q))

/-- The new state of a row: `(1 - z) · n + z · h`. -/
def stateRow (P : Weights) (x : Fin 192 → EReal) (h : Fin 256 → EReal) (q : Fin 256) : EReal :=
  (oneW - zGate P x h q) * nGate P x h q + zGate P x h q * h q

/-- The head of a row, 256 entries. -/
def headRow (P : Weights) (x : Fin 192 → EReal) (h : Fin 256 → EReal) (j : Fin 256) : EReal :=
  lin (stateRow P x h) P.w2 P.b2 j

/-- Entry `(a, b)` of the 16 × 16 grid a 256-vector is read as. -/
def cell (a b : Fin 16) : Fin 256 := ⟨a.val * 16 + b.val, by have := a.isLt; have := b.isLt; omega⟩

/-- The maximum of grid row `a` of the head. -/
def leftRow (P : Weights) (x : Fin 192 → EReal) (h : Fin 256 → EReal) (a : Fin 16) : EReal :=
  (Finset.univ : Finset (Fin 16)).fold max negInfW (fun b => headRow P x h (cell a b))
/-- The maximum of grid column `b` of the head. -/
def rightRow (P : Weights) (x : Fin 192 → EReal) (h : Fin 256 → EReal) (b : Fin 16) : EReal :=
  (Finset.univ : Finset (Fin 16)).fold max negInfW (fun a => headRow P x h (cell a b))

/-- Row `n` of a matrix. -/
def rowOf {R K : Nat} (X : Mat R K) (n : Fin R) : Fin K → EReal := fun k => X (ix2 n k)

/-- The new states of a batch of `R` rows. -/
def newState (P : Weights) {R : Nat} (X : Mat R 192) (H : Mat R 256) : Mat R 256 :=
  fun i => stateRow P (rowOf X (i 0)) (rowOf H (i 0)) (i 1)
/-- The grid-row maxima of a batch. -/
def rowMax (P : Weights) {R : Nat} (X : Mat R 192) (H : Mat R 256) : Mat R 16 :=
  fun i => leftRow P (rowOf X (i 0)) (rowOf H (i 0)) (i 1)
/-- The grid-column maxima of a batch. -/
def colMax (P : Weights) {R : Nat} (X : Mat R 192) (H : Mat R 256) : Mat R 16 :=
  fun i => rightRow P (rowOf X (i 0)) (rowOf H (i 0)) (i 1)

theorem newState_apply (P : Weights) {R : Nat} (X : Mat R 192) (H : Mat R 256) (n : Fin R) (q : Fin 256) :
    newState P X H (ix2 n q) = stateRow P (rowOf X n) (rowOf H n) q := rfl
theorem rowMax_apply (P : Weights) {R : Nat} (X : Mat R 192) (H : Mat R 256) (n : Fin R) (a : Fin 16) :
    rowMax P X H (ix2 n a) = leftRow P (rowOf X n) (rowOf H n) a := rfl
theorem colMax_apply (P : Weights) {R : Nat} (X : Mat R 192) (H : Mat R 256) (n : Fin R) (b : Fin 16) :
    colMax P X H (ix2 n b) = rightRow P (rowOf X n) (rowOf H n) b := rfl

/-- A tile whose rows are rows of the batch has the batch's new states on those rows. -/
theorem newState_rows (P : Weights) {R R' : Nat} (X : Mat R 192) (H : Mat R 256) (X' : Mat R' 192) (H' : Mat R' 256)
    (n : Fin R) (n' : Fin R') (hX : rowOf X' n' = rowOf X n) (hH : rowOf H' n' = rowOf H n) (q : Fin 256) :
    newState P X' H' (ix2 n' q) = newState P X H (ix2 n q) := by
  rw [newState_apply, newState_apply, hX, hH]
theorem rowMax_rows (P : Weights) {R R' : Nat} (X : Mat R 192) (H : Mat R 256) (X' : Mat R' 192) (H' : Mat R' 256)
    (n : Fin R) (n' : Fin R') (hX : rowOf X' n' = rowOf X n) (hH : rowOf H' n' = rowOf H n) (a : Fin 16) :
    rowMax P X' H' (ix2 n' a) = rowMax P X H (ix2 n a) := by
  rw [rowMax_apply, rowMax_apply, hX, hH]
theorem colMax_rows (P : Weights) {R R' : Nat} (X : Mat R 192) (H : Mat R 256) (X' : Mat R' 192) (H' : Mat R' 256)
    (n : Fin R) (n' : Fin R') (hX : rowOf X' n' = rowOf X n) (hH : rowOf H' n' = rowOf H n) (b : Fin 16) :
    colMax P X' H' (ix2 n' b) = colMax P X H (ix2 n b) := by
  rw [colMax_apply, colMax_apply, hX, hH]

/-- The word `1.0` is the real number one. -/
theorem oneW_eq : oneW = 1 := by
  show Ideal.ofBits .f32 0x3F800000#32 = 1
  simp [Ideal.ofBits, Ideal.ieee, -EReal.coe_mul]; norm_num

/-- The logistic function written out with the word `1.0`, as a host program spells it. -/
theorem logistic_spelt (x : EReal) : Ideal.div oneW (oneW + Ideal.exp (-x)) = Ideal.logistic x := by
  rw [oneW_eq]; rfl

end Cert.GruSpec

end
-- ==== Proof.KernelPay.lean ====
import proofs.«156184_j52063593562852_1_alg».proof.Proof.Gen.KernelIdeal.Skeleton
import proofs.«156184_j52063593562852_1_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# The tile's arithmetic is the row-by-row step

The body of the kernel computes, on a tile of 1024 rows, eight pure values one from another. Read at the
ideal values (extended reals, format changes the identity), each of them is, entry by entry, the
corresponding function of the specification applied to the entry's row:

* a product of a tile with a weight matrix into the zero accumulator is, at `(p, j)`, the sum over `k` of
  `tile (p, k) * W (k, j)`; with the bias row added it is the affine layer `lin` of row `p`;
* the three thirds of the 768 gate columns are read at column offsets 0, 256 and 512;
* the head's 256 columns are read as a 16 × 16 grid, entry `(a, b)` being column `16 a + b`, and the two
  reductions take the maximum along `b` and along `a` from `-∞`.

Nothing is evaluated: the words `0.0`, `1.0` and `-∞` stay the words, and no law of arithmetic beyond
re-indexing a finite sum is used.
-/

noncomputable section

open scoped BigOperators

namespace Cert.KernelIdeal.Pay

open Idealize.ShloMosaic Idealize.ShloMosaic.ValueIdx Cert.KernelIdeal Cert.KernelIdeal.Gen Cert.GruSpec

/-! ## A product with a weight matrix at an entry -/

/-- Output axis 0 of the product is the left operand's row. -/
theorem lhs_in_0 (i : S1024x256.Idx) (q : dot_S1024x192_S192x256_S1024x256_1_0_0_1_n_n.contr.Idx) :
    (dot_S1024x192_S192x256_S1024x256_1_0_0_1_n_n.lhsIdx i q 0).val = (i 0).val := by
  unfold DotDims.lhsIdx
  rw [dif_neg (show ¬(0 : Fin S1024x192.rank) ∈ dot_S1024x192_S192x256_S1024x256_1_0_0_1_n_n.lhsBatch by decide), dif_pos (show (0 : Fin S1024x192.rank) ∈ dot_S1024x192_S192x256_S1024x256_1_0_0_1_n_n.lhsNonContracting by decide)]
  rfl
/-- The left operand's column is the contraction coordinate. -/
theorem lhs_in_1 (i : S1024x256.Idx) (q : dot_S1024x192_S192x256_S1024x256_1_0_0_1_n_n.contr.Idx) :
    (dot_S1024x192_S192x256_S1024x256_1_0_0_1_n_n.lhsIdx i q 1).val = (q ⟨0, by decide⟩).val :=
  dot_S1024x192_S192x256_S1024x256_1_0_0_1_n_n.lhsIdx_val_of_single rfl i q
/-- The right operand's row is the contraction coordinate. -/
theorem rhs_in_0 (i : S1024x256.Idx) (q : dot_S1024x192_S192x256_S1024x256_1_0_0_1_n_n.contr.Idx) :
    (dot_S1024x192_S192x256_S1024x256_1_0_0_1_n_n.rhsIdx i q 0).val = (q ⟨0, by decide⟩).val :=
  dot_S1024x192_S192x256_S1024x256_1_0_0_1_n_n.rhsIdx_val_of_single rfl i q
/-- Output axis 1 of the product is the right operand's column. -/
theorem rhs_in_1 (i : S1024x256.Idx) (q : dot_S1024x192_S192x256_S1024x256_1_0_0_1_n_n.contr.Idx) :
    (dot_S1024x192_S192x256_S1024x256_1_0_0_1_n_n.rhsIdx i q 1).val = (i 1).val := by
  unfold DotDims.rhsIdx
  rw [dif_neg (show ¬(1 : Fin S192x256.rank) ∈ dot_S1024x192_S192x256_S1024x256_1_0_0_1_n_n.rhsBatch by decide), dif_pos (show (1 : Fin S192x256.rank) ∈ dot_S1024x192_S192x256_S1024x256_1_0_0_1_n_n.rhsNonContracting by decide)]
  rfl
/-- A [1024, 192] tile times a [192, 256] matrix into the zero accumulator: entry `(p, j)` is `∑ k, L (p, k) * R (k, j)`. -/
theorem matmul_in_apply (L : FVec Ideal S1024x192 .bf16) (R : FVec Ideal S192x256 .bf16) (p : Fin 1024) (j : Fin 256) :
    matmul dot_S1024x192_S192x256_S1024x256_1_0_0_1_n_n none L R (constant (F := Ideal) S1024x256 .f32 0x00000000#32) (ix2 p j)
      = ∑ k : Fin 192, L (ix2 p k) * R (ix2 k j) := by
  simp only [matmul]
  rw [Ideal.matmul_constant_zero_apply, ← Equiv.sum_comp (contrEquiv1 dot_S1024x192_S192x256_S1024x256_1_0_0_1_n_n 192 rfl rfl).symm]
  refine Finset.sum_congr rfl fun k _ => ?_
  have hk := contrEquiv1_symm_val dot_S1024x192_S192x256_S1024x256_1_0_0_1_n_n 192 rfl rfl k
  have el : dot_S1024x192_S192x256_S1024x256_1_0_0_1_n_n.lhsIdx (ix2 p j) ((contrEquiv1 dot_S1024x192_S192x256_S1024x256_1_0_0_1_n_n 192 rfl rfl).symm k) = ix2 p k := funext fun a => Fin.ext (by
    match a with
    | ⟨0, _⟩ => exact lhs_in_0 _ _
    | ⟨1, _⟩ => exact (lhs_in_1 _ _).trans hk)
  have er : dot_S1024x192_S192x256_S1024x256_1_0_0_1_n_n.rhsIdx (ix2 p j) ((contrEquiv1 dot_S1024x192_S192x256_S1024x256_1_0_0_1_n_n 192 rfl rfl).symm k) = ix2 k j := funext fun a => Fin.ext (by
    match a with
    | ⟨0, _⟩ => exact (rhs_in_0 _ _).trans hk
    | ⟨1, _⟩ => exact rhs_in_1 _ _)
  rw [el, er]

/-- Output axis 0 of the product is the left operand's row. -/
theorem lhs_gate_0 (i : S1024x768.Idx) (q : dot_S1024x256_S256x768_S1024x768_1_0_0_1_n_n.contr.Idx) :
    (dot_S1024x256_S256x768_S1024x768_1_0_0_1_n_n.lhsIdx i q 0).val = (i 0).val := by
  unfold DotDims.lhsIdx
  rw [dif_neg (show ¬(0 : Fin S1024x256.rank) ∈ dot_S1024x256_S256x768_S1024x768_1_0_0_1_n_n.lhsBatch by decide), dif_pos (show (0 : Fin S1024x256.rank) ∈ dot_S1024x256_S256x768_S1024x768_1_0_0_1_n_n.lhsNonContracting by decide)]
  rfl
/-- The left operand's column is the contraction coordinate. -/
theorem lhs_gate_1 (i : S1024x768.Idx) (q : dot_S1024x256_S256x768_S1024x768_1_0_0_1_n_n.contr.Idx) :
    (dot_S1024x256_S256x768_S1024x768_1_0_0_1_n_n.lhsIdx i q 1).val = (q ⟨0, by decide⟩).val :=
  dot_S1024x256_S256x768_S1024x768_1_0_0_1_n_n.lhsIdx_val_of_single rfl i q
/-- The right operand's row is the contraction coordinate. -/
theorem rhs_gate_0 (i : S1024x768.Idx) (q : dot_S1024x256_S256x768_S1024x768_1_0_0_1_n_n.contr.Idx) :
    (dot_S1024x256_S256x768_S1024x768_1_0_0_1_n_n.rhsIdx i q 0).val = (q ⟨0, by decide⟩).val :=
  dot_S1024x256_S256x768_S1024x768_1_0_0_1_n_n.rhsIdx_val_of_single rfl i q
/-- Output axis 1 of the product is the right operand's column. -/
theorem rhs_gate_1 (i : S1024x768.Idx) (q : dot_S1024x256_S256x768_S1024x768_1_0_0_1_n_n.contr.Idx) :
    (dot_S1024x256_S256x768_S1024x768_1_0_0_1_n_n.rhsIdx i q 1).val = (i 1).val := by
  unfold DotDims.rhsIdx
  rw [dif_neg (show ¬(1 : Fin S256x768.rank) ∈ dot_S1024x256_S256x768_S1024x768_1_0_0_1_n_n.rhsBatch by decide), dif_pos (show (1 : Fin S256x768.rank) ∈ dot_S1024x256_S256x768_S1024x768_1_0_0_1_n_n.rhsNonContracting by decide)]
  rfl
/-- A [1024, 256] tile times a [256, 768] matrix into the zero accumulator: entry `(p, j)` is `∑ k, L (p, k) * R (k, j)`. -/
theorem matmul_gate_apply (L : FVec Ideal S1024x256 .bf16) (R : FVec Ideal S256x768 .bf16) (p : Fin 1024) (j : Fin 768) :
    matmul dot_S1024x256_S256x768_S1024x768_1_0_0_1_n_n none L R (constant (F := Ideal) S1024x768 .f32 0x00000000#32) (ix2 p j)
      = ∑ k : Fin 256, L (ix2 p k) * R (ix2 k j) := by
  simp only [matmul]
  rw [Ideal.matmul_constant_zero_apply, ← Equiv.sum_comp (contrEquiv1 dot_S1024x256_S256x768_S1024x768_1_0_0_1_n_n 256 rfl rfl).symm]
  refine Finset.sum_congr rfl fun k _ => ?_
  have hk := contrEquiv1_symm_val dot_S1024x256_S256x768_S1024x768_1_0_0_1_n_n 256 rfl rfl k
  have el : dot_S1024x256_S256x768_S1024x768_1_0_0_1_n_n.lhsIdx (ix2 p j) ((contrEquiv1 dot_S1024x256_S256x768_S1024x768_1_0_0_1_n_n 256 rfl rfl).symm k) = ix2 p k := funext fun a => Fin.ext (by
    match a with
    | ⟨0, _⟩ => exact lhs_gate_0 _ _
    | ⟨1, _⟩ => exact (lhs_gate_1 _ _).trans hk)
  have er : dot_S1024x256_S256x768_S1024x768_1_0_0_1_n_n.rhsIdx (ix2 p j) ((contrEquiv1 dot_S1024x256_S256x768_S1024x768_1_0_0_1_n_n 256 rfl rfl).symm k) = ix2 k j := funext fun a => Fin.ext (by
    match a with
    | ⟨0, _⟩ => exact (rhs_gate_0 _ _).trans hk
    | ⟨1, _⟩ => exact rhs_gate_1 _ _)
  rw [el, er]

/-- Output axis 0 of the product is the left operand's row. -/
theorem lhs_head_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- The left operand's column is the contraction coordinate. -/
theorem lhs_head_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
/-- The right operand's row is the contraction coordinate. -/
theorem rhs_head_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
/-- Output axis 1 of the product is the right operand's column. -/
theorem rhs_head_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
/-- A [1024, 256] tile times a [256, 256] matrix into the zero accumulator: entry `(p, j)` is `∑ k, L (p, k) * R (k, j)`. -/
theorem matmul_head_apply (L : FVec Ideal S1024x256 .bf16) (R : FVec Ideal S256x256 .bf16) (p : Fin 1024) (j : Fin 256) :
    matmul dot_S1024x256_S256x256_S1024x256_1_0_0_1_n_n none L R (constant (F := Ideal) S1024x256 .f32 0x00000000#32) (ix2 p j)
      = ∑ k : Fin 256, L (ix2 p k) * R (ix2 k j) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p j) ((contrEquiv1 dot_S1024x256_S256x256_S1024x256_1_0_0_1_n_n 256 rfl rfl).symm k) = ix2 p k := funext fun a => Fin.ext (by
    match a with
    | ⟨0, _⟩ => exact lhs_head_0 _ _
    | ⟨1, _⟩ => exact (lhs_head_1 _ _).trans hk)
  have er : dot_S1024x256_S256x256_S1024x256_1_0_0_1_n_n.rhsIdx (ix2 p j) ((contrEquiv1 dot_S1024x256_S256x256_S1024x256_1_0_0_1_n_n 256 rfl rfl).symm k) = ix2 k j := funext fun a => Fin.ext (by
    match a with
    | ⟨0, _⟩ => exact (rhs_head_0 _ _).trans hk
    | ⟨1, _⟩ => exact rhs_head_1 _ _)
  rw [el, er]

/-! ## The bias rows, the thirds of the gate columns, the 16 × 16 grid -/

/-- A 256-vector viewed as one row and repeated down the tile reads, at `(p, j)`, its entry `j`. -/
theorem bias256_apply (b : Vec Ideal S256 .f32) (p : Fin 1024) (j : Fin 256) :
    broadcastTo S1024x256 (shapeCast S1x256 b shapeCasts_S256_S1x256) broadcasts_S1x256_S1024x256 (ix2 p j) = b (ix1 j) :=
  (broadcastTo_1b_ab_apply _ broadcasts_S1x256_S1024x256 p j).trans (shapeCast_a_1a_apply b shapeCasts_S256_S1x256 0 j)

/-- The same for a 768-vector. -/
theorem bias768_apply (b : Vec Ideal S768 .f32) (p : Fin 1024) (j : Fin 768) :
    broadcastTo S1024x768 (shapeCast S1x768 b shapeCasts_S768_S1x768) broadcasts_S1x768_S1024x768 (ix2 p j) = b (ix1 j) :=
  (broadcastTo_1b_ab_apply _ broadcasts_S1x768_S1024x768 p j).trans (shapeCast_a_1a_apply b shapeCasts_S768_S1x768 0 j)

/-- The 256 columns of a [1024, 768] array from column `o` on: entry `(p, q)` is the array at `(p, o + q)`. -/
theorem third_apply (o : Nat) (ho : o + 256 ≤ 768) (X : FVec Ideal S1024x768 .f32) (hs : S1024x768.Slices ![0, o] S1024x256)
    (p : Fin 1024) (q : Fin 256) :
    extractStridedSlice S1024x256 ![0, o] X hs (ix2 p q) = X (ix2 p (third o ho q)) :=
  slice2_axis1_apply o X hs p q (third o ho q) rfl

/-- A [1024, 256] array read as [1024, 16, 16]: entry `(p, a, b)` is the array at `(p, 16 a + b)`. -/
theorem grid_apply (X : FVec Ideal S1024x256 .f32) (p : Fin 1024) (a b : Fin 16) :
    shapeCast S1024x16x16 X shapeCasts_S1024x256_S1024x16x16 (ix3 p a b) = X (ix2 p (cell a b)) :=
  shapeCast_apply X shapeCasts_S1024x256_S1024x16x16 (ix3 p a b) (ix2 p (cell a b)) (by
    rw [Shape.rowMajor_val_two, Shape.rowMajor_val_three]
    show p.val * 256 + (a.val * 16 + b.val) = (p.val * 16 + a.val) * 16 + b.val
    omega)

/-! ## The gates -/

/-- The rectified first layer of the tile, at `(p, k)`, is that of row `p`. -/
theorem act_apply (x0 : Vec Ideal S1024x192 .bf16) (w1 : Vec Ideal S192x256 .bf16) (b1 : Vec Ideal S256 .f32) (wih : Vec Ideal S256x768 .bf16) (bih : Vec Ideal S768 .f32) (whh : Vec Ideal S256x768 .bf16) (bhh : Vec Ideal S768 .f32) (w2 : Vec Ideal S256x256 .bf16) (b2 : Vec Ideal S256 .f32) (p : Fin 1024) (k : Fin 256) :
    truncf .bf16 (maximumf (addf (matmul (φ₁ := .bf16) (φ₂ := .bf16) dot_S1024x192_S192x256_S1024x256_1_0_0_1_n_n none x0 w1 (constant (F := Ideal) S1024x256 .f32 0x00000000#32))
        (broadcastTo S1024x256 (shapeCast S1x256 b1 shapeCasts_S256_S1x256) broadcasts_S1x256_S1024x256))
      (broadcast S1024x256 (Scalar.ofBits .f32 0x00000000#32))) bitsLt_bf16_f32 (ix2 p k)
      = act ⟨w1, b1, wih, bih, whh, bhh, w2, b2⟩ (rowOf x0 p) k := by
  simp only [truncf_apply, maximumf_apply, addf_apply, broadcast_apply]
  rw [matmul_in_apply, bias256_apply]
  rfl

/-- The input gates of the tile, at `(p, j)`, are those of row `p`. -/
theorem pay5_apply (x0 : Vec Ideal S1024x192 .bf16) (w1 : Vec Ideal S192x256 .bf16) (b1 : Vec Ideal S256 .f32) (wih : Vec Ideal S256x768 .bf16) (bih : Vec Ideal S768 .f32) (whh : Vec Ideal S256x768 .bf16) (bhh : Vec Ideal S768 .f32) (w2 : Vec Ideal S256x256 .bf16) (b2 : Vec Ideal S256 .f32) (p : Fin 1024) (j : Fin 768) :
    k0_pay5 (F := Ideal) x0 w1 b1 wih bih (ix2 p j) = gi ⟨w1, b1, wih, bih, whh, bhh, w2, b2⟩ (rowOf x0 p) j := by
  unfold k0_pay5
  simp only [addf_apply, shapeCast_self]
  rw [matmul_gate_apply, bias768_apply]
  exact congrArg (· + bih (ix1 j)) (Finset.sum_congr rfl fun k _ =>
    congrArg (· * wih (ix2 k j)) (act_apply x0 w1 b1 wih bih whh bhh w2 b2 p k))

/-- The state gates of the tile, at `(p, j)`, are those of row `p`. -/
theorem pay6_apply (h : Vec Ideal S1024x256 .f32) (w1 : Vec Ideal S192x256 .bf16) (b1 : Vec Ideal S256 .f32) (wih : Vec Ideal S256x768 .bf16) (bih : Vec Ideal S768 .f32) (whh : Vec Ideal S256x768 .bf16) (bhh : Vec Ideal S768 .f32) (w2 : Vec Ideal S256x256 .bf16) (b2 : Vec Ideal S256 .f32) (p : Fin 1024) (j : Fin 768) :
    k0_pay6 (F := Ideal) h whh bhh (ix2 p j) = gh ⟨w1, b1, wih, bih, whh, bhh, w2, b2⟩ (rowOf h p) j := by
  unfold k0_pay6
  simp only [addf_apply, shapeCast_self]
  rw [matmul_gate_apply, bias768_apply]
  rfl

/-- The update gate of the tile. -/
theorem pay7_apply (x0 : Vec Ideal S1024x192 .bf16) (h : Vec Ideal S1024x256 .f32) (w1 : Vec Ideal S192x256 .bf16) (b1 : Vec Ideal S256 .f32) (wih : Vec Ideal S256x768 .bf16) (bih : Vec Ideal S768 .f32) (whh : Vec Ideal S256x768 .bf16) (bhh : Vec Ideal S768 .f32) (w2 : Vec Ideal S256x256 .bf16) (b2 : Vec Ideal S256 .f32) (p : Fin 1024) (q : Fin 256) :
    k0_pay7 (F := Ideal) x0 w1 b1 wih bih h whh bhh (ix2 p q) = zGate ⟨w1, b1, wih, bih, whh, bhh, w2, b2⟩ (rowOf x0 p) (rowOf h p) q := by
  unfold k0_pay7
  show Ideal.logistic
      (extractStridedSlice S1024x256 ![0, 256] (k0_pay5 (F := Ideal) x0 w1 b1 wih bih) slices_S1024x768_o0_256_S1024x256 (ix2 p q)
        + extractStridedSlice S1024x256 ![0, 256] (k0_pay6 (F := Ideal) h whh bhh) slices_S1024x768_o0_256_S1024x256 (ix2 p q)) = _
  rw [third_apply 256 (by omega), third_apply 256 (by omega), pay5_apply x0 w1 b1 wih bih whh bhh w2 b2, pay6_apply h w1 b1 wih bih whh bhh w2 b2]
  rfl

/-- The candidate state of the tile. -/
theorem pay8_apply (x0 : Vec Ideal S1024x192 .bf16) (h : Vec Ideal S1024x256 .f32) (w1 : Vec Ideal S192x256 .bf16) (b1 : Vec Ideal S256 .f32) (wih : Vec Ideal S256x768 .bf16) (bih : Vec Ideal S768 .f32) (whh : Vec Ideal S256x768 .bf16) (bhh : Vec Ideal S768 .f32) (w2 : Vec Ideal S256x256 .bf16) (b2 : Vec Ideal S256 .f32) (p : Fin 1024) (q : Fin 256) :
    k0_pay8 (F := Ideal) x0 w1 b1 wih bih h whh bhh (ix2 p q) = nGate ⟨w1, b1, wih, bih, whh, bhh, w2, b2⟩ (rowOf x0 p) (rowOf h p) q := by
  unfold k0_pay8
  show Ideal.tanh
      (extractStridedSlice S1024x256 ![0, 512] (k0_pay5 (F := Ideal) x0 w1 b1 wih bih) slices_S1024x768_o0_512_S1024x256 (ix2 p q)
        + Ideal.logistic
            (extractStridedSlice S1024x256 ![0, 0] (k0_pay5 (F := Ideal) x0 w1 b1 wih bih) slices_S1024x768_o0_0_S1024x256 (ix2 p q)
              + extractStridedSlice S1024x256 ![0, 0] (k0_pay6 (F := Ideal) h whh bhh) slices_S1024x768_o0_0_S1024x256 (ix2 p q))
          * extractStridedSlice S1024x256 ![0, 512] (k0_pay6 (F := Ideal) h whh bhh) slices_S1024x768_o0_512_S1024x256 (ix2 p q)) = _
  rw [third_apply 512 (by omega), third_apply 0 (by omega), third_apply 0 (by omega), third_apply 512 (by omega),
    pay5_apply x0 w1 b1 wih bih whh bhh w2 b2, pay5_apply x0 w1 b1 wih bih whh bhh w2 b2, pay6_apply h w1 b1 wih bih whh bhh w2 b2, pay6_apply h w1 b1 wih bih whh bhh w2 b2]
  rfl

/-! ## The new state, the head, and the two maxima of its grid -/

/-- The new state of the tile, at `(p, q)`, is that of row `p`. -/
theorem pay1_apply (x0 : Vec Ideal S1024x192 .bf16) (h : Vec Ideal S1024x256 .f32) (w1 : Vec Ideal S192x256 .bf16) (b1 : Vec Ideal S256 .f32) (wih : Vec Ideal S256x768 .bf16) (bih : Vec Ideal S768 .f32) (whh : Vec Ideal S256x768 .bf16) (bhh : Vec Ideal S768 .f32) (w2 : Vec Ideal S256x256 .bf16) (b2 : Vec Ideal S256 .f32) (p : Fin 1024) (q : Fin 256) :
    k0_pay1 (F := Ideal) h (k0_pay7 (F := Ideal) x0 w1 b1 wih bih h whh bhh) (k0_pay8 (F := Ideal) x0 w1 b1 wih bih h whh bhh) (Scalar.ofBits .f32 0x3F800000#32) (ix2 p q) = stateRow ⟨w1, b1, wih, bih, whh, bhh, w2, b2⟩ (rowOf x0 p) (rowOf h p) q := by
  unfold k0_pay1
  simp only [addf_apply, mulf_apply, subf_apply, broadcast_apply]
  rw [pay7_apply x0 h w1 b1 wih bih whh bhh w2 b2, pay8_apply x0 h w1 b1 wih bih whh bhh w2 b2]
  rfl

/-- The head of the tile before it is read as a grid, at `(p, j)`, is the head of row `p`. -/
theorem head_apply (x0 : Vec Ideal S1024x192 .bf16) (h : Vec Ideal S1024x256 .f32) (w1 : Vec Ideal S192x256 .bf16) (b1 : Vec Ideal S256 .f32) (wih : Vec Ideal S256x768 .bf16) (bih : Vec Ideal S768 .f32) (whh : Vec Ideal S256x768 .bf16) (bhh : Vec Ideal S768 .f32) (w2 : Vec Ideal S256x256 .bf16) (b2 : Vec Ideal S256 .f32) (p : Fin 1024) (j : Fin 256) :
    addf (matmul (φ₁ := .bf16) (φ₂ := .bf16) dot_S1024x256_S256x256_S1024x256_1_0_0_1_n_n none
        (truncf .bf16 (k0_pay1 (F := Ideal) h (k0_pay7 (F := Ideal) x0 w1 b1 wih bih h whh bhh) (k0_pay8 (F := Ideal) x0 w1 b1 wih bih h whh bhh) (Scalar.ofBits .f32 0x3F800000#32)) bitsLt_bf16_f32) w2 (constant (F := Ideal) S1024x256 .f32 0x00000000#32))
      (broadcastTo S1024x256 (shapeCast S1x256 b2 shapeCasts_S256_S1x256) broadcasts_S1x256_S1024x256) (ix2 p j)
      = headRow ⟨w1, b1, wih, bih, whh, bhh, w2, b2⟩ (rowOf x0 p) (rowOf h p) j := by
  rw [addf_apply, matmul_head_apply, bias256_apply]
  exact congrArg (· + b2 (ix1 j)) (Finset.sum_congr rfl fun k _ =>
    congrArg (· * w2 (ix2 k j)) (pay1_apply x0 h w1 b1 wih bih whh bhh w2 b2 p k))

/-- The head of the tile as a grid: entry `(p, a, b)` is the head of row `p` at cell `(a, b)`. -/
theorem pay2_apply (x0 : Vec Ideal S1024x192 .bf16) (h : Vec Ideal S1024x256 .f32) (w1 : Vec Ideal S192x256 .bf16) (b1 : Vec Ideal S256 .f32) (wih : Vec Ideal S256x768 .bf16) (bih : Vec Ideal S768 .f32) (whh : Vec Ideal S256x768 .bf16) (bhh : Vec Ideal S768 .f32) (w2 : Vec Ideal S256x256 .bf16) (b2 : Vec Ideal S256 .f32) (p : Fin 1024) (a b : Fin 16) :
    k0_pay2 (F := Ideal) h (k0_pay7 (F := Ideal) x0 w1 b1 wih bih h whh bhh) (k0_pay8 (F := Ideal) x0 w1 b1 wih bih h whh bhh) (Scalar.ofBits .f32 0x3F800000#32) w2 b2 (ix3 p a b)
      = headRow ⟨w1, b1, wih, bih, whh, bhh, w2, b2⟩ (rowOf x0 p) (rowOf h p) (cell a b) := by
  unfold k0_pay2
  simp only [shapeCast_self]
  exact (grid_apply _ p a b).trans (head_apply x0 h w1 b1 wih bih whh bhh w2 b2 p (cell a b))

/-- Dropping the last axis of the grid: the entry over `(p, a)` at `b` is `(p, a, b)`. -/
theorem lift_last (p : Fin 1024) (a b : Fin 16) :
    reduces_S1024x16x16_S1024x16.lift (ix2 p a) b = ix3 p a b :=
  funext fun d => Fin.ext (by match d with | ⟨0, _⟩ => rfl | ⟨1, _⟩ => rfl | ⟨2, _⟩ => rfl)

/-- Dropping the middle axis of the grid: the entry over `(p, b)` at `a` is `(p, a, b)`. -/
theorem lift_mid (p : Fin 1024) (b a : Fin 16) :
    reduces_S1024x16x16_S1024x16_2.lift (ix2 p b) a = ix3 p a b :=
  funext fun d => Fin.ext (by match d with | ⟨0, _⟩ => rfl | ⟨1, _⟩ => rfl | ⟨2, _⟩ => rfl)

/-- The maxima along the grid's rows. -/
theorem pay3_apply (x0 : Vec Ideal S1024x192 .bf16) (h : Vec Ideal S1024x256 .f32) (w1 : Vec Ideal S192x256 .bf16) (b1 : Vec Ideal S256 .f32) (wih : Vec Ideal S256x768 .bf16) (bih : Vec Ideal S768 .f32) (whh : Vec Ideal S256x768 .bf16) (bhh : Vec Ideal S768 .f32) (w2 : Vec Ideal S256x256 .bf16) (b2 : Vec Ideal S256 .f32) (p : Fin 1024) (a : Fin 16) :
    k0_pay3 (F := Ideal) h (k0_pay7 (F := Ideal) x0 w1 b1 wih bih h whh bhh) (k0_pay8 (F := Ideal) x0 w1 b1 wih bih h whh bhh) (Scalar.ofBits .f32 0x3F800000#32) w2 b2 (ix2 p a)
      = leftRow ⟨w1, b1, wih, bih, whh, bhh, w2, b2⟩ (rowOf x0 p) (rowOf h p) a := by
  unfold k0_pay3
  refine (Ideal.multiReduction_maximumf_single (k0_pay2 (F := Ideal) h (k0_pay7 (F := Ideal) x0 w1 b1 wih bih h whh bhh) (k0_pay8 (F := Ideal) x0 w1 b1 wih bih h whh bhh) (Scalar.ofBits .f32 0x3F800000#32) w2 b2) 0xFF800000#32
    reduces_S1024x16x16_S1024x16 (.inl rfl) rfl (ix2 p a)).trans ?_
  refine Finset.fold_congr fun b _ => ?_
  exact (congrArg (k0_pay2 (F := Ideal) h (k0_pay7 (F := Ideal) x0 w1 b1 wih bih h whh bhh) (k0_pay8 (F := Ideal) x0 w1 b1 wih bih h whh bhh) (Scalar.ofBits .f32 0x3F800000#32) w2 b2) (lift_last p a b)).trans
    (pay2_apply x0 h w1 b1 wih bih whh bhh w2 b2 p a b)

/-- The maxima along the grid's columns. -/
theorem pay4_apply (x0 : Vec Ideal S1024x192 .bf16) (h : Vec Ideal S1024x256 .f32) (w1 : Vec Ideal S192x256 .bf16) (b1 : Vec Ideal S256 .f32) (wih : Vec Ideal S256x768 .bf16) (bih : Vec Ideal S768 .f32) (whh : Vec Ideal S256x768 .bf16) (bhh : Vec Ideal S768 .f32) (w2 : Vec Ideal S256x256 .bf16) (b2 : Vec Ideal S256 .f32) (p : Fin 1024) (b : Fin 16) :
    k0_pay4 (F := Ideal) h (k0_pay7 (F := Ideal) x0 w1 b1 wih bih h whh bhh) (k0_pay8 (F := Ideal) x0 w1 b1 wih bih h whh bhh) (Scalar.ofBits .f32 0x3F800000#32) w2 b2 (ix2 p b)
      = rightRow ⟨w1, b1, wih, bih, whh, bhh, w2, b2⟩ (rowOf x0 p) (rowOf h p) b := by
  unfold k0_pay4
  refine (Ideal.multiReduction_maximumf_single (k0_pay2 (F := Ideal) h (k0_pay7 (F := Ideal) x0 w1 b1 wih bih h whh bhh) (k0_pay8 (F := Ideal) x0 w1 b1 wih bih h whh bhh) (Scalar.ofBits .f32 0x3F800000#32) w2 b2) 0xFF800000#32
    reduces_S1024x16x16_S1024x16_2 (.inl rfl) rfl (ix2 p b)).trans ?_
  refine Finset.fold_congr fun a _ => ?_
  exact (congrArg (k0_pay2 (F := Ideal) h (k0_pay7 (F := Ideal) x0 w1 b1 wih bih h whh bhh) (k0_pay8 (F := Ideal) x0 w1 b1 wih bih h whh bhh) (Scalar.ofBits .f32 0x3F800000#32) w2 b2) (lift_mid p b a)).trans
    (pay2_apply x0 h w1 b1 wih bih whh bhh w2 b2 p a b)

/-! ## The three stored values of a tile are the specification's whole-array functions of the tile -/

/-- The stored new state. -/
theorem pay_state (x0 : Vec Ideal S1024x192 .bf16) (h : Vec Ideal S1024x256 .f32) (w1 : Vec Ideal S192x256 .bf16) (b1 : Vec Ideal S256 .f32) (wih : Vec Ideal S256x768 .bf16) (bih : Vec Ideal S768 .f32) (whh : Vec Ideal S256x768 .bf16) (bhh : Vec Ideal S768 .f32) (w2 : Vec Ideal S256x256 .bf16) (b2 : Vec Ideal S256 .f32) :
    k0_pay1 (F := Ideal) h (k0_pay7 (F := Ideal) x0 w1 b1 wih bih h whh bhh) (k0_pay8 (F := Ideal) x0 w1 b1 wih bih h whh bhh) (Scalar.ofBits .f32 0x3F800000#32)
      = newState ⟨w1, b1, wih, bih, whh, bhh, w2, b2⟩ x0 h := by
  funext i
  obtain ⟨p, q, rfl⟩ : ∃ (p : Fin 1024) (q : Fin 256), i = ix2 p q := ⟨i 0, i 1, eq_ix2 i⟩
  rw [newState_apply]
  exact pay1_apply x0 h w1 b1 wih bih whh bhh w2 b2 p q

/-- The stored row maxima. -/
theorem pay_left (x0 : Vec Ideal S1024x192 .bf16) (h : Vec Ideal S1024x256 .f32) (w1 : Vec Ideal S192x256 .bf16) (b1 : Vec Ideal S256 .f32) (wih : Vec Ideal S256x768 .bf16) (bih : Vec Ideal S768 .f32) (whh : Vec Ideal S256x768 .bf16) (bhh : Vec Ideal S768 .f32) (w2 : Vec Ideal S256x256 .bf16) (b2 : Vec Ideal S256 .f32) :
    k0_pay3 (F := Ideal) h (k0_pay7 (F := Ideal) x0 w1 b1 wih bih h whh bhh) (k0_pay8 (F := Ideal) x0 w1 b1 wih bih h whh bhh) (Scalar.ofBits .f32 0x3F800000#32) w2 b2
      = rowMax ⟨w1, b1, wih, bih, whh, bhh, w2, b2⟩ x0 h := by
  funext i
  obtain ⟨p, a, rfl⟩ : ∃ (p : Fin 1024) (a : Fin 16), i = ix2 p a := ⟨i 0, i 1, eq_ix2 i⟩
  rw [rowMax_apply]
  exact pay3_apply x0 h w1 b1 wih bih whh bhh w2 b2 p a

/-- The stored column maxima. -/
theorem pay_right (x0 : Vec Ideal S1024x192 .bf16) (h : Vec Ideal S1024x256 .f32) (w1 : Vec Ideal S192x256 .bf16) (b1 : Vec Ideal S256 .f32) (wih : Vec Ideal S256x768 .bf16) (bih : Vec Ideal S768 .f32) (whh : Vec Ideal S256x768 .bf16) (bhh : Vec Ideal S768 .f32) (w2 : Vec Ideal S256x256 .bf16) (b2 : Vec Ideal S256 .f32) :
    k0_pay4 (F := Ideal) h (k0_pay7 (F := Ideal) x0 w1 b1 wih bih h whh bhh) (k0_pay8 (F := Ideal) x0 w1 b1 wih bih h whh bhh) (Scalar.ofBits .f32 0x3F800000#32) w2 b2
      = colMax ⟨w1, b1, wih, bih, whh, bhh, w2, b2⟩ x0 h := by
  funext i
  obtain ⟨p, b, rfl⟩ : ∃ (p : Fin 1024) (b : Fin 16), i = ix2 p b := ⟨i 0, i 1, eq_ix2 i⟩
  rw [colMax_apply]
  exact pay4_apply x0 h w1 b1 wih bih whh bhh w2 b2 p b

end Cert.KernelIdeal.Pay

end
-- ==== Proof.LibNary3.lean ====
import Idealize.ShloMosaic.Lib.StableHlo.Run

/-!
# A three-operand host operation's result, each operand read at its own reference

`StableHlo.nary` over a LITERAL family of three references (a concatenate of three operands): the result buffer
holds the operation's function of the three operands' contents, each taken at its own reference, so that a
rewriting pass can go on into the operands. The companion of the library's four-operand form.
-/

noncomputable section

namespace Idealize.ShloMosaic.StableHlo

variable {τ : Topo} {sig : RefSig} {Val : EltTy → Type}
variable {x a b y : Ref sig .tc}

/-- The result of a three-operand operation: its function applied to the operands' contents, one reference each. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for a simplifier pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.KernelHost.lean ====
import proofs.«156184_j52063593562852_1_alg».proof.Proof.Gen.KernelIdeal.Launch
import proofs.«156184_j52063593562852_1_alg».proof.Proof.LibNary3
import Idealize.ShloMosaic.Lib.StableHlo.Run

/-!
# The host operations around the region, as functions of the buffers they read

Before the region the program pairs every batch element's agents `(k, k+1)` — the two slices of the input on the agent
axis, stacked and laid out as rows of 192 features (`pairs`) — and narrows the pairs and the four weight matrices to
bf16. After the region it interleaves the two arrays of maxima, reads the interleaved rows as `[2B, 15, 16]`, picks
per interior position the row with the larger maximum between the first two groups, and assembles the decoded output
(`decode`). Both are stated for any buffer contents `Vl` the operations start from.
-/

noncomputable section

namespace Cert.KernelIdeal.Host

open Idealize.ShloMosaic Idealize.ShloMosaic.TcCoe Idealize.ShloMosaic.StableHlo Idealize.SL.Sem
open Cert.KernelIdeal Cert.KernelIdeal.Gen

variable {F : FTy → Type} [FloatOps F]

/-- The paired rows: rows `(b, s, k)` of `[B, 2, 15, 96]` hold agent `k + s` of batch element `b`, read as `[245760, 192]`. -/
def pairs (x0 : (⟨S16384x16x96, .f32⟩ : BufTy).Contents (Elt F)) : (⟨S245760x192, .f32⟩ : BufTy).Contents (Elt F) :=
  shapeCast S245760x192 (concatenate S16384x2x15x96 1 [⟨S16384x1x15x96, (broadcastInDim S16384x1x15x96 ![0, 2, 3] bcast_S16384x15x96_S16384x1x15x96_0_2_3 (extractStridedSlice S16384x15x96 ![0, 0, 0] x0 slices_S16384x16x96_S16384x15x96_0_0_0))⟩, ⟨S16384x1x15x96, (broadcastInDim S16384x1x15x96 ![0, 2, 3] bcast_S16384x15x96_S16384x1x15x96_0_2_3 (extractStridedSlice S16384x15x96 ![0, 1, 0] x0 slices_S16384x16x96_S16384x15x96_0_1_0))⟩] concatenates_S16384x1x15x96_S16384x1x15x96_S16384x2x15x96_d1) shapeCasts_S16384x2x15x96_S245760x192

/-- The interleaved maxima read as `[32768, 15, 16]`. -/
def interleaved (l r : (⟨S245760x16, .f32⟩ : BufTy).Contents (Elt F)) : (⟨S32768x15x16, .f32⟩ : BufTy).Contents (Elt F) :=
  shapeCast S32768x15x16 (shapeCast S491520x16 (concatenate S245760x16x2 2 [⟨S245760x16x1, (broadcastInDim S245760x16x1 ![0, 1] bcast_S245760x16_S245760x16x1_0_1 l)⟩, ⟨S245760x16x1, (broadcastInDim S245760x16x1 ![0, 1] bcast_S245760x16_S245760x16x1_0_1 r)⟩] concatenates_S245760x16x1_S245760x16x1_S245760x16x2_d2) shapeCasts_S245760x16x2_S491520x16) shapeCasts_S491520x16_S32768x15x16

/-- Rows 1 … 14 of group 0. -/
def groupL (D : (⟨S32768x15x16, .f32⟩ : BufTy).Contents (Elt F)) : (⟨S14x16, .f32⟩ : BufTy).Contents (Elt F) :=
  shapeCast S14x16 (extractStridedSlice S1x14x16 ![0, 1, 0] D slices_S32768x15x16_S1x14x16_0_1_0) shapeCasts_S1x14x16_S14x16
/-- Rows 0 … 13 of group 1. -/
def groupR (D : (⟨S32768x15x16, .f32⟩ : BufTy).Contents (Elt F)) : (⟨S14x16, .f32⟩ : BufTy).Contents (Elt F) :=
  shapeCast S14x16 (extractStridedSlice S1x14x16 ![1, 0, 0] D slices_S32768x15x16_S1x14x16_1_0_0) shapeCasts_S1x14x16_S14x16

/-- Per interior position, the row of the group whose maximum is the larger. -/
def chosen (L R : (⟨S14x16, .f32⟩ : BufTy).Contents (Elt F)) : (⟨S14x16, .f32⟩ : BufTy).Contents (Elt F) :=
  select (broadcastInDim S14x16 ![0, 1] bcast_S14x1_S14x16_0_1 (broadcastInDim S14x1 ![0] bcast_S14_S14x1_0 (cmpf .ogt (Host.reduce FloatOps.maximumf L (constant (F := F) S_ .f32 0xFF800000#32) reducesTo_S14x16_S14_d1 h_S_) (Host.reduce FloatOps.maximumf R (constant (F := F) S_ .f32 0xFF800000#32) reducesTo_S14x16_S14_d1 h_S_)))) L R

/-- The decoded output from the interleaved maxima: first rows, the chosen interior rows for every batch element, last rows. -/
def assemble (D : (⟨S32768x15x16, .f32⟩ : BufTy).Contents (Elt F)) : (⟨S16384x16x16, .f32⟩ : BufTy).Contents (Elt F) :=
  concatenate S16384x16x16 1 [⟨S16384x1x16, extractStridedSlice S16384x1x16 ![0, 0, 0] D slices_S32768x15x16_S16384x1x16_0_0_0⟩, ⟨S16384x14x16, broadcastInDim S16384x14x16 ![0, 1, 2] bcast_S1x14x16_S16384x14x16_0_1_2 (broadcastInDim S1x14x16 ![1, 2] bcast_S14x16_S1x14x16_1_2 (chosen (groupL D) (groupR D)))⟩, ⟨S16384x1x16, extractStridedSlice S16384x1x16 ![0, 14, 0] D slices_S32768x15x16_S16384x1x16_0_14_0⟩] concatenates_S16384x1x16_S16384x14x16_S16384x1x16_S16384x16x16_d1

/-- The decode tail as one function of the two arrays of maxima. -/
def decode (l r : (⟨S245760x16, .f32⟩ : BufTy).Contents (Elt F)) : (⟨S16384x16x16, .f32⟩ : BufTy).Contents (Elt F) :=
  assemble (interleaved l r)

variable (Vl : Valuation τ sig (Elt F))

/-- After the operations before the region, the first window's array holds the narrowed pairs. -/
theorem pre_v6 : StableHlo.after hostOps0 Vl (Proc.devRef .tc main_v6)
    = (truncf .bf16 (pairs (Vl (Proc.devRef .tc main_arg0))) bitsLt_bf16_f32 : (⟨S245760x192, .bf16⟩ : BufTy).Contents (Elt F)) := by
  unfold pairs
  after_results; rfl
/-- … and the four narrowed weight matrices. -/
theorem pre_v7 : StableHlo.after hostOps0 Vl (Proc.devRef .tc main_v7)
    = (truncf .bf16 (Vl (Proc.devRef .tc main_arg2)) bitsLt_bf16_f32 : (⟨S192x256, .bf16⟩ : BufTy).Contents (Elt F)) := by
  after_results
theorem pre_v8 : StableHlo.after hostOps0 Vl (Proc.devRef .tc main_v8)
    = (truncf .bf16 (Vl (Proc.devRef .tc main_arg4)) bitsLt_bf16_f32 : (⟨S256x768, .bf16⟩ : BufTy).Contents (Elt F)) := by
  after_results
theorem pre_v9 : StableHlo.after hostOps0 Vl (Proc.devRef .tc main_v9)
    = (truncf .bf16 (Vl (Proc.devRef .tc main_arg5)) bitsLt_bf16_f32 : (⟨S256x768, .bf16⟩ : BufTy).Contents (Elt F)) := by
  after_results
theorem pre_v10 : StableHlo.after hostOps0 Vl (Proc.devRef .tc main_v10)
    = (truncf .bf16 (Vl (Proc.devRef .tc main_arg8)) bitsLt_bf16_f32 : (⟨S256x256, .bf16⟩ : BufTy).Contents (Elt F)) := by
  after_results

set_option maxHeartbeats 8000000 in
/-- After the operations that follow the region, the decoded output is `decode` of the two arrays of maxima as the region left them. -/
theorem post_v30 : StableHlo.after ([hostOps1, hostOps1_1, hostOps1_2] : List (List (HloOp τ sig (Elt F)))).flatten Vl (Proc.devRef .tc main_v30)
    = decode (Vl (Proc.devRef .tc main_v11_1)) (Vl (Proc.devRef .tc main_v11_2)) := by
  simp only [hostOps1, hostOps1_1, hostOps1_2, List.flatten_cons, List.flatten_nil, List.append_nil, List.cons_append, List.nil_append]
  unfold decode assemble chosen groupL groupR interleaved
  simp only [after_cons, after_nil]
  rw [nary3_result]
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

end Cert.KernelIdeal.Host

end
-- ==== Proof.KernelValue.lean ====
import proofs.«156184_j52063593562852_1_alg».proof.Proof.FrameI
import proofs.«156184_j52063593562852_1_alg».proof.Proof.KernelPay
import proofs.«156184_j52063593562852_1_alg».proof.Proof.KernelHost
import proofs.«156184_j52063593562852_1_alg».proof.Proof.Spec
import Idealize.ShloMosaic.Lib.Pipeline.Value
import Idealize.ShloMosaic.Lib.ValueIdx

/-!
# What the idealized kernel program leaves in its results

The region's grid has 240 points; point `t` handles the tile of rows `1024·t … 1024·t + 1023` of the batch: its
blocks of the paired features and of the state are those rows, the eight weight windows are the whole weight arrays at
every point, and what it writes back into the three output windows are the same rows of the new states, of the
grid-row maxima and of the grid-column maxima. The tile's arithmetic is the row-wise step of `Cert.GruSpec`, and a
row's result depends on that row only, so every written block is the block of ONE whole-array function, and the blocks
cover the arrays: after the region the three arrays hold `newState`, `rowMax`, `colMax` of the whole batch. The
host operations after the region then turn the two arrays of maxima into the decoded output.
-/

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr Cert.GruSpec

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The weights as the region finds them. -/
def W (c : Dev nD) : Weights :=
  ⟨V m c main_v7, V m c main_arg3, V m c main_v8, V m c main_arg6, V m c main_v9, V m c main_arg7, V m c main_v10, V m c main_arg9⟩
/-- The paired features as the region finds them. -/
abbrev X (c : Dev nD) : Mat 245760 192 := V m c main_v6
/-- The state as the region finds it. -/
abbrev H (c : Dev nD) : Mat 245760 256 := V m c main_arg1

/-- The weights a point's windows hold. -/
def Wt (c : Dev nD) (t : Fin cfg0.N) : Weights :=
  ⟨iblk m c 2 t, iblk m c 3 t, iblk m c 4 t, iblk m c 5 t, iblk m c 6 t, iblk m c 7 t, iblk m c 8 t, iblk m c 9 t⟩

/-- The printed index maps over the grid: the five moving windows are at block row `t`, the eight weight windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

theorem N_lt (t : Fin cfg0.N) : t.val < 240 := Nat.lt_of_lt_of_eq t.isLt N_0

/-! ## A point's blocks are rows of the arrays -/

/-- Row `p` of the paired-features block at point `t` is row `1024·t + p` of the array. -/
theorem rows0 (c : Dev nD) (t : Fin cfg0.N) (p : Fin 1024) (n : Fin 245760) (hn : n.val = t.val * 1024 + p.val) :
    rowOf (iblk m c 0 t : Mat 1024 192) p = rowOf (X m c) n := by
  funext k
  show V m c main_v6 (((cfg0.win 0).blk t).view.emb (ix2 p k)) = V m c main_v6 (ix2 n k)
  refine congrArg _ ?_
  funext a; apply Fin.ext
  obtain ⟨e0, e1, -⟩ := idx_facts t
  match a with
  | ⟨0, _⟩ => show win0_0.index t (0 : Fin 2) * 1024 + 1 * p.val = n.val; omega
  | ⟨1, _⟩ => show win0_0.index t (1 : Fin 2) * 192 + 1 * k.val = k.val; omega

/-- Row `p` of the state block at point `t` is row `1024·t + p` of the array. -/
theorem rows1 (c : Dev nD) (t : Fin cfg0.N) (p : Fin 1024) (n : Fin 245760) (hn : n.val = t.val * 1024 + p.val) :
    rowOf (iblk m c 1 t : Mat 1024 256) p = rowOf (H m c) n := by
  funext k
  show V m c main_arg1 (((cfg0.win 1).blk t).view.emb (ix2 p k)) = V m c main_arg1 (ix2 n k)
  refine congrArg _ ?_
  funext a; apply Fin.ext
  obtain ⟨-, -, e0, e1, -⟩ := idx_facts t
  match a with
  | ⟨0, _⟩ => show win0_1.index t (0 : Fin 2) * 1024 + 1 * p.val = n.val; omega
  | ⟨1, _⟩ => show win0_1.index t (1 : Fin 2) * 256 + 1 * k.val = k.val; omega

/-! ## The weight windows hold the whole weight arrays at every point -/

theorem whole2 (c : Dev nD) (t : Fin cfg0.N) : (iblk m c 2 t : Mat 192 256) = V m c main_v7 := by
  funext y
  show V m c main_v7 (((cfg0.win 2).blk t).view.emb y) = V m c main_v7 y
  refine congrArg _ ?_
  funext a; apply Fin.ext
  obtain ⟨-, -, -, -, e0, e1, -⟩ := idx_facts t
  match a with
  | ⟨0, _⟩ => show win0_2.index t (0 : Fin 2) * 192 + 1 * (y 0).val = (y 0).val; omega
  | ⟨1, _⟩ => show win0_2.index t (1 : Fin 2) * 256 + 1 * (y 1).val = (y 1).val; omega

theorem whole3 (c : Dev nD) (t : Fin cfg0.N) : (iblk m c 3 t : Vc 256) = V m c main_arg3 := by
  funext y
  show V m c main_arg3 (((cfg0.win 3).blk t).view.emb y) = V m c main_arg3 y
  refine congrArg _ ?_
  funext a; apply Fin.ext
  obtain ⟨-, -, -, -, -, -, e0, -⟩ := idx_facts t
  match a with
  | ⟨0, _⟩ => show win0_3.index t (0 : Fin 1) * 256 + 1 * (y 0).val = (y 0).val; omega

theorem whole4 (c : Dev nD) (t : Fin cfg0.N) : (iblk m c 4 t : Mat 256 768) = V m c main_v8 := by
  funext y
  show V m c main_v8 (((cfg0.win 4).blk t).view.emb y) = V m c main_v8 y
  refine congrArg _ ?_
  funext a; apply Fin.ext
  obtain ⟨-, -, -, -, -, -, -, e0, e1, -⟩ := idx_facts t
  match a with
  | ⟨0, _⟩ => show win0_4.index t (0 : Fin 2) * 256 + 1 * (y 0).val = (y 0).val; omega
  | ⟨1, _⟩ => show win0_4.index t (1 : Fin 2) * 768 + 1 * (y 1).val = (y 1).val; omega

theorem whole5 (c : Dev nD) (t : Fin cfg0.N) : (iblk m c 5 t : Vc 768) = V m c main_arg6 := by
  funext y
  show V m c main_arg6 (((cfg0.win 5).blk t).view.emb y) = V m c main_arg6 y
  refine congrArg _ ?_
  funext a; apply Fin.ext
  obtain ⟨-, -, -, -, -, -, -, -, -, e0, -⟩ := idx_facts t
  match a with
  | ⟨0, _⟩ => show win0_5.index t (0 : Fin 1) * 768 + 1 * (y 0).val = (y 0).val; omega

theorem whole6 (c : Dev nD) (t : Fin cfg0.N) : (iblk m c 6 t : Mat 256 768) = V m c main_v9 := by
  funext y
  show V m c main_v9 (((cfg0.win 6).blk t).view.emb y) = V m c main_v9 y
  refine congrArg _ ?_
  funext a; apply Fin.ext
  obtain ⟨-, -, -, -, -, -, -, -, -, -, e0, e1, -⟩ := idx_facts t
  match a with
  | ⟨0, _⟩ => show win0_6.index t (0 : Fin 2) * 256 + 1 * (y 0).val = (y 0).val; omega
  | ⟨1, _⟩ => show win0_6.index t (1 : Fin 2) * 768 + 1 * (y 1).val = (y 1).val; omega

theorem whole7 (c : Dev nD) (t : Fin cfg0.N) : (iblk m c 7 t : Vc 768) = V m c main_arg7 := by
  funext y
  show V m c main_arg7 (((cfg0.win 7).blk t).view.emb y) = V m c main_arg7 y
  refine congrArg _ ?_
  funext a; apply Fin.ext
  obtain ⟨-, -, -, -, -, -, -, -, -, -, -, -, e0, -⟩ := idx_facts t
  match a with
  | ⟨0, _⟩ => show win0_7.index t (0 : Fin 1) * 768 + 1 * (y 0).val = (y 0).val; omega

theorem whole8 (c : Dev nD) (t : Fin cfg0.N) : (iblk m c 8 t : Mat 256 256) = V m c main_v10 := by
  funext y
  show V m c main_v10 (((cfg0.win 8).blk t).view.emb y) = V m c main_v10 y
  refine congrArg _ ?_
  funext a; apply Fin.ext
  obtain ⟨-, -, -, -, -, -, -, -, -, -, -, -, -, e0, e1, -⟩ := idx_facts t
  match a with
  | ⟨0, _⟩ => show win0_8.index t (0 : Fin 2) * 256 + 1 * (y 0).val = (y 0).val; omega
  | ⟨1, _⟩ => show win0_8.index t (1 : Fin 2) * 256 + 1 * (y 1).val = (y 1).val; omega

theorem whole9 (c : Dev nD) (t : Fin cfg0.N) : (iblk m c 9 t : Vc 256) = V m c main_arg9 := by
  funext y
  show V m c main_arg9 (((cfg0.win 9).blk t).view.emb y) = V m c main_arg9 y
  refine congrArg _ ?_
  funext a; apply Fin.ext
  obtain ⟨-, -, -, -, -, -, -, -, -, -, -, -, -, -, -, e0, -⟩ := idx_facts t
  match a with
  | ⟨0, _⟩ => show win0_9.index t (0 : Fin 1) * 256 + 1 * (y 0).val = (y 0).val; omega

/-- So a point's weights are the weights. -/
theorem Wt_eq (c : Dev nD) (t : Fin cfg0.N) : Wt m c t = W m c := by
  unfold Wt W
  rw [whole2 m c t, whole3 m c t, whole4 m c t, whole5 m c t, whole6 m c t, whole7 m c t, whole8 m c t, whole9 m c t]

/-! ## What a point writes back is a block of the whole-array functions -/

/-- The index a block's entry `(p, q)` has in an array whose block rows are 1024 high. -/
theorem tile_lt (t : Fin cfg0.N) (p : Fin 1024) : t.val * 1024 + p.val < 245760 := by
  have := N_lt t; have := p.isLt; omega

theorem emb10 (t : Fin cfg0.N) (p : Fin 1024) (q : Fin 256) :
    ((cfg0.win 10).blk t).view.emb (ix2 p q) = (ix2 (⟨t.val * 1024 + p.val, tile_lt t p⟩ : Fin 245760) q : S245760x256.Idx) := by
  funext a; apply Fin.ext
  obtain ⟨-, -, -, -, -, -, -, -, -, -, -, -, -, -, -, -, e0, e1, -⟩ := idx_facts t
  match a with
  | ⟨0, _⟩ => show win0_10.index t (0 : Fin 2) * 1024 + 1 * p.val = t.val * 1024 + p.val; omega
  | ⟨1, _⟩ => show win0_10.index t (1 : Fin 2) * 256 + 1 * q.val = q.val; omega

theorem emb11 (t : Fin cfg0.N) (p : Fin 1024) (q : Fin 16) :
    ((cfg0.win 11).blk t).view.emb (ix2 p q) = (ix2 (⟨t.val * 1024 + p.val, tile_lt t p⟩ : Fin 245760) q : S245760x16.Idx) := by
  funext a; apply Fin.ext
  obtain ⟨-, -, -, -, -, -, -, -, -, -, -, -, -, -, -, -, -, -, e0, e1, -⟩ := idx_facts t
  match a with
  | ⟨0, _⟩ => show win0_11.index t (0 : Fin 2) * 1024 + 1 * p.val = t.val * 1024 + p.val; omega
  | ⟨1, _⟩ => show win0_11.index t (1 : Fin 2) * 16 + 1 * q.val = q.val; omega

theorem emb12 (t : Fin cfg0.N) (p : Fin 1024) (q : Fin 16) :
    ((cfg0.win 12).blk t).view.emb (ix2 p q) = (ix2 (⟨t.val * 1024 + p.val, tile_lt t p⟩ : Fin 245760) q : S245760x16.Idx) := by
  funext a; apply Fin.ext
  obtain ⟨-, -, -, -, -, -, -, -, -, -, -, -, -, -, -, -, -, -, -, -, e0, e1⟩ := idx_facts t
  match a with
  | ⟨0, _⟩ => show win0_12.index t (0 : Fin 2) * 1024 + 1 * p.val = t.val * 1024 + p.val; omega
  | ⟨1, _⟩ => show win0_12.index t (1 : Fin 2) * 16 + 1 * q.val = q.val; omega

/-- Point `t` writes back the new states of its rows. -/
theorem flushed10_eq (c : Dev nD) (t : Fin cfg0.N) :
    (dats m 0 c).flushed 10 t = ((cfg0.win 10).blk t).view.read (Elt Ideal) (newState (W m c) (X m c) (H m c)) := by
  show (cfg0.win 10).cut (grid0.coords t) ((dats m 0 c).after 10 t) = _
  rw [after0_10]
  unfold out0_10
  rw [View.canon_unit_zero hz2]
  simp only [View.ld_unit_zero (S := S1024x192) hz2, View.ld_unit_zero (S := S1024x256) hz2, View.ld_unit_zero (S := S192x256) hz2,
    View.ld_unit_zero (S := S256) hz1, View.ld_unit_zero (S := S256x768) hz2, View.ld_unit_zero (S := S768) hz1]
  funext j
  obtain ⟨p, q, rfl⟩ : ∃ (p : Fin 1024) (q : Fin 256), j = ix2 p q := ⟨j 0, j 1, eq_ix2 j⟩
  refine (congrFun (Pay.pay_state (iblk m c 0 t) (iblk m c 1 t) (iblk m c 2 t) (iblk m c 3 t) (iblk m c 4 t) (iblk m c 5 t)
    (iblk m c 6 t) (iblk m c 7 t) (iblk m c 8 t) (iblk m c 9 t)) (ix2 p q)).trans ?_
  show newState (Wt m c t) (iblk m c 0 t : Mat 1024 192) (iblk m c 1 t : Mat 1024 256) (ix2 p q)
    = newState (W m c) (X m c) (H m c) (((cfg0.win 10).blk t).view.emb (ix2 p q))
  rw [emb10 t p q, Wt_eq m c t]
  exact newState_rows (W m c) (X m c) (H m c) _ _ ⟨t.val * 1024 + p.val, tile_lt t p⟩ p
    (rows0 m c t p _ rfl) (rows1 m c t p _ rfl) q

/-- Point `t` writes back the grid-row maxima of its rows. -/
theorem flushed11_eq (c : Dev nD) (t : Fin cfg0.N) :
    (dats m 0 c).flushed 11 t = ((cfg0.win 11).blk t).view.read (Elt Ideal) (rowMax (W m c) (X m c) (H m c)) := by
  show (cfg0.win 11).cut (grid0.coords t) ((dats m 0 c).after 11 t) = _
  rw [after0_11]
  unfold out0_11
  rw [View.canon_unit_zero hz2]
  simp only [View.ld_unit_zero (S := S1024x192) hz2, View.ld_unit_zero (S := S1024x256) hz2, View.ld_unit_zero (S := S192x256) hz2,
    View.ld_unit_zero (S := S256) hz1, View.ld_unit_zero (S := S256x768) hz2, View.ld_unit_zero (S := S768) hz1,
    View.ld_unit_zero (S := S256x256) hz2]
  funext j
  obtain ⟨p, q, rfl⟩ : ∃ (p : Fin 1024) (q : Fin 16), j = ix2 p q := ⟨j 0, j 1, eq_ix2 j⟩
  refine (congrFun (Pay.pay_left (iblk m c 0 t) (iblk m c 1 t) (iblk m c 2 t) (iblk m c 3 t) (iblk m c 4 t) (iblk m c 5 t)
    (iblk m c 6 t) (iblk m c 7 t) (iblk m c 8 t) (iblk m c 9 t)) (ix2 p q)).trans ?_
  show rowMax (Wt m c t) (iblk m c 0 t : Mat 1024 192) (iblk m c 1 t : Mat 1024 256) (ix2 p q)
    = rowMax (W m c) (X m c) (H m c) (((cfg0.win 11).blk t).view.emb (ix2 p q))
  rw [emb11 t p q, Wt_eq m c t]
  exact rowMax_rows (W m c) (X m c) (H m c) _ _ ⟨t.val * 1024 + p.val, tile_lt t p⟩ p
    (rows0 m c t p _ rfl) (rows1 m c t p _ rfl) q

/-- Point `t` writes back the grid-column maxima of its rows. -/
theorem flushed12_eq (c : Dev nD) (t : Fin cfg0.N) :
    (dats m 0 c).flushed 12 t = ((cfg0.win 12).blk t).view.read (Elt Ideal) (colMax (W m c) (X m c) (H m c)) := by
  show (cfg0.win 12).cut (grid0.coords t) ((dats m 0 c).after 12 t) = _
  rw [after0_12]
  unfold out0_12
  rw [View.canon_unit_zero hz2]
  simp only [View.ld_unit_zero (S := S1024x192) hz2, View.ld_unit_zero (S := S1024x256) hz2, View.ld_unit_zero (S := S192x256) hz2,
    View.ld_unit_zero (S := S256) hz1, View.ld_unit_zero (S := S256x768) hz2, View.ld_unit_zero (S := S768) hz1,
    View.ld_unit_zero (S := S256x256) hz2]
  funext j
  obtain ⟨p, q, rfl⟩ : ∃ (p : Fin 1024) (q : Fin 16), j = ix2 p q := ⟨j 0, j 1, eq_ix2 j⟩
  refine (congrFun (Pay.pay_right (iblk m c 0 t) (iblk m c 1 t) (iblk m c 2 t) (iblk m c 3 t) (iblk m c 4 t) (iblk m c 5 t)
    (iblk m c 6 t) (iblk m c 7 t) (iblk m c 8 t) (iblk m c 9 t)) (ix2 p q)).trans ?_
  show colMax (Wt m c t) (iblk m c 0 t : Mat 1024 192) (iblk m c 1 t : Mat 1024 256) (ix2 p q)
    = colMax (W m c) (X m c) (H m c) (((cfg0.win 12).blk t).view.emb (ix2 p q))
  rw [emb12 t p q, Wt_eq m c t]
  exact colMax_rows (W m c) (X m c) (H m c) _ _ ⟨t.val * 1024 + p.val, tile_lt t p⟩ p
    (rows0 m c t p _ rfl) (rows1 m c t p _ rfl) q

/-! ## The blocks cover the arrays -/

theorem mem_blk10 (t : Fin cfg0.N) (i : S245760x256.Idx) :
    i ∈ ((cfg0.win 10).blk t).view.set ↔ ∀ a : Fin 2, win0_10.index t a * S1024x256.size a ≤ (i a).val ∧ (i a).val < win0_10.index t a * S1024x256.size a + S1024x256.size a := by
  show i ∈ ((View.whole main_v11_0).slice (win0_10.rect t)).set ↔ _
  rw [View.set_slice_whole, Rect.mem_set_unit]
  exact Iff.rfl
theorem mem_blk11 (t : Fin cfg0.N) (i : S245760x16.Idx) :
    i ∈ ((cfg0.win 11).blk t).view.set ↔ ∀ a : Fin 2, win0_11.index t a * S1024x16.size a ≤ (i a).val ∧ (i a).val < win0_11.index t a * S1024x16.size a + S1024x16.size a := by
  show i ∈ ((View.whole main_v11_1).slice (win0_11.rect t)).set ↔ _
  rw [View.set_slice_whole, Rect.mem_set_unit]
  exact Iff.rfl
theorem mem_blk12 (t : Fin cfg0.N) (i : S245760x16.Idx) :
    i ∈ ((cfg0.win 12).blk t).view.set ↔ ∀ a : Fin 2, win0_12.index t a * S1024x16.size a ≤ (i a).val ∧ (i a).val < win0_12.index t a * S1024x16.size a + S1024x16.size a := by
  show i ∈ ((View.whole main_v11_2).slice (win0_12.rect t)).set ↔ _
  rw [View.set_slice_whole, Rect.mem_set_unit]
  exact Iff.rfl

/-- The point that covers row `r`. -/
def pointOf (r : Nat) (hr : r < 245760) : Fin cfg0.N := ⟨r / 1024, Nat.lt_of_lt_of_eq (by omega) N_0.symm⟩

/-- Row `r` lies in the block of point `r / 1024`. -/
theorem cover10 (i : S245760x256.Idx) : ∃ t : Fin cfg0.N, (cfg0.win 10).flush t = true ∧ i ∈ ((cfg0.win 10).blk t).view.set := by
  have h0 : (i 0).val < 245760 := (i 0).isLt
  have h1 : (i 1).val < 256 := (i 1).isLt
  refine ⟨pointOf (i 0).val h0, flush0_10 _, ?_⟩
  rw [mem_blk10]
  obtain ⟨-, -, -, -, -, -, -, -, -, -, -, -, -, -, -, -, e0, e1, -⟩ := idx_facts (pointOf (i 0).val h0)
  have ev : (pointOf (i 0).val h0).val = (i 0).val / 1024 := rfl
  intro a
  match a with
  | ⟨0, _⟩ => show win0_10.index _ (0 : Fin 2) * 1024 ≤ (i 0).val ∧ (i 0).val < win0_10.index _ (0 : Fin 2) * 1024 + 1024; omega
  | ⟨1, _⟩ => show win0_10.index _ (1 : Fin 2) * 256 ≤ (i 1).val ∧ (i 1).val < win0_10.index _ (1 : Fin 2) * 256 + 256; omega

theorem cover11 (i : S245760x16.Idx) : ∃ t : Fin cfg0.N, (cfg0.win 11).flush t = true ∧ i ∈ ((cfg0.win 11).blk t).view.set := by
  have h0 : (i 0).val < 245760 := (i 0).isLt
  have h1 : (i 1).val < 16 := (i 1).isLt
  refine ⟨pointOf (i 0).val h0, flush0_11 _, ?_⟩
  rw [mem_blk11]
  obtain ⟨-, -, -, -, -, -, -, -, -, -, -, -, -, -, -, -, -, -, e0, e1, -⟩ := idx_facts (pointOf (i 0).val h0)
  have ev : (pointOf (i 0).val h0).val = (i 0).val / 1024 := rfl
  intro a
  match a with
  | ⟨0, _⟩ => show win0_11.index _ (0 : Fin 2) * 1024 ≤ (i 0).val ∧ (i 0).val < win0_11.index _ (0 : Fin 2) * 1024 + 1024; omega
  | ⟨1, _⟩ => show win0_11.index _ (1 : Fin 2) * 16 ≤ (i 1).val ∧ (i 1).val < win0_11.index _ (1 : Fin 2) * 16 + 16; omega

theorem cover12 (i : S245760x16.Idx) : ∃ t : Fin cfg0.N, (cfg0.win 12).flush t = true ∧ i ∈ ((cfg0.win 12).blk t).view.set := by
  have h0 : (i 0).val < 245760 := (i 0).isLt
  have h1 : (i 1).val < 16 := (i 1).isLt
  refine ⟨pointOf (i 0).val h0, flush0_12 _, ?_⟩
  rw [mem_blk12]
  obtain ⟨-, -, -, -, -, -, -, -, -, -, -, -, -, -, -, -, -, -, -, -, e0, e1⟩ := idx_facts (pointOf (i 0).val h0)
  have ev : (pointOf (i 0).val h0).val = (i 0).val / 1024 := rfl
  intro a
  match a with
  | ⟨0, _⟩ => show win0_12.index _ (0 : Fin 2) * 1024 ≤ (i 0).val ∧ (i 0).val < win0_12.index _ (0 : Fin 2) * 1024 + 1024; omega
  | ⟨1, _⟩ => show win0_12.index _ (1 : Fin 2) * 16 ≤ (i 1).val ∧ (i 1).val < win0_12.index _ (1 : Fin 2) * 16 + 16; omega

/-! ## The three arrays after the region -/

theorem final10 (c : Dev nD) : (dats m 0 c).arrAt 10 cfg0.N = newState (W m c) (X m c) (H m c) :=
  (dats m 0 c).arrAt_eq_of_cover 10 _ (fun t _ => flushed10_eq m c t) cover10
theorem final11 (c : Dev nD) : (dats m 0 c).arrAt 11 cfg0.N = rowMax (W m c) (X m c) (H m c) :=
  (dats m 0 c).arrAt_eq_of_cover 11 _ (fun t _ => flushed11_eq m c t) cover11
theorem final12 (c : Dev nD) : (dats m 0 c).arrAt 12 cfg0.N = colMax (W m c) (X m c) (H m c) :=
  (dats m 0 c).arrAt_eq_of_cover 12 _ (fun t _ => flushed12_eq m c t) cover12

/-! ## The region's inputs in terms of the program's arguments -/

/-- The weights as the program's arguments give them. -/
def Wm (c : Dev nD) : Weights :=
  ⟨m ((c : Thread nD τ).loc main_arg2), m ((c : Thread nD τ).loc main_arg3), m ((c : Thread nD τ).loc main_arg4), m ((c : Thread nD τ).loc main_arg6),
   m ((c : Thread nD τ).loc main_arg5), m ((c : Thread nD τ).loc main_arg7), m ((c : Thread nD τ).loc main_arg8), m ((c : Thread nD τ).loc main_arg9)⟩

theorem X_eq (c : Dev nD) : X m c = (Host.pairs (m ((c : Thread nD τ).loc main_arg0)) : Mat 245760 192) := by
  show StableHlo.after (List.flatten [hostOps0]) (fun b => m (c, b)) (Proc.devRef .tc main_v6) = _
  simp only [List.flatten_cons, List.flatten_nil, List.append_nil]
  rw [Host.pre_v6]; rfl

theorem v7_eq (c : Dev nD) : (V m c main_v7 : Mat 192 256) = m ((c : Thread nD τ).loc main_arg2) := by
  show StableHlo.after (List.flatten [hostOps0]) (fun b => m (c, b)) (Proc.devRef .tc main_v7) = _
  simp only [List.flatten_cons, List.flatten_nil, List.append_nil]
  rw [Host.pre_v7]; rfl
theorem v8_eq (c : Dev nD) : (V m c main_v8 : Mat 256 768) = m ((c : Thread nD τ).loc main_arg4) := by
  show StableHlo.after (List.flatten [hostOps0]) (fun b => m (c, b)) (Proc.devRef .tc main_v8) = _
  simp only [List.flatten_cons, List.flatten_nil, List.append_nil]
  rw [Host.pre_v8]; rfl
theorem v9_eq (c : Dev nD) : (V m c main_v9 : Mat 256 768) = m ((c : Thread nD τ).loc main_arg5) := by
  show StableHlo.after (List.flatten [hostOps0]) (fun b => m (c, b)) (Proc.devRef .tc main_v9) = _
  simp only [List.flatten_cons, List.flatten_nil, List.append_nil]
  rw [Host.pre_v9]; rfl
theorem v10_eq (c : Dev nD) : (V m c main_v10 : Mat 256 256) = m ((c : Thread nD τ).loc main_arg8) := by
  show StableHlo.after (List.flatten [hostOps0]) (fun b => m (c, b)) (Proc.devRef .tc main_v10) = _
  simp only [List.flatten_cons, List.flatten_nil, List.append_nil]
  rw [Host.pre_v10]; rfl

theorem W_eq (c : Dev nD) : W m c = Wm m c := by
  unfold W Wm
  rw [v7_eq, v8_eq, v9_eq, v10_eq, V_main_arg3, V_main_arg6, V_main_arg7, V_main_arg9]

theorem H_eq (c : Dev nD) : H m c = m ((c : Thread nD τ).loc main_arg1) := V_main_arg1 m c

/-! ## The decoded output -/

theorem tail_eq (c : Dev nD) :
    Pipeline.afterTail₀ cfgs (dats m) 0 (V0 m) [hostOps1, hostOps1_1, hostOps1_2] c main_v30
      = Host.decode (rowMax (W m c) (X m c) (H m c)) (colMax (W m c) (X m c) (H m c)) := by
  unfold Pipeline.afterTail₀
  rw [Host.post_v30]
  have e11 := Pipeline.withArrays_arr spec0 launch0.win.arr_inj c (V0 m c) (fun w => (dats m 0 c).arrAt w cfg0.N) 11
  have e12 := Pipeline.withArrays_arr spec0 launch0.win.arr_inj c (V0 m c) (fun w => (dats m 0 c).arrAt w cfg0.N) 12
  exact congrArg₂ Host.decode (e11.trans (final11 m c)) (e12.trans (final12 m c))

/-! ## The run, read -/

/-- Every weakly fair execution of the idealized kernel program terminates with the decoded output and the new states
    at the row-wise step's functions of the arguments, the arguments unchanged. -/
theorem run : θ_run defs (onTc (τ := τ) (main (F := Ideal))) ⟨m, fun _ => 0, ρ⟩ fun r => ∀ c : Dev nD,
      r.2.mem ((c.tc : Thread nD τ).loc main_v30)
        = Host.decode (rowMax (Wm m c) (Host.pairs (m ((c : Thread nD τ).loc main_arg0)) : Mat 245760 192) (m ((c : Thread nD τ).loc main_arg1)))
            (colMax (Wm m c) (Host.pairs (m ((c : Thread nD τ).loc main_arg0)) : Mat 245760 192) (m ((c : Thread nD τ).loc main_arg1)))
      ∧ r.2.mem ((c.tc : Thread nD τ).loc main_v11_0)
        = newState (Wm m c) (Host.pairs (m ((c : Thread nD τ).loc main_arg0)) : Mat 245760 192) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨(((h c).2 main_v30 (Pipeline.mem_restRefs_of main_v30 (by decide) (by decide))).trans (tail_eq m c)).trans
        (by rw [W_eq, X_eq, H_eq]),
     (((h c).1 10).trans (final10 m c)).trans (by rw [W_eq, X_eq, H_eq]),
     kept_main_arg0 m r h c, kept_main_arg1 m r h c, kept_main_arg2 m r h c, kept_main_arg3 m r h c, kept_main_arg4 m r h c,
     kept_main_arg5 m r h c, kept_main_arg6 m r h c, kept_main_arg7 m r h c, kept_main_arg8 m r h c, kept_main_arg9 m r h c⟩)
    (run_main m ρ)

end Cert.KernelIdeal.Val

end
-- ==== Proof.RefValue.lean ====
import proofs.«156184_j52063593562852_1_alg».proof.Proof.RefRead
import proofs.«156184_j52063593562852_1_alg».proof.Proof.Spec
import Idealize.ShloMosaic.Lib.ValueIdx
import Idealize.ShloMosaic.PureOps.Ideal.Laws

/-!
# The reference program, read as the row-by-row step

The reference program is a chain of whole-array operations on a batch of 245760 rows. Read at one index of a
result, each operation is one step of the row-by-row description of `Cert.GruSpec`:

* the first matrix product, its bias and the rectification give `act` of the row of paired features;
* the two gate products and their biases give `gi` of that row and `gh` of the state's row;
* the six column slices are the three thirds of each;
* `1 / (1 + exp (-(a + b)))` is the logistic function, which gives the reset and the update gate, and the
  hyperbolic tangent gives the candidate;
* `(1 - z) · n + z · h` is the new state (`ref_state`);
* the head's product and bias give `headRow`; reading its 256 columns as a 16 × 16 grid, the maximum over the
  last grid axis is `leftRow` and over the middle one `rightRow` (`ref_left`, `ref_right`).

What the program does with the two arrays of maxima afterwards (it decodes them into its first result) is kept as
one function `tail` of the two arrays, at every float instance, and is never opened (`ref_tail`).
-/

noncomputable section

open scoped BigOperators

namespace Cert.ReferenceIdeal.RefValue

open Idealize.ShloMosaic Idealize.ShloMosaic.ValueIdx Cert.ReferenceIdeal Cert.ReferenceIdeal.Gen Cert.ReferenceIdeal.ReadP Cert.GruSpec

/-! ## The indices the operations read at, by coordinates -/

/-- The first product reads row `n` of its left operand at column `k` … -/
theorem lidx6 (n : Fin 245760) (j : Fin 256) (k : Fin 192) : lidx_main_v6 (ix2 n j) k = ix2 n k :=
  funext fun a => Fin.ext (by match a with | ⟨0, _⟩ => rfl | ⟨1, _⟩ => rfl)
/-- … and row `k` of its right operand at column `j`. -/
theorem ridx6 (n : Fin 245760) (j : Fin 256) (k : Fin 192) : ridx_main_v6 (ix2 n j) k = ix2 k j :=
  funext fun a => Fin.ext (by match a with | ⟨0, _⟩ => rfl | ⟨1, _⟩ => rfl)
/-- A bias broadcast down the rows reads its entry `j`. -/
theorem idx7 (n : Fin 245760) (j : Fin 256) : idx_main_v7 (idx_main_v8 (ix2 n j)) = ix1 j :=
  funext fun a => Fin.ext (by match a with | ⟨0, _⟩ => rfl)

theorem lidx11 (n : Fin 245760) (j : Fin 768) (k : Fin 256) : lidx_main_v11 (ix2 n j) k = ix2 n k :=
  funext fun a => Fin.ext (by match a with | ⟨0, _⟩ => rfl | ⟨1, _⟩ => rfl)
theorem ridx11 (n : Fin 245760) (j : Fin 768) (k : Fin 256) : ridx_main_v11 (ix2 n j) k = ix2 k j :=
  funext fun a => Fin.ext (by match a with | ⟨0, _⟩ => rfl | ⟨1, _⟩ => rfl)
theorem idx12 (n : Fin 245760) (j : Fin 768) : idx_main_v12 (idx_main_v13 (ix2 n j)) = ix1 j :=
  funext fun a => Fin.ext (by match a with | ⟨0, _⟩ => rfl)

theorem lidx15 (n : Fin 245760) (j : Fin 768) (k : Fin 256) : lidx_main_v15 (ix2 n j) k = ix2 n k :=
  funext fun a => Fin.ext (by match a with | ⟨0, _⟩ => rfl | ⟨1, _⟩ => rfl)
theorem ridx15 (n : Fin 245760) (j : Fin 768) (k : Fin 256) : ridx_main_v15 (ix2 n j) k = ix2 k j :=
  funext fun a => Fin.ext (by match a with | ⟨0, _⟩ => rfl | ⟨1, _⟩ => rfl)
theorem idx16 (n : Fin 245760) (j : Fin 768) : idx_main_v16 (idx_main_v17 (ix2 n j)) = ix1 j :=
  funext fun a => Fin.ext (by match a with | ⟨0, _⟩ => rfl)

theorem lidx47 (n : Fin 245760) (j : Fin 256) (k : Fin 256) : lidx_main_v47 (ix2 n j) k = ix2 n k :=
  funext fun a => Fin.ext (by match a with | ⟨0, _⟩ => rfl | ⟨1, _⟩ => rfl)
theorem ridx47 (n : Fin 245760) (j : Fin 256) (k : Fin 256) : ridx_main_v47 (ix2 n j) k = ix2 k j :=
  funext fun a => Fin.ext (by match a with | ⟨0, _⟩ => rfl | ⟨1, _⟩ => rfl)
theorem idx48 (n : Fin 245760) (j : Fin 256) : idx_main_v48 (idx_main_v49 (ix2 n j)) = ix1 j :=
  funext fun a => Fin.ext (by match a with | ⟨0, _⟩ => rfl)

/-- The column slice at offset 0 reads the first third … -/
theorem idx19 (n : Fin 245760) (q : Fin 256) : idx_main_v19 (ix2 n q) = ix2 n (third 0 (by omega) q) :=
  funext fun a => Fin.ext (by
    match a with
    | ⟨0, _⟩ => rfl
    | ⟨1, _⟩ => show q.val = 0 + q.val; omega)
/-- … at offset 256 the second … -/
theorem idx20 (n : Fin 245760) (q : Fin 256) : idx_main_v20 (ix2 n q) = ix2 n (third 256 (by omega) q) :=
  funext fun a => Fin.ext (by match a with | ⟨0, _⟩ => rfl | ⟨1, _⟩ => rfl)
/-- … and at offset 512 the last. -/
theorem idx21 (n : Fin 245760) (q : Fin 256) : idx_main_v21 (ix2 n q) = ix2 n (third 512 (by omega) q) :=
  funext fun a => Fin.ext (by match a with | ⟨0, _⟩ => rfl | ⟨1, _⟩ => rfl)
theorem idx22 (n : Fin 245760) (q : Fin 256) : idx_main_v22 (ix2 n q) = ix2 n (third 0 (by omega) q) :=
  funext fun a => Fin.ext (by
    match a with
    | ⟨0, _⟩ => rfl
    | ⟨1, _⟩ => show q.val = 0 + q.val; omega)
theorem idx23 (n : Fin 245760) (q : Fin 256) : idx_main_v23 (ix2 n q) = ix2 n (third 256 (by omega) q) :=
  funext fun a => Fin.ext (by match a with | ⟨0, _⟩ => rfl | ⟨1, _⟩ => rfl)
theorem idx24 (n : Fin 245760) (q : Fin 256) : idx_main_v24 (ix2 n q) = ix2 n (third 512 (by omega) q) :=
  funext fun a => Fin.ext (by match a with | ⟨0, _⟩ => rfl | ⟨1, _⟩ => rfl)

/-- Entry `(a, b)` of row `n`'s 16 × 16 grid is column `16 a + b` of row `n`. -/
theorem idx51 (n : Fin 245760) (a b : Fin 16) : idx_main_v51 (ix3 n a b) = ix2 n (cell a b) :=
  funext fun c => Fin.ext (by
    have ha := a.isLt
    have hb := b.isLt
    match c with
    | ⟨0, _⟩ => show ((n.val * 16 + a.val) * 16 + b.val) / 256 = n.val; omega
    | ⟨1, _⟩ => show ((n.val * 16 + a.val) * 16 + b.val) % 256 = a.val * 16 + b.val; omega)

/-! ## One row of the step -/

section Step

variable (x0 : (⟨S16384x16x96, .f32⟩ : BufTy).Contents (Elt Ideal))
  (x1 : (⟨S245760x256, .f32⟩ : BufTy).Contents (Elt Ideal))
  (x2 : (⟨S192x256, .f32⟩ : BufTy).Contents (Elt Ideal))
  (x3 : (⟨S256, .f32⟩ : BufTy).Contents (Elt Ideal))
  (x4 x5 : (⟨S256x768, .f32⟩ : BufTy).Contents (Elt Ideal))
  (x6 x7 : (⟨S768, .f32⟩ : BufTy).Contents (Elt Ideal))
  (w2 : Mat 256 256) (b2 : Vc 256)
include x0 x1 x2 x3 x4 x5 x6 x7 w2 b2

/-- The rectified first layer: product with `w1`, bias, maximum with the word of `0.0`. -/
theorem ref_act (n : Fin 245760) (j : Fin 256) :
    val_main_v10 (F := Ideal) x0 x2 x3 (ix2 n j)
      = act ⟨x2, x3, x4, x6, x5, x7, w2, b2⟩ (rowOf (val_main_v5 (F := Ideal) x0) n) j := by
  rw [val_main_v10_apply, val_main_v9_apply, val_main_v6_apply, val_main_v8_apply, val_main_v7_apply,
    val_main_call0_v0_apply, val_main_call0_cst_apply]
  simp only [lidx6, ridx6, idx7]
  rfl

/-- The input gates: product of the rectified layer with `w_ih`, and its bias. -/
theorem ref_gi (n : Fin 245760) (j : Fin 768) :
    val_main_v14 (F := Ideal) x0 x2 x3 x4 x6 (ix2 n j)
      = gi ⟨x2, x3, x4, x6, x5, x7, w2, b2⟩ (rowOf (val_main_v5 (F := Ideal) x0) n) j := by
  rw [val_main_v14_apply, val_main_v11_apply, val_main_v13_apply, val_main_v12_apply]
  simp only [lidx11, ridx11, idx12, ref_act x0 x1 x2 x3 x4 x5 x6 x7 w2 b2]
  rfl

/-- The state gates: product of the state's row with `w_hh`, and its bias. -/
theorem ref_gh (n : Fin 245760) (j : Fin 768) :
    val_main_v18 (F := Ideal) x1 x5 x7 (ix2 n j) = gh ⟨x2, x3, x4, x6, x5, x7, w2, b2⟩ (rowOf x1 n) j := by
  rw [val_main_v18_apply, val_main_v15_apply, val_main_v17_apply, val_main_v16_apply]
  simp only [lidx15, ridx15, idx16]
  rfl

/-- The three thirds of the input gates … -/
theorem ref_i_r (n : Fin 245760) (q : Fin 256) :
    val_main_v19 (F := Ideal) x0 x2 x3 x4 x6 (ix2 n q)
      = gi ⟨x2, x3, x4, x6, x5, x7, w2, b2⟩ (rowOf (val_main_v5 (F := Ideal) x0) n) (third 0 (by omega) q) := by
  rw [val_main_v19_apply, idx19, ref_gi x0 x1 x2 x3 x4 x5 x6 x7 w2 b2]
theorem ref_i_z (n : Fin 245760) (q : Fin 256) :
    val_main_v20 (F := Ideal) x0 x2 x3 x4 x6 (ix2 n q)
      = gi ⟨x2, x3, x4, x6, x5, x7, w2, b2⟩ (rowOf (val_main_v5 (F := Ideal) x0) n) (third 256 (by omega) q) := by
  rw [val_main_v20_apply, idx20, ref_gi x0 x1 x2 x3 x4 x5 x6 x7 w2 b2]
theorem ref_i_n (n : Fin 245760) (q : Fin 256) :
    val_main_v21 (F := Ideal) x0 x2 x3 x4 x6 (ix2 n q)
      = gi ⟨x2, x3, x4, x6, x5, x7, w2, b2⟩ (rowOf (val_main_v5 (F := Ideal) x0) n) (third 512 (by omega) q) := by
  rw [val_main_v21_apply, idx21, ref_gi x0 x1 x2 x3 x4 x5 x6 x7 w2 b2]

/-- … and of the state gates. -/
theorem ref_h_r (n : Fin 245760) (q : Fin 256) :
    val_main_v22 (F := Ideal) x1 x5 x7 (ix2 n q)
      = gh ⟨x2, x3, x4, x6, x5, x7, w2, b2⟩ (rowOf x1 n) (third 0 (by omega) q) := by
  rw [val_main_v22_apply, idx22, ref_gh x0 x1 x2 x3 x4 x5 x6 x7 w2 b2]
theorem ref_h_z (n : Fin 245760) (q : Fin 256) :
    val_main_v23 (F := Ideal) x1 x5 x7 (ix2 n q)
      = gh ⟨x2, x3, x4, x6, x5, x7, w2, b2⟩ (rowOf x1 n) (third 256 (by omega) q) := by
  rw [val_main_v23_apply, idx23, ref_gh x0 x1 x2 x3 x4 x5 x6 x7 w2 b2]
theorem ref_h_n (n : Fin 245760) (q : Fin 256) :
    val_main_v24 (F := Ideal) x1 x5 x7 (ix2 n q)
      = gh ⟨x2, x3, x4, x6, x5, x7, w2, b2⟩ (rowOf x1 n) (third 512 (by omega) q) := by
  rw [val_main_v24_apply, idx24, ref_gh x0 x1 x2 x3 x4 x5 x6 x7 w2 b2]

/-- The reset gate: `1 / (1 + exp (-(i_r + h_r)))` is the logistic function of `i_r + h_r`. -/
theorem ref_r (n : Fin 245760) (q : Fin 256) :
    val_main_v31 (F := Ideal) x0 x1 x2 x3 x4 x5 x6 x7 (ix2 n q)
      = rGate ⟨x2, x3, x4, x6, x5, x7, w2, b2⟩ (rowOf (val_main_v5 (F := Ideal) x0) n) (rowOf x1 n) q := by
  rw [val_main_v31_apply, val_main_v30_apply, val_main_cst_0_apply, val_main_v29_apply, val_main_v28_apply,
    val_main_cst_apply, val_main_v27_apply, val_main_v26_apply, val_main_v25_apply,
    ref_i_r x0 x1 x2 x3 x4 x5 x6 x7 w2 b2, ref_h_r x0 x1 x2 x3 x4 x5 x6 x7 w2 b2]
  exact logistic_spelt _

/-- The update gate, likewise of `i_z + h_z`. -/
theorem ref_z (n : Fin 245760) (q : Fin 256) :
    val_main_v38 (F := Ideal) x0 x1 x2 x3 x4 x5 x6 x7 (ix2 n q)
      = zGate ⟨x2, x3, x4, x6, x5, x7, w2, b2⟩ (rowOf (val_main_v5 (F := Ideal) x0) n) (rowOf x1 n) q := by
  rw [val_main_v38_apply, val_main_v37_apply, val_main_cst_2_apply, val_main_v36_apply, val_main_v35_apply,
    val_main_cst_1_apply, val_main_v34_apply, val_main_v33_apply, val_main_v32_apply,
    ref_i_z x0 x1 x2 x3 x4 x5 x6 x7 w2 b2, ref_h_z x0 x1 x2 x3 x4 x5 x6 x7 w2 b2]
  exact logistic_spelt _

/-- The candidate state: the hyperbolic tangent of `i_n + r · h_n`. -/
theorem ref_n (n : Fin 245760) (q : Fin 256) :
    val_main_v41 (F := Ideal) x0 x1 x2 x3 x4 x5 x6 x7 (ix2 n q)
      = nGate ⟨x2, x3, x4, x6, x5, x7, w2, b2⟩ (rowOf (val_main_v5 (F := Ideal) x0) n) (rowOf x1 n) q := by
  rw [val_main_v41_apply, val_main_v40_apply, val_main_v39_apply, ref_r x0 x1 x2 x3 x4 x5 x6 x7 w2 b2,
    ref_i_n x0 x1 x2 x3 x4 x5 x6 x7 w2 b2, ref_h_n x0 x1 x2 x3 x4 x5 x6 x7 w2 b2]
  rfl

/-- The new state at row `n`, entry `q`: `(1 - z) · n + z · h`. -/
theorem ref_state_at (n : Fin 245760) (q : Fin 256) :
    val_main_v46 (F := Ideal) x0 x1 x2 x3 x4 x5 x6 x7 (ix2 n q)
      = stateRow ⟨x2, x3, x4, x6, x5, x7, w2, b2⟩ (rowOf (val_main_v5 (F := Ideal) x0) n) (rowOf x1 n) q := by
  rw [val_main_v46_apply, val_main_v44_apply, val_main_v43_apply, val_main_v42_apply, val_main_cst_3_apply,
    val_main_v45_apply, ref_z x0 x1 x2 x3 x4 x5 x6 x7 w2 b2, ref_n x0 x1 x2 x3 x4 x5 x6 x7 w2 b2]
  rfl

end Step

/-- RESULT 1 of the reference program is the new state of every row. The head's weights do not enter it. -/
theorem ref_state (x0 : (⟨S16384x16x96, .f32⟩ : BufTy).Contents (Elt Ideal))
    (x1 : (⟨S245760x256, .f32⟩ : BufTy).Contents (Elt Ideal))
    (x2 : (⟨S192x256, .f32⟩ : BufTy).Contents (Elt Ideal))
    (x3 : (⟨S256, .f32⟩ : BufTy).Contents (Elt Ideal))
    (x4 x5 : (⟨S256x768, .f32⟩ : BufTy).Contents (Elt Ideal))
    (x6 x7 : (⟨S768, .f32⟩ : BufTy).Contents (Elt Ideal))
    (w2 : Mat 256 256) (b2 : Vc 256) :
    val_main_v46 (F := Ideal) x0 x1 x2 x3 x4 x5 x6 x7
      = newState ⟨x2, x3, x4, x6, x5, x7, w2, b2⟩ (val_main_v5 (F := Ideal) x0) x1 := by
  funext i
  obtain ⟨n, q, rfl⟩ : ∃ (n : Fin 245760) (q : Fin 256), i = ix2 n q := ⟨i 0, i 1, eq_ix2 i⟩
  rw [newState_apply]
  exact ref_state_at x0 x1 x2 x3 x4 x5 x6 x7 w2 b2 n q

/-! ## The head of a row and the maxima of its grid -/

section Head

variable (x0 : (⟨S16384x16x96, .f32⟩ : BufTy).Contents (Elt Ideal))
  (x1 : (⟨S245760x256, .f32⟩ : BufTy).Contents (Elt Ideal))
  (x2 : (⟨S192x256, .f32⟩ : BufTy).Contents (Elt Ideal))
  (x3 : (⟨S256, .f32⟩ : BufTy).Contents (Elt Ideal))
  (x4 x5 : (⟨S256x768, .f32⟩ : BufTy).Contents (Elt Ideal))
  (x6 x7 : (⟨S768, .f32⟩ : BufTy).Contents (Elt Ideal))
  (x8 : (⟨S256x256, .f32⟩ : BufTy).Contents (Elt Ideal))
  (x9 : (⟨S256, .f32⟩ : BufTy).Contents (Elt Ideal))
include x0 x1 x2 x3 x4 x5 x6 x7 x8 x9

/-- The head: product of the new state with `w2`, and its bias. -/
theorem ref_head (n : Fin 245760) (j : Fin 256) :
    val_main_v50 (F := Ideal) x0 x1 x2 x3 x4 x5 x6 x7 x8 x9 (ix2 n j)
      = headRow ⟨x2, x3, x4, x6, x5, x7, x8, x9⟩ (rowOf (val_main_v5 (F := Ideal) x0) n) (rowOf x1 n) j := by
  rw [val_main_v50_apply, val_main_v47_apply, val_main_v49_apply, val_main_v48_apply]
  simp only [lidx47, ridx47, idx48, ref_state_at x0 x1 x2 x3 x4 x5 x6 x7 x8 x9]
  rfl

/-- The head read as a 16 × 16 grid. -/
theorem ref_grid (n : Fin 245760) (a b : Fin 16) :
    val_main_v51 (F := Ideal) x0 x1 x2 x3 x4 x5 x6 x7 x8 x9 (ix3 n a b)
      = headRow ⟨x2, x3, x4, x6, x5, x7, x8, x9⟩ (rowOf (val_main_v5 (F := Ideal) x0) n) (rowOf x1 n) (cell a b) := by
  rw [val_main_v51_apply, idx51, ref_head x0 x1 x2 x3 x4 x5 x6 x7 x8 x9]

end Head

/-- Grid entry `(n, a)` of the maxima over the last axis, with `b` put back on that axis, is `(n, a, b)`. -/
theorem lift_last (h : S245760x16x16.Reduces [2] S245760x16) (n : Fin 245760) (a b : Fin 16) :
    h.lift (ix2 n a) b = ix3 n a b :=
  funext fun c => Fin.ext (by match c with | ⟨0, _⟩ => rfl | ⟨1, _⟩ => rfl | ⟨2, _⟩ => rfl)

/-- Grid entry `(n, b)` of the maxima over the middle axis, with `a` put back on that axis, is `(n, a, b)`. -/
theorem lift_mid (h : S245760x16x16.Reduces [1] S245760x16) (n : Fin 245760) (a b : Fin 16) :
    h.lift (ix2 n b) a = ix3 n a b :=
  funext fun c => Fin.ext (by match c with | ⟨0, _⟩ => rfl | ⟨1, _⟩ => rfl | ⟨2, _⟩ => rfl)

/-- The maxima over the grid's last axis, from `-∞`, are the row maxima of every row's grid. -/
theorem ref_left (x0 : (⟨S16384x16x96, .f32⟩ : BufTy).Contents (Elt Ideal))
    (x1 : (⟨S245760x256, .f32⟩ : BufTy).Contents (Elt Ideal))
    (x2 : (⟨S192x256, .f32⟩ : BufTy).Contents (Elt Ideal))
    (x3 : (⟨S256, .f32⟩ : BufTy).Contents (Elt Ideal))
    (x4 x5 : (⟨S256x768, .f32⟩ : BufTy).Contents (Elt Ideal))
    (x6 x7 : (⟨S768, .f32⟩ : BufTy).Contents (Elt Ideal))
    (x8 : (⟨S256x256, .f32⟩ : BufTy).Contents (Elt Ideal))
    (x9 : (⟨S256, .f32⟩ : BufTy).Contents (Elt Ideal)) :
    val_main_v52 (F := Ideal) x0 x1 x2 x3 x4 x5 x6 x7 x8 x9
      = rowMax ⟨x2, x3, x4, x6, x5, x7, x8, x9⟩ (val_main_v5 (F := Ideal) x0) x1 := by
  funext i
  obtain ⟨n, a, rfl⟩ : ∃ (n : Fin 245760) (a : Fin 16), i = ix2 n a := ⟨i 0, i 1, eq_ix2 i⟩
  rw [rowMax_apply]
  have h : S245760x16x16.Reduces [2] S245760x16 := by decide
  have hf : (val_main_v51 (F := Ideal) x0 x1 x2 x3 x4 x5 x6 x7 x8 x9 ∘ h.lift (ix2 n a))
      = fun b : Fin 16 => headRow ⟨x2, x3, x4, x6, x5, x7, x8, x9⟩ (rowOf (val_main_v5 (F := Ideal) x0) n) (rowOf x1 n) (cell a b) :=
    funext fun b => by
      show val_main_v51 (F := Ideal) x0 x1 x2 x3 x4 x5 x6 x7 x8 x9 (h.lift (ix2 n a) b) = _
      rw [lift_last h n a b]
      exact ref_grid x0 x1 x2 x3 x4 x5 x6 x7 x8 x9 n a b
  unfold val_main_v52
  refine (Host.reduce_eq_fold_single (FloatOps.maximumf (F := Ideal) (φ := .f32))
    (val_main_v51 (F := Ideal) x0 x1 x2 x3 x4 x5 x6 x7 x8 x9) (val_main_cst_4 (F := Ideal))
    reducesTo_S245760x16x16_S245760x16_d2 h h_S_ (ix2 n a)).trans ?_
  exact congrArg (fun f => Finset.fold max negInfW f (Finset.univ : Finset (Fin 16))) hf

/-- The maxima over the grid's middle axis, from `-∞`, are the column maxima of every row's grid. -/
theorem ref_right (x0 : (⟨S16384x16x96, .f32⟩ : BufTy).Contents (Elt Ideal))
    (x1 : (⟨S245760x256, .f32⟩ : BufTy).Contents (Elt Ideal))
    (x2 : (⟨S192x256, .f32⟩ : BufTy).Contents (Elt Ideal))
    (x3 : (⟨S256, .f32⟩ : BufTy).Contents (Elt Ideal))
    (x4 x5 : (⟨S256x768, .f32⟩ : BufTy).Contents (Elt Ideal))
    (x6 x7 : (⟨S768, .f32⟩ : BufTy).Contents (Elt Ideal))
    (x8 : (⟨S256x256, .f32⟩ : BufTy).Contents (Elt Ideal))
    (x9 : (⟨S256, .f32⟩ : BufTy).Contents (Elt Ideal)) :
    val_main_v53 (F := Ideal) x0 x1 x2 x3 x4 x5 x6 x7 x8 x9
      = colMax ⟨x2, x3, x4, x6, x5, x7, x8, x9⟩ (val_main_v5 (F := Ideal) x0) x1 := by
  funext i
  obtain ⟨n, b, rfl⟩ : ∃ (n : Fin 245760) (b : Fin 16), i = ix2 n b := ⟨i 0, i 1, eq_ix2 i⟩
  rw [colMax_apply]
  have h : S245760x16x16.Reduces [1] S245760x16 := by decide
  have hf : (val_main_v51 (F := Ideal) x0 x1 x2 x3 x4 x5 x6 x7 x8 x9 ∘ h.lift (ix2 n b))
      = fun a : Fin 16 => headRow ⟨x2, x3, x4, x6, x5, x7, x8, x9⟩ (rowOf (val_main_v5 (F := Ideal) x0) n) (rowOf x1 n) (cell a b) :=
    funext fun a => by
      show val_main_v51 (F := Ideal) x0 x1 x2 x3 x4 x5 x6 x7 x8 x9 (h.lift (ix2 n b) a) = _
      rw [lift_mid h n a b]
      exact ref_grid x0 x1 x2 x3 x4 x5 x6 x7 x8 x9 n a b
  unfold val_main_v53
  refine (Host.reduce_eq_fold_single (FloatOps.maximumf (F := Ideal) (φ := .f32))
    (val_main_v51 (F := Ideal) x0 x1 x2 x3 x4 x5 x6 x7 x8 x9) (val_main_cst_5 (F := Ideal))
    reducesTo_S245760x16x16_S245760x16_d1 h h_S_ (ix2 n b)).trans ?_
  exact congrArg (fun f => Finset.fold max negInfW f (Finset.univ : Finset (Fin 16))) hf

/-! ## What the program does with the two arrays of maxima -/

/-- The program's first result as ONE function of the two arrays of maxima, at any float instance. The two arrays
    are laid side by side on a new last axis and the 491520 rows of 16 so obtained are re-read as 32768 blocks `D` of
    15 rows. Of block 0, rows 1 to 14 (`L`), and of block 1, rows 0 to 13 (`R`), the row maxima from `-∞` are
    compared (greater than), and where the bit is set the row of `L` is chosen, else the row of `R`. The result
    is, in each of its 16384 blocks of 16 rows: row 0 of block `D`, then the 14 chosen rows, then row 14 of block
    `D`. -/
def tail {F : FTy → Type} [FloatOps F] (l r : (⟨S245760x16, .f32⟩ : BufTy).Contents (Elt F)) :
    (⟨S16384x16x16, .f32⟩ : BufTy).Contents (Elt F) :=
  let D : (⟨S32768x15x16, .f32⟩ : BufTy).Contents (Elt F) :=
    shapeCast _ (shapeCast S491520x16 (concatenate S245760x16x2 2
      [⟨S245760x16x1, (broadcastInDim S245760x16x1 ![0, 1] bcast_S245760x16_S245760x16x1_0_1 l)⟩,
       ⟨S245760x16x1, (broadcastInDim S245760x16x1 ![0, 1] bcast_S245760x16_S245760x16x1_0_1 r)⟩]
      concatenates_S245760x16x1_S245760x16x1_S245760x16x2_d2) shapeCasts_S245760x16x2_S491520x16)
      shapeCasts_S491520x16_S32768x15x16
  let L : (⟨S14x16, .f32⟩ : BufTy).Contents (Elt F) :=
    shapeCast _ (extractStridedSlice S1x14x16 ![0, 1, 0] D slices_S32768x15x16_S1x14x16_0_1_0) shapeCasts_S1x14x16_S14x16
  let R : (⟨S14x16, .f32⟩ : BufTy).Contents (Elt F) :=
    shapeCast _ (extractStridedSlice S1x14x16 ![1, 0, 0] D slices_S32768x15x16_S1x14x16_1_0_0) shapeCasts_S1x14x16_S14x16
  let bit : (⟨S14, .i1⟩ : BufTy).Contents (Elt F) :=
    cmpf (F := F) .ogt
      (Host.reduce (FloatOps.maximumf (F := F) (φ := .f32)) L (constant (F := F) S_ .f32 0xFF800000#32) reducesTo_S14x16_S14_d1 h_S_)
      (Host.reduce (FloatOps.maximumf (F := F) (φ := .f32)) R (constant (F := F) S_ .f32 0xFF800000#32) reducesTo_S14x16_S14_d1 h_S_)
  let chosen : (⟨S14x16, .f32⟩ : BufTy).Contents (Elt F) :=
    select (broadcastInDim S14x16 ![0, 1] bcast_S14x1_S14x16_0_1 (broadcastInDim S14x1 ![0] bcast_S14_S14x1_0 bit)) L R
  concatenate S16384x16x16 1
    [⟨S16384x1x16, extractStridedSlice S16384x1x16 ![0, 0, 0] D slices_S32768x15x16_S16384x1x16_0_0_0⟩,
     ⟨S16384x14x16, broadcastInDim S16384x14x16 ![0, 1, 2] bcast_S1x14x16_S16384x14x16_0_1_2
        (broadcastInDim S1x14x16 ![1, 2] bcast_S14x16_S1x14x16_1_2 chosen)⟩,
     ⟨S16384x1x16, extractStridedSlice S16384x1x16 ![0, 14, 0] D slices_S32768x15x16_S16384x1x16_0_14_0⟩]
    concatenates_S16384x1x16_S16384x14x16_S16384x1x16_S16384x16x16_d1

/-- RESULT 0 of the reference program is that function of its two arrays of maxima: the same operations, in the
    same order. -/
theorem ref_tail {F : FTy → Type} [FloatOps F] (x0 : (⟨S16384x16x96, .f32⟩ : BufTy).Contents (Elt F))
    (x1 : (⟨S245760x256, .f32⟩ : BufTy).Contents (Elt F))
    (x2 : (⟨S192x256, .f32⟩ : BufTy).Contents (Elt F))
    (x3 : (⟨S256, .f32⟩ : BufTy).Contents (Elt F))
    (x4 x5 : (⟨S256x768, .f32⟩ : BufTy).Contents (Elt F))
    (x6 x7 : (⟨S768, .f32⟩ : BufTy).Contents (Elt F))
    (x8 : (⟨S256x256, .f32⟩ : BufTy).Contents (Elt F))
    (x9 : (⟨S256, .f32⟩ : BufTy).Contents (Elt F)) :
    val_main_v72 (F := F) x0 x1 x2 x3 x4 x5 x6 x7 x8 x9
      = tail (val_main_v52 (F := F) x0 x1 x2 x3 x4 x5 x6 x7 x8 x9) (val_main_v53 (F := F) x0 x1 x2 x3 x4 x5 x6 x7 x8 x9) := by
  unfold val_main_v72 val_main_v71 val_main_v70 val_main_v69 val_main_v68 val_main_v67 val_main_call1_v0 val_main_v66
    val_main_v65 val_main_v64 val_main_cst_7 val_main_v63 val_main_cst_6 val_main_v62 val_main_v61 val_main_v60
    val_main_v59 val_main_v58 val_main_v57 val_main_v56 val_main_v55 val_main_v54 tail
  rfl

end Cert.ReferenceIdeal.RefValue

end
-- ==== Proof.RefRunAll.lean ====
import proofs.«156184_j52063593562852_1_alg».proof.Proof.RefRun
import proofs.«156184_j52063593562852_1_alg».proof.Proof.RefRead
import proofs.«156184_j52063593562852_1_alg».proof.Proof.LibNary3

/-!
# The reference program's run, with its decoded output

The reference's 85 host operations fall into two stretches. The first 63 end with the two arrays of maxima of the
head's 16 × 16 grid (along its rows and along its columns). The last 22 read nothing else: they interleave the two
arrays, read the interleaved rows as `[32768, 15, 16]`, pick per interior position the row of the group whose
maximum is the larger among the first two groups, and put the first rows, the picked interior rows (the same for
every batch element) and the last rows together. So the decoded output after the whole list is that function
(`decoded`) of the two arrays as the first stretch leaves them, and those are the stages of the two reductions.
-/

noncomputable section

namespace Cert.ReferenceIdeal.RunAll

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ## The last stretch as a function of the two arrays of maxima -/

/-- The two arrays interleaved entry by entry, read as `[32768, 15, 16]`. -/
def paired (l r : (⟨S245760x16, .f32⟩ : BufTy).Contents (Elt F)) : (⟨S32768x15x16, .f32⟩ : BufTy).Contents (Elt F) :=
  shapeCast S32768x15x16 (shapeCast S491520x16 (concatenate S245760x16x2 2 [⟨S245760x16x1, broadcastInDim S245760x16x1 ![0, 1] bcast_S245760x16_S245760x16x1_0_1 l⟩, ⟨S245760x16x1, broadcastInDim S245760x16x1 ![0, 1] bcast_S245760x16_S245760x16x1_0_1 r⟩] concatenates_S245760x16x1_S245760x16x1_S245760x16x2_d2) shapeCasts_S245760x16x2_S491520x16) shapeCasts_S491520x16_S32768x15x16

/-- Rows 1 to 14 of group 0. -/
def firstRows (D : (⟨S32768x15x16, .f32⟩ : BufTy).Contents (Elt F)) : (⟨S14x16, .f32⟩ : BufTy).Contents (Elt F) :=
  shapeCast S14x16 (extractStridedSlice S1x14x16 ![0, 1, 0] D slices_S32768x15x16_S1x14x16_0_1_0) shapeCasts_S1x14x16_S14x16
/-- Rows 0 to 13 of group 1. -/
def secondRows (D : (⟨S32768x15x16, .f32⟩ : BufTy).Contents (Elt F)) : (⟨S14x16, .f32⟩ : BufTy).Contents (Elt F) :=
  shapeCast S14x16 (extractStridedSlice S1x14x16 ![1, 0, 0] D slices_S32768x15x16_S1x14x16_1_0_0) shapeCasts_S1x14x16_S14x16

/-- Row by row, the row of `A` where its maximum is greater than that of `B`'s row, else `B`'s row. -/
def picked (A B : (⟨S14x16, .f32⟩ : BufTy).Contents (Elt F)) : (⟨S14x16, .f32⟩ : BufTy).Contents (Elt F) :=
  select (broadcastInDim S14x16 ![0, 1] bcast_S14x1_S14x16_0_1 (broadcastInDim S14x1 ![0] bcast_S14_S14x1_0
    (cmpf .ogt (Host.reduce FloatOps.maximumf A (constant (F := F) S_ .f32 0xFF800000#32) reducesTo_S14x16_S14_d1 h_S_)
      (Host.reduce FloatOps.maximumf B (constant (F := F) S_ .f32 0xFF800000#32) reducesTo_S14x16_S14_d1 h_S_)))) A B

/-- First rows, the picked interior rows for every batch element, last rows. -/
def decodedOf (D : (⟨S32768x15x16, .f32⟩ : BufTy).Contents (Elt F)) : (⟨S16384x16x16, .f32⟩ : BufTy).Contents (Elt F) :=
  concatenate S16384x16x16 1 [⟨S16384x1x16, extractStridedSlice S16384x1x16 ![0, 0, 0] D slices_S32768x15x16_S16384x1x16_0_0_0⟩, ⟨S16384x14x16, broadcastInDim S16384x14x16 ![0, 1, 2] bcast_S1x14x16_S16384x14x16_0_1_2 (broadcastInDim S1x14x16 ![1, 2] bcast_S14x16_S1x14x16_1_2 (picked (firstRows D) (secondRows D)))⟩, ⟨S16384x1x16, extractStridedSlice S16384x1x16 ![0, 14, 0] D slices_S32768x15x16_S16384x1x16_0_14_0⟩] concatenates_S16384x1x16_S16384x14x16_S16384x1x16_S16384x16x16_d1

/-- The decoded output as a function of the two arrays of maxima. -/
def decoded (l r : (⟨S245760x16, .f32⟩ : BufTy).Contents (Elt F)) : (⟨S16384x16x16, .f32⟩ : BufTy).Contents (Elt F) :=
  decodedOf (paired l r)

/-- The last 22 operations of the list. -/
abbrev tailOps : List (HloOp τ sig (Elt F)) :=
  [ unary main_v52 main_v54 (broadcastInDim S245760x16x1 ![0, 1] bcast_S245760x16_S245760x16x1_0_1 : (⟨S245760x16, .f32⟩ : BufTy).Contents (Elt F) → (⟨S245760x16x1, .f32⟩ : BufTy).Contents (Elt F)),
    unary main_v53 main_v55 (broadcastInDim S245760x16x1 ![0, 1] bcast_S245760x16_S245760x16x1_0_1 : (⟨S245760x16, .f32⟩ : BufTy).Contents (Elt F) → (⟨S245760x16x1, .f32⟩ : BufTy).Contents (Elt F)),
    binary main_v54 main_v55 main_v56 ((fun a b => concatenate S245760x16x2 2 [⟨S245760x16x1, a⟩, ⟨S245760x16x1, b⟩] concatenates_S245760x16x1_S245760x16x1_S245760x16x2_d2) : (⟨S245760x16x1, .f32⟩ : BufTy).Contents (Elt F) → (⟨S245760x16x1, .f32⟩ : BufTy).Contents (Elt F) → (⟨S245760x16x2, .f32⟩ : BufTy).Contents (Elt F)),
    reshape main_v56 main_v57 rfl shapeCasts_S245760x16x2_S491520x16,
    reshape main_v57 main_v58 rfl shapeCasts_S491520x16_S32768x15x16,
    unary main_v58 main_v59 ((extractStridedSlice S1x14x16 ![0, 1, 0] · slices_S32768x15x16_S1x14x16_0_1_0) : (⟨S32768x15x16, .f32⟩ : BufTy).Contents (Elt F) → (⟨S1x14x16, .f32⟩ : BufTy).Contents (Elt F)),
    reshape main_v59 main_v60 rfl shapeCasts_S1x14x16_S14x16,
    unary main_v58 main_v61 ((extractStridedSlice S1x14x16 ![1, 0, 0] · slices_S32768x15x16_S1x14x16_1_0_0) : (⟨S32768x15x16, .f32⟩ : BufTy).Contents (Elt F) → (⟨S1x14x16, .f32⟩ : BufTy).Contents (Elt F)),
    reshape main_v61 main_v62 rfl shapeCasts_S1x14x16_S14x16,
    nullary main_cst_6 (constant S_ .f32 0xFF800000#32),
    binary main_v60 main_cst_6 main_v63 ((fun x v => Host.reduce FloatOps.maximumf x v reducesTo_S14x16_S14_d1 h_S_) : (⟨S14x16, .f32⟩ : BufTy).Contents (Elt F) → (⟨S_, .f32⟩ : BufTy).Contents (Elt F) → (⟨S14, .f32⟩ : BufTy).Contents (Elt F)),
    nullary main_cst_7 (constant S_ .f32 0xFF800000#32),
    binary main_v62 main_cst_7 main_v64 ((fun x v => Host.reduce FloatOps.maximumf x v reducesTo_S14x16_S14_d1 h_S_) : (⟨S14x16, .f32⟩ : BufTy).Contents (Elt F) → (⟨S_, .f32⟩ : BufTy).Contents (Elt F) → (⟨S14, .f32⟩ : BufTy).Contents (Elt F)),
    binary main_v63 main_v64 main_v65 (cmpf .ogt : (⟨S14, .f32⟩ : BufTy).Contents (Elt F) → (⟨S14, .f32⟩ : BufTy).Contents (Elt F) → (⟨S14, .i1⟩ : BufTy).Contents (Elt F)),
    unary main_v65 main_v66 (broadcastInDim S14x1 ![0] bcast_S14_S14x1_0 : (⟨S14, .i1⟩ : BufTy).Contents (Elt F) → (⟨S14x1, .i1⟩ : BufTy).Contents (Elt F)),
    TRef.unary (TRef.of (T := ⟨S14x1, .i1⟩) main_v66) (TRef.of (T := ⟨S14x16, .i1⟩) main_call1_v0) (broadcastInDim S14x16 ![0, 1] bcast_S14x1_S14x16_0_1),
    TRef.ternary (TRef.of (T := ⟨S14x16, .i1⟩) main_call1_v0) (TRef.of (T := ⟨S14x16, .f32⟩) main_v60) (TRef.of (T := ⟨S14x16, .f32⟩) main_v62) (TRef.of (T := ⟨S14x16, .f32⟩) main_v67) select,
    unary main_v58 main_v68 ((extractStridedSlice S16384x1x16 ![0, 0, 0] · slices_S32768x15x16_S16384x1x16_0_0_0) : (⟨S32768x15x16, .f32⟩ : BufTy).Contents (Elt F) → (⟨S16384x1x16, .f32⟩ : BufTy).Contents (Elt F)),
    unary main_v67 main_v69 (broadcastInDim S1x14x16 ![1, 2] bcast_S14x16_S1x14x16_1_2 : (⟨S14x16, .f32⟩ : BufTy).Contents (Elt F) → (⟨S1x14x16, .f32⟩ : BufTy).Contents (Elt F)),
    unary main_v69 main_v70 (broadcastInDim S16384x14x16 ![0, 1, 2] bcast_S1x14x16_S16384x14x16_0_1_2 : (⟨S1x14x16, .f32⟩ : BufTy).Contents (Elt F) → (⟨S16384x14x16, .f32⟩ : BufTy).Contents (Elt F)),
    unary main_v58 main_v71 ((extractStridedSlice S16384x1x16 ![0, 14, 0] · slices_S32768x15x16_S16384x1x16_0_14_0) : (⟨S32768x15x16, .f32⟩ : BufTy).Contents (Elt F) → (⟨S16384x1x16, .f32⟩ : BufTy).Contents (Elt F)),
    nary ![main_v68, main_v70, main_v71] main_v72 (fun u => concatenate S16384x16x16 1 [⟨S16384x1x16, u 0⟩, ⟨S16384x14x16, u 1⟩, ⟨S16384x1x16, u 2⟩] concatenates_S16384x1x16_S16384x14x16_S16384x1x16_S16384x16x16_d1) ]

/-- Lists run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The list is its first 63 operations followed by the last 22. -/
theorem ops_split : (ValueP.ops : List (HloOp τ sig (Elt F))) = ValueP.ops.take 63 ++ tailOps :=
  (List.take_append_drop 63 _).symm

theorem after_split (V : Valuation τ sig (Elt F)) :
    after ValueP.ops V = after tailOps (after (ValueP.ops.take 63) V) :=
  (congrArg (fun l => after l V) ops_split).trans (after_app _ _ V)

variable (W : Valuation τ sig (Elt F))

/-- The last stretch does not write the array of row maxima … -/
theorem tail_keeps_v52 : after tailOps W (Proc.devRef .tc main_v52) = W (Proc.devRef .tc main_v52) := by
  simp only [after_cons, after_nil]
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)
    | (rw [nary_result_ne]; rotate_left; decide))

/-- … nor the array of column maxima. -/
theorem tail_keeps_v53 : after tailOps W (Proc.devRef .tc main_v53) = W (Proc.devRef .tc main_v53) := by
  simp only [after_cons, after_nil]
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)
    | (rw [nary_result_ne]; rotate_left; decide))

set_option maxHeartbeats 8000000 in
/-- After the last stretch, from any contents, the decoded output is `decoded` of the two arrays as they were. -/
theorem tail_v72 : after tailOps W (Proc.devRef .tc main_v72)
    = decoded (W (Proc.devRef .tc main_v52)) (W (Proc.devRef .tc main_v53)) := by
  unfold decoded decodedOf picked firstRows secondRows paired
  simp only [after_cons, after_nil]
  rw [nary3_result]
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)
    | (rw [nary_result_ne]; rotate_left; decide))
  rfl

/-- `decoded` of the two reductions' stages is the last stage. -/
theorem decoded_stages (x0 : (⟨S16384x16x96, .f32⟩ : BufTy).Contents (Elt F)) (x1 : (⟨S245760x256, .f32⟩ : BufTy).Contents (Elt F)) (x2 : (⟨S192x256, .f32⟩ : BufTy).Contents (Elt F)) (x3 : (⟨S256, .f32⟩ : BufTy).Contents (Elt F)) (x4 x5 : (⟨S256x768, .f32⟩ : BufTy).Contents (Elt F)) (x6 x7 : (⟨S768, .f32⟩ : BufTy).Contents (Elt F)) (x8 : (⟨S256x256, .f32⟩ : BufTy).Contents (Elt F)) (x9 : (⟨S256, .f32⟩ : BufTy).Contents (Elt F)) :
    decoded (val_main_v52 (F := F) x0 x1 x2 x3 x4 x5 x6 x7 x8 x9) (val_main_v53 (F := F) x0 x1 x2 x3 x4 x5 x6 x7 x8 x9) = val_main_v72 (F := F) x0 x1 x2 x3 x4 x5 x6 x7 x8 x9 := by
  unfold decoded decodedOf picked firstRows secondRows paired val_main_v72 val_main_v71 val_main_v70 val_main_v69 val_main_v68
    val_main_v67 val_main_call1_v0 val_main_v66 val_main_v65 val_main_v64 val_main_v63 val_main_cst_6 val_main_cst_7
    val_main_v62 val_main_v61 val_main_v60 val_main_v59 val_main_v58 val_main_v57 val_main_v56 val_main_v55 val_main_v54
  rfl

/-! ## The first stretch: the two arrays of maxima -/

variable (m : (ℓ : Loc nD τ sig) → Buf (Elt F) ℓ) (c : Dev nD)

set_option maxRecDepth 8192 in
set_option maxHeartbeats 8000000 in
/-- After the whole list the array of row maxima is its stage of the arguments … -/
theorem full_v52 : after ValueP.ops (launchContents m c) (Proc.devRef .tc main_v52)
    = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  after_results_simp <;> rfl

set_option maxRecDepth 8192 in
set_option maxHeartbeats 8000000 in
/-- … and so is the array of column maxima. -/
theorem full_v53 : after ValueP.ops (launchContents m c) (Proc.devRef .tc main_v53)
    = val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  after_results_simp <;> rfl

/-- The same after the first 63 operations, since the last stretch leaves the two arrays alone. -/
theorem head_v52 : after (ValueP.ops.take 63) (launchContents m c) (Proc.devRef .tc main_v52)
    = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  ((tail_keeps_v52 _).symm.trans (congrFun (after_split (launchContents m c)).symm _)).trans (full_v52 m c)
theorem head_v53 : after (ValueP.ops.take 63) (launchContents m c) (Proc.devRef .tc main_v53)
    = val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  ((tail_keeps_v53 _).symm.trans (congrFun (after_split (launchContents m c)).symm _)).trans (full_v53 m c)

/-- After the whole list the decoded output is its stage of the arguments. -/
theorem full_v72 : after ValueP.ops (launchContents m c) (Proc.devRef .tc main_v72)
    = val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [after_split, tail_v72, head_v52 m c, head_v53 m c]
  exact decoded_stages _ _ _ _ _ _ _ _ _ _

/-! ## The run -/

set_option maxRecDepth 8192 in
set_option maxHeartbeats 34000000 in
/-- On every device, for any float values, from any memory with zero counters: every weakly fair execution of the
    reference terminates with the decoded output and the new state at their stages of the arguments, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72) = val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v46) = val_main_v46 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v72).trans (full_v72 m c),
      ((h c main_v46).trans (by after_results_simp <;> rfl <;> (unfold ValueP.res_main_v46; rfl))).trans (val_main_v46_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq ValueP.scopedRefs_eq ValueP.scopedSems_eq defs main (fun _ => ValueP.ops) ValueP.main_eq (fun _ => ValueP.ops_sub) m ρ)

end Cert.ReferenceIdeal.RunAll

end
-- ==== Proof.Bridge.lean ====
import proofs.«156184_j52063593562852_1_alg».proof.Proof.KernelHost
import proofs.«156184_j52063593562852_1_alg».proof.Proof.RefValue

/-!
# The two programs' host operations are the same functions

Both programs pair the agents' features with the same operations before anything else, and both decode the two arrays
of maxima with the same operations at the end; only the names of the shape facts they cite differ. So the pairing and
the decoding are ONE function each, at any float instance.
-/

noncomputable section

namespace Cert.Bridge

open Idealize.ShloMosaic

variable {F : FTy → Type} [FloatOps F]

/-- The kernel program's paired rows are the reference's. -/
theorem pairs_eq (x0 : (⟨Cert.KernelIdeal.S16384x16x96, .f32⟩ : BufTy).Contents (Elt F)) :
    Cert.KernelIdeal.Host.pairs (F := F) x0 = Cert.ReferenceIdeal.ReadP.val_main_v5 (F := F) x0 := by
  unfold Cert.KernelIdeal.Host.pairs Cert.ReferenceIdeal.ReadP.val_main_v5 Cert.ReferenceIdeal.ReadP.val_main_v4
    Cert.ReferenceIdeal.ReadP.val_main_v3 Cert.ReferenceIdeal.ReadP.val_main_v2 Cert.ReferenceIdeal.ReadP.val_main_v1
    Cert.ReferenceIdeal.ReadP.val_main_v0
  rfl

/-- The kernel program's decoding of the two arrays of maxima is the reference's. -/
theorem decode_eq (l r : (⟨Cert.KernelIdeal.S245760x16, .f32⟩ : BufTy).Contents (Elt F)) :
    Cert.KernelIdeal.Host.decode (F := F) l r = Cert.ReferenceIdeal.RefValue.tail (F := F) l r := by
  unfold Cert.KernelIdeal.Host.decode Cert.KernelIdeal.Host.assemble Cert.KernelIdeal.Host.chosen Cert.KernelIdeal.Host.groupL
    Cert.KernelIdeal.Host.groupR Cert.KernelIdeal.Host.interleaved Cert.ReferenceIdeal.RefValue.tail
  rfl

end Cert.Bridge

end
-- ==== Proof.lean ====
/-
  The certificate of a recurrent-cell step with a max-decoding head, computed by a tiled kernel, against its plain
  reference, over the extended reals.

  Both programs pair adjacent agents' features into rows of 192, and per row compute a rectified affine layer, the
  input and state gates of a gated recurrent cell, the new state `(1 - z)·n + z·h`, a 256-entry head read as a 16 × 16
  grid, and the maxima of the grid's rows and of its columns; a last stretch of host operations interleaves the two
  arrays of maxima and decodes them. The kernel does the per-row part in a region of 240 points, each on a tile of
  1024 rows with the weights whole; the reference does it on the whole batch. Over the extended reals the narrowing
  of the matrix operands is the identity, the kernel's logistic operation is the quotient the reference spells, a
  product into a zero accumulator is the plain sum of products, and every row's result depends on that row alone:
  so each block the kernel writes is a block of the reference's arrays (Proof/Spec.lean states the row-wise step,
  Proof/KernelPay.lean that the kernel's arithmetic on a tile is that step, Proof/RefValue.lean the same for the
  reference's operations, Proof/KernelValue.lean that the blocks cover the arrays and what the host operations around
  the region do, Proof/Bridge.lean that the host operations the two programs share are the same functions). No law of
  arithmetic is used beyond reading both sides at an index, so the inputs' finiteness is never opened.
  The frames of the two kernel programs (they run to the end, fault nowhere, leave their arguments unchanged) are
  Proof/FrameK.lean and Proof/FrameI.lean; the reference's frame is its run with the results dropped
  (Proof/RefRunAll.lean).
-/
import proofs.«156184_j52063593562852_1_alg».proof.Defs
import proofs.«156184_j52063593562852_1_alg».proof.Proof.Gen.Kernel
import proofs.«156184_j52063593562852_1_alg».proof.Proof.Gen.KernelIdeal
import proofs.«156184_j52063593562852_1_alg».proof.Proof.Gen.ReferenceIdeal
import proofs.«156184_j52063593562852_1_alg».proof.Proof.Gen.Pre_finite_inputs
import proofs.«156184_j52063593562852_1_alg».proof.Proof.FrameK
import proofs.«156184_j52063593562852_1_alg».proof.Proof.FrameI
import proofs.«156184_j52063593562852_1_alg».proof.Proof.KernelValue
import proofs.«156184_j52063593562852_1_alg».proof.Proof.RefValue
import proofs.«156184_j52063593562852_1_alg».proof.Proof.RefRunAll
import proofs.«156184_j52063593562852_1_alg».proof.Proof.Bridge
import Idealize.ShloMosaic.Adequacy
import Idealize.ShloMosaic.Init

noncomputable section

namespace Cert.Proof

open Idealize.ShloMosaic Idealize.SL.Sem

theorem frame_p : Cert.frame_Kernel := fun m ρ _ => Cert.Kernel.Fr.frame m ρ

theorem frame_pi : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2.2) (Cert.ReferenceIdeal.RunAll.run (F := Ideal) m ρ)

theorem preserves : Cert.preserves_Kernel_KernelIdeal := trivial

/-- At the extended reals both programs end with the decoded output at the same function of the two arrays of maxima,
    those at `rowMax` / `colMax` of the paired features, the state and the weights, and the new states at `newState`
    of the same: the kernel's by its blocks, the reference's by its operations read at an index. -/
theorem algebraic : Cert.algebraic_KernelIdeal_ReferenceIdeal := by
  intro m ρ m' ρ' _ hagree
  refine ⟨_, _, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.RunAll.run (F := Ideal) m' ρ')
  · obtain ⟨h0, h1, h2, h3, h4, h5, h6, h7, h8, h9⟩ := hagree c
    rw [Cert.ReferenceIdeal.RefValue.ref_tail, Cert.ReferenceIdeal.RefValue.ref_left, Cert.ReferenceIdeal.RefValue.ref_right,
      h0, h1, h2, h3, h4, h5, h6, h7, h8, h9, ← Cert.Bridge.pairs_eq, ← Cert.Bridge.decode_eq]
    rfl
  · obtain ⟨h0, h1, h2, h3, h4, h5, h6, h7, h8, h9⟩ := hagree c
    rw [Cert.ReferenceIdeal.RefValue.ref_state _ _ _ _ _ _ _ _ (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9)),
      h0, h1, h2, h3, h4, h5, h6, h7, h8, h9, ← Cert.Bridge.pairs_eq]
    rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
